-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S8x2048x2048 .f32) (main_arg2 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S8x2048x1 : Shape := ⟨3, ![8, 2048, 1]⟩
abbrev S8x1x2048 : Shape := ⟨3, ![8, 1, 2048]⟩
abbrev S1x512x2048 : Shape := ⟨3, ![1, 512, 2048]⟩
abbrev S1x512x1 : Shape := ⟨3, ![1, 512, 1]⟩
abbrev S1x1x2048 : Shape := ⟨3, ![1, 1, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S8x2048 : Shape := ⟨2, ![8, 2048]⟩
abbrev S_ : Shape := ⟨0, ![]⟩
abbrev S1x2048x128 : Shape := ⟨3, ![1, 2048, 128]⟩
abbrev S2048x128 : Shape := ⟨2, ![2048, 128]⟩
abbrev S1x512x128 : Shape := ⟨3, ![1, 512, 128]⟩
abbrev S512x128 : Shape := ⟨2, ![512, 128]⟩

abbrev nBuf : Space → Nat
  | .hbm => 34
  | .vmem => 23
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048x1, .f32⟩
  | .hbm, ⟨4, _⟩ => ⟨S8x2048x1, .f32⟩
  | .hbm, ⟨5, _⟩ => ⟨S8x1x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .i1⟩
  | .hbm, ⟨13, _⟩ => ⟨S_, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .i1⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x2048x128, .bf16⟩
  | .hbm, ⟨31, _⟩ => ⟨S8x2048x1, .f32⟩
  | .hbm, ⟨32, _⟩ => ⟨S8x2048x1, .f32⟩
  | .hbm, ⟨33, _⟩ => ⟨S8x2048x128, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x128, .f32⟩
  | .local _ .vmem, ⟨9, _⟩ => ⟨S1x2048x128, .f32⟩
  | .local _ .vmem, ⟨10, _⟩ => ⟨S128x128, .f32⟩
  | .local _ .vmem, ⟨11, _⟩ => ⟨S1x2048x128, .bf16⟩
  | .local _ .vmem, ⟨12, _⟩ => ⟨S1x2048x128, .bf16⟩
  | .local _ .vmem, ⟨13, _⟩ => ⟨S1x512x2048, .f32⟩
  | .local _ .vmem, ⟨14, _⟩ => ⟨S1x512x2048, .f32⟩
  | .local _ .vmem, ⟨15, _⟩ => ⟨S1x2048x128, .bf16⟩
  | .local _ .vmem, ⟨16, _⟩ => ⟨S1x2048x128, .bf16⟩
  | .local _ .vmem, ⟨17, _⟩ => ⟨S1x512x1, .f32⟩
  | .local _ .vmem, ⟨18, _⟩ => ⟨S1x512x1, .f32⟩
  | .local _ .vmem, ⟨19, _⟩ => ⟨S1x512x1, .f32⟩
  | .local _ .vmem, ⟨20, _⟩ => ⟨S1x512x1, .f32⟩
  | .local _ .vmem, ⟨21, _⟩ => ⟨S1x512x128, .f32⟩
  | .local _ .vmem, ⟨22, _⟩ => ⟨S1x512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x2048_S2048 : S512x2048.Reduces [0] S2048
  shapeCasts_S2048_S1x2048 : S2048.ShapeCasts S1x2048
  iota_S512x2048_d1_w32 : S512x2048.Iotas .tc 32 [1]
  iota_S512x1_d0_w32 : S512x1.Iotas .tc 32 [0]
  broadcasts_S512x1_S512x2048 : S512x1.Broadcasts S512x2048
  shapeCasts_S8x2048x1_S8x2048 : S8x2048x1.ShapeCasts S8x2048
  shapeCasts_S8x1x2048_S8x2048 : S8x1x2048.ShapeCasts S8x2048
  bcast_S_S8x2048 : S_.BroadcastsInDim S8x2048 (![] : Fin 0 → Fin S8x2048.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  shapeCasts_S8x2048_S8x2048x1 : S8x2048.ShapeCasts S8x2048x1
  shapeCasts_S512x1_S512x1 : S512x1.ShapeCasts S512x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S2048x128_S128x128_S2048x128_1_0_0_1_n_n_wf : DotDims.WF S2048x128 S128x128 S2048x128 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x2048x1.size a
  hwx0_1 : ∀ i : grid0.Coords, EltTy.bits .f32 = 32 ∨ (Rect.block (s := S8x2048x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S8x2048x128.size a
  hwx1_0 : ∀ i : grid1.Coords, EltTy.bits .f32 = 32 ∨ (Rect.block (s := S8x2048x128) S1x2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S8x2048x128.size a
  hwx1_2 : ∀ i : grid1.Coords, EltTy.bits .bf16 = 32 ∨ (Rect.block (s := S8x2048x128) S1x2048x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x2048.size a ≤ S8x2048x2048.size a
  hwx2_0 : ∀ i : grid2.Coords, EltTy.bits .f32 = 32 ∨ (Rect.block (s := S8x2048x2048) S1x512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S8x2048x128.size a
  hwx2_1 : ∀ i : grid2.Coords, EltTy.bits .bf16 = 32 ∨ (Rect.block (s := S8x2048x128) S1x2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1.size a ≤ S8x2048x1.size a
  hwx2_2 : ∀ i : grid2.Coords, EltTy.bits .f32 = 32 ∨ (Rect.block (s := S8x2048x1) S1x512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1.size a ≤ S8x2048x1.size a
  hwx2_3 : ∀ i : grid2.Coords, EltTy.bits .f32 = 32 ∨ (Rect.block (s := S8x2048x1) S1x512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x128.size a ≤ S8x2048x128.size a
  hwx2_4 : ∀ i : grid2.Coords, EltTy.bits .f32 = 32 ∨ (Rect.block (s := S8x2048x128) S1x512x128.size (cc2_transform_4 i) (hinb2_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1x512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x512x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩
abbrev S8x2048 : Shape := ⟨2, ![8, 2048]⟩
abbrev S2048 : Shape := ⟨1, ![2048]⟩
abbrev S2048x1 : Shape := ⟨2, ![2048, 1]⟩
abbrev S2048x2 : Shape := ⟨2, ![2048, 2]⟩
abbrev S8x2048x1 : Shape := ⟨3, ![8, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .i1⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1, .i32⟩
  | .hbm, ⟨27, _⟩ => ⟨S2048x2, .i32⟩
  | .hbm, ⟨28, _⟩ => ⟨S8x2048, .f32⟩
  | .hbm, ⟨29, _⟩ => ⟨S_, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S2048x1, .i32⟩
  | .hbm, ⟨49, _⟩ => ⟨S2048x2, .i32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .i1⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S_, .f32⟩
  | .hbm, ⟨61, _⟩ => ⟨S8x2048, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x128, .f32⟩
  | .hbm, ⟨67, _⟩ => ⟨S_, .f32⟩
  | .hbm, ⟨68, _⟩ => ⟨S_, .f32⟩
  | .hbm, ⟨69, _⟩ => ⟨S8x2048x128, .f32⟩
  | .hbm, ⟨70, _⟩ => ⟨S8x2048x128, .i1⟩
  | .hbm, ⟨71, _⟩ => ⟨S_, .f32⟩
  | .hbm, ⟨72, _⟩ => ⟨S8x2048x128, .f32⟩
  | .hbm, ⟨73, _⟩ => ⟨S8x2048x128, .f32⟩
  | .hbm, ⟨74, _⟩ => ⟨S8x2048x128, .f32⟩
  | .hbm, ⟨75, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  transposes_S8x2048x2048_S8x2048x2048_0_2_1 : S8x2048x2048.Transposes [0, 2, 1] S8x2048x2048
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x128 : S_.BroadcastsInDim S8x2048x128 (![] : Fin 0 → Fin S8x2048x128.rank)
  gather_S8x2048x2048_S2048x2_S8x2048_0_12_n_n_12_1_811_wf : GatherDims.WF S8x2048x2048 S2048x2 S8x2048 [0] [1, 2] [] [1, 2] [] 1 ![8, 1, 1]
  scatter_S8x2048x2048_S2048x2_S8x2048_0_12_12_1_wf : ScatterDims.WF S8x2048x2048 S2048x2 S8x2048 [0] [1, 2] [1, 2] 1
  dot_S8x2048x128_S128x128_S8x2048x128_2_1_01_0_n_n_wf : DotDims.WF S8x2048x128 S128x128 S8x2048x128 [2] [1] [0, 1] [0] [] []
  dot_S8x2048x2048_S8x2048x128_S8x2048x128_2_1_1_2_0_0_wf : DotDims.WF S8x2048x2048 S8x2048x128 S8x2048x128 [2] [1] [1] [2] [0] [0]

variable [Facts₀]

def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf
def scatter_S8x2048x2048_S2048x2_S8x2048_0_12_12_1 : ScatterDims S8x2048x2048 S2048x2 S8x2048 where
  updateWindowDims := [0]
  insertedWindowDims := [1, 2]
  scatterDimsToOperandDims := [1, 2]
  indexVectorDim := 1
  wf := scatter_S8x2048x2048_S2048x2_S8x2048_0_12_12_1_wf
def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  The mathematics of the certificate, as plain functions on the extended reals.

  Write A for one batch's adjacency matrix. The program under proof and its reference both replace A's diagonal by a
  self-loop value ν (1 where a node has any edge in or out, the old diagonal entry elsewhere), divide every row by its new
  row sum d (the reciprocal read as 0 where d = 0), and multiply the normalised matrix into the hidden features
  h = leakyReLU(x Wᵀ).

  The two differ in how ν's test and d are computed:
    * the program tests (row sum of A) + (column sum of A), and takes d = (row sum of A) − A_ii + ν;
    * the reference tests the row sum of A + Aᵀ, and takes d = the row sum of the matrix with its diagonal replaced.
  The tests agree in any commutative monoid. The degrees agree because A_ii cancels — which needs A_ii finite: on the
  extended reals (⊤ + s) − ⊤ is not s. That is the one place the precondition is used.
-/
import Idealize.ShloMosaic.PureOps.Ideal
import Idealize.ShloMosaic.Lib.ValueIdx

noncomputable section

open scoped BigOperators

namespace Cert.Spec

open Idealize.ShloMosaic Idealize.ShloMosaic.ValueIdx

/-- The adjacency tensor's, the feature tensor's and the weight matrix's shapes. -/
abbrev SA : Shape := ⟨3, ![8, 2048, 2048]⟩
abbrev SX : Shape := ⟨3, ![8, 2048, 128]⟩
abbrev SW : Shape := ⟨2, ![128, 128]⟩

/-- The three float literals both programs spell, kept as their binary words: 0, 1 and the leaky slope. -/
def zero : EReal := Ideal.ofBits .f32 0x00000000#32
def one : EReal := Ideal.ofBits .f32 0x3F800000#32
def slope : EReal := Ideal.ofBits .f32 0x3C23D70A#32

/-- The self-loop value: 1 where the test sum σ is not 0, the old diagonal entry a elsewhere. -/
def newDiag (σ a : EReal) : EReal := Scalar.select (Ideal.cmp .une σ zero) one a
/-- The reciprocal of a degree, read as 0 at degree 0. -/
def dinv (d : EReal) : EReal := Scalar.select (Ideal.cmp .une d zero) (Ideal.div one d) zero
/-- leakyReLU: v where 0 ≤ v, slope · v elsewhere. -/
def lrelu (v : EReal) : EReal := Scalar.select (Ideal.cmp .oge v zero) v (slope * v)

variable (x : SX.Idx → EReal) (A : SA.Idx → EReal) (W : SW.Idx → EReal)

/-- Row i's sum and column j's sum of batch b's matrix. -/
def rowSum (b : Fin 8) (i : Fin 2048) : EReal := ∑ j : Fin 2048, A (ix3 b i j)
def colSum (b : Fin 8) (j : Fin 2048) : EReal := ∑ i : Fin 2048, A (ix3 b i j)
/-- The hidden features: leakyReLU of x Wᵀ. -/
def hid (b : Fin 8) (n : Fin 2048) (e : Fin 128) : EReal := lrelu (∑ k : Fin 128, x (ix3 b n k) * W (ix2 e k))

/-! ## The program's side -/

/-- The self-loop value as the program computes it: its test is row sum + column sum. -/
def kNew (b : Fin 8) (i : Fin 2048) : EReal := newDiag (rowSum A b i + colSum A b i) (A (ix3 b i i))
/-- The degree as the program computes it: the row sum, less the old diagonal entry, plus the new one. -/
def kDeg (b : Fin 8) (i : Fin 2048) : EReal := rowSum A b i - A (ix3 b i i) + kNew A b i
def kDinv (b : Fin 8) (i : Fin 2048) : EReal := dinv (kDeg A b i)
/-- The normalised diagonal entry. -/
def kTerm (b : Fin 8) (i : Fin 2048) : EReal := kDinv A b i * kNew A b i
/-- One entry of the program's result: row n of the normalised matrix (its diagonal entry swapped in) against
    column e of the hidden features. -/
def kOutAt (b : Fin 8) (n : Fin 2048) (e : Fin 128) : EReal :=
  ∑ m : Fin 2048, (if m = n then kTerm A b n else kDinv A b n * A (ix3 b n m)) * hid x W b m e
def kOut : SX.Idx → EReal := fun j => kOutAt x A W (j 0) (j 1) (j 2)

/-! ## The reference's side -/

/-- The self-loop value as the reference computes it: its test is the row sum of A + Aᵀ. -/
def rNew (b : Fin 8) (i : Fin 2048) : EReal :=
  newDiag (∑ j : Fin 2048, (A (ix3 b i j) + A (ix3 b j i))) (A (ix3 b i i))
/-- The matrix with its diagonal replaced. -/
def aSelf (b : Fin 8) (i j : Fin 2048) : EReal := if j = i then rNew A b i else A (ix3 b i j)
/-- Its row sum: the reference's degree. -/
def rDeg (b : Fin 8) (i : Fin 2048) : EReal := ∑ j : Fin 2048, aSelf A b i j
def rOutAt (b : Fin 8) (n : Fin 2048) (e : Fin 128) : EReal :=
  ∑ m : Fin 2048, (dinv (rDeg A b n) * aSelf A b n m) * hid x W b m e
def rOut : SX.Idx → EReal := fun j => rOutAt x A W (j 0) (j 1) (j 2)

end Cert.Spec

end
-- ==== Proof.KReg0.lean ====
/-
  The first kernel (one pass over A, grid 8 batches × 4 row tiles of 512): what its three output arrays hold when the region
  ends, read at an index — every row's sum, every row's diagonal entry (the row summed under the mask "column = row"), and,
  accumulated over a batch's four tiles from a zero written at the first, every column's sum.

  The road: what each of the body's two cases leaves in each output buffer is one stored value of the loaded block; each
  stored value is read at an index over the extended reals (a lane sum is a finite sum; the masked lane sum keeps one term);
  the block of grid point 4·b + k is batch b, rows 512·k … of A; the row-sum and diagonal arrays are written back block by
  block, and the column-sum buffer is carried across a batch's four points, holding after tile k the column summed over the
  rows below 512·(k + 1), and written back after the fourth.
-/
import proofs.«176590_j84911503442515_1_alg».proof.Proof.KernelIdealFrame
import proofs.«176590_j84911503442515_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

open scoped BigOperators

namespace Cert.KernelIdeal.Val

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat Cfg Window)

/-! ## What each case of the body leaves in each output buffer, as a stored value of the loaded block -/

section Cases

variable {F : FTy → Type} [FloatOps F]

theorem reg0_hz3 : (![0, 0, 0] : Fin 3 → Nat) = fun _ => 0 := funext fun a => by fin_cases a <;> rfl

/-- At a batch's first tile the row-sum buffer is left at the row-sum payload of the loaded block. -/
theorem reg0_outA1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) :
    out0_A_1 c i arg2 harg2 arg3 harg3 arg4 harg4 arg5 harg5 hc0 x0 = k0_pay3 x0 := by
  unfold out0_A_1
  rw [View.read_writes_eq_canon _ _ _ (cover0_A_1 c i arg2 harg2 arg3 harg3 arg4 harg4 arg5 harg5 hc0 x0)]
  unfold kernelRun0_A
  dsimp only
  sl_unfold_words
  rw [View.canon_unit_zero reg0_hz3]
  simp only [View.readAt_eq_ld, harg2.read_unread, View.ld_unit_zero (S := S1x512x2048) reg0_hz3]

/-- … the diagonal buffer at the masked-row-sum payload, -/
theorem reg0_outA2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) :
    out0_A_2 c i arg2 harg2 arg3 harg3 arg4 harg4 arg5 harg5 hc0 x0 = k0_pay5 i x0 := by
  unfold out0_A_2
  rw [View.read_writes_eq_canon _ _ _ (cover0_A_2 c i arg2 harg2 arg3 harg3 arg4 harg4 arg5 harg5 hc0 x0)]
  unfold kernelRun0_A
  dsimp only
  sl_unfold_words
  rw [View.canon_unit_zero reg0_hz3]
  simp only [View.readAt_eq_ld, harg2.read_unread, View.ld_unit_zero (S := S1x512x2048) reg0_hz3]

/-- … and the column-sum buffer, zeroed and read back, at the zero block plus the block's column sums. -/
theorem reg0_outA3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) :
    out0_A_3 c i arg2 harg2 arg3 harg3 arg4 harg4 arg5 harg5 hc0 x0 = k0_pay4 x0 (k0_pay1 (F := F)) := by
  unfold out0_A_3
  rw [View.read_writes_eq_canon _ _ _ (cover0_A_3 c i arg2 harg2 arg3 harg3 arg4 harg4 arg5 harg5 hc0 x0)]
  unfold kernelRun0_A
  dsimp only
  sl_unfold_words
  rw [View.canon_cons_unit_zero (S := S1x1x2048) reg0_hz3]
  simp only [View.readAt_eq_ld, harg2.read_unread, View.ld_unit_zero (S := S1x512x2048) reg0_hz3,
    View.readCov_unit_zero (S := S1x1x2048) _ reg0_hz3]

/-- At a later tile the row-sum and diagonal buffers are left as at the first, -/
theorem reg0_outB1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) :
    out0_B_1 c i arg2 harg2 arg3 harg3 arg4 harg4 arg5 harg5 hc0 x0 xo3 = k0_pay3 x0 := by
  unfold out0_B_1
  rw [View.read_writes_eq_canon _ _ _ (cover0_B_1 c i arg2 harg2 arg3 harg3 arg4 harg4 arg5 harg5 hc0 x0 xo3)]
  unfold kernelRun0_B
  dsimp only
  sl_unfold_words
  rw [View.canon_unit_zero reg0_hz3]
  simp only [View.readAt_eq_ld, harg2.read_unread, View.ld_unit_zero (S := S1x512x2048) reg0_hz3]

/-- … the diagonal buffer likewise, -/
theorem reg0_outB2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) :
    out0_B_2 c i arg2 harg2 arg3 harg3 arg4 harg4 arg5 harg5 hc0 x0 xo3 = k0_pay5 i x0 := by
  unfold out0_B_2
  rw [View.read_writes_eq_canon _ _ _ (cover0_B_2 c i arg2 harg2 arg3 harg3 arg4 harg4 arg5 harg5 hc0 x0 xo3)]
  unfold kernelRun0_B
  dsimp only
  sl_unfold_words
  rw [View.canon_unit_zero reg0_hz3]
  simp only [View.readAt_eq_ld, harg2.read_unread, View.ld_unit_zero (S := S1x512x2048) reg0_hz3]

/-- … and the column-sum buffer, holding `xo3`, at `xo3` plus the block's column sums. -/
theorem reg0_outB3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) :
    out0_B_3 c i arg2 harg2 arg3 harg3 arg4 harg4 arg5 harg5 hc0 x0 xo3 = k0_pay4 x0 xo3 := by
  unfold out0_B_3
  rw [View.read_writes_eq_canon _ _ _ (cover0_B_3 c i arg2 harg2 arg3 harg3 arg4 harg4 arg5 harg5 hc0 x0 xo3)]
  unfold kernelRun0_B
  dsimp only
  sl_unfold_words
  rw [View.canon_unit_zero reg0_hz3]
  simp only [View.readAt_eq_ld, harg2.read_unread, harg5.read_unread, View.ld_unit_zero (S := S1x512x2048) reg0_hz3,
    View.ld_unit_zero (S := S1x1x2048) reg0_hz3]

end Cases

/-! ## The stored values read at an index, over the extended reals -/

/-- The block with its unit batch axis dropped reads the block. -/
theorem reg0_pay2_at (x : Vec Ideal S1x512x2048 .f32) (r : Fin 512) (q : Fin 2048) :
    (k0_pay2 (F := Ideal) x : S512x2048.Idx → EReal) (ix2 r q) = x (ix3 0 r q) :=
  shapeCast_1ab_ab_apply x shapeCasts_S1x512x2048_S512x2048 r q

/-- A column vector kept as [512, 1] reads the vector. -/
theorem reg0_col_at {α : Type} (v : S512.Idx → α) (r : Fin 512) :
    shapeCast S512x1 v shapeCasts_S512_S512x1 (ix2 r (0 : Fin 1)) = v (ix1 r) :=
  shapeCast_apply v shapeCasts_S512_S512x1 _ _ (by
    rw [Shape.rowMajor_val_one, Shape.rowMajor_val_two]
    show r.val = r.val * 1 + 0
    omega)

/-- The index a lane sum inserts on the lane axis. -/
theorem reg0_lift_row (r : Fin 512) (q : Fin 2048) :
    reduces_S512x2048_S512.lift (ix1 r) q = ix2 r q := by
  funext a
  match a with
  | ⟨0, _⟩ => rfl
  | ⟨1, _⟩ => rfl

/-- The index a sublane sum inserts on the row axis. -/
theorem reg0_lift_col (q : Fin 2048) (r : Fin 512) :
    reduces_S512x2048_S2048.lift (ix1 q) r = ix2 r q := by
  funext a
  match a with
  | ⟨0, _⟩ => rfl
  | ⟨1, _⟩ => rfl

/-- The row-sum payload at local row `r`: the block's row summed over its 2048 columns. -/
theorem reg0_pay3_at (x : Vec Ideal S1x512x2048 .f32) (r : Fin 512) :
    (k0_pay3 (F := Ideal) x : S1x512x1.Idx → EReal) (ix3 0 r 0) = ∑ q : Fin 2048, x (ix3 0 r q) := by
  unfold k0_pay3
  refine (shapeCast_ab_1ab_apply _ shapeCasts_S512x1_S1x512x1 0 r 0).trans ?_
  refine (reg0_col_at _ r).trans ?_
  refine (Ideal.multiReduction_add_single (k0_pay2 (F := Ideal) x) 0x00000000#32 reduces_S512x2048_S512 (.inl rfl) rfl (ix1 r)).trans ?_
  show (∑ q : Fin 2048, k0_pay2 (F := Ideal) x (reduces_S512x2048_S512.lift (ix1 r) q)) = _
  refine Finset.sum_congr rfl fun q _ => ?_
  rw [reg0_lift_row]
  exact reg0_pay2_at x r q

/-- The zero block the reset stores is 0 everywhere. -/
theorem reg0_pay1_at (q : Fin 2048) :
    (k0_pay1 (F := Ideal) : S1x1x2048.Idx → EReal) (ix3 0 0 q) = 0 := by
  unfold k0_pay1
  refine (shapeCast_ab_1ab_apply _ shapeCasts_S1x2048_S1x1x2048 0 0 q).trans ?_
  exact Ideal.ofBits_zero_f32

/-- The column-sum payload at column `q`: what the buffer held there plus the block's column summed over its 512 rows. -/
theorem reg0_pay4_at (x : Vec Ideal S1x512x2048 .f32) (acc : Vec Ideal S1x1x2048 .f32) (q : Fin 2048) :
    (k0_pay4 (F := Ideal) x acc : S1x1x2048.Idx → EReal) (ix3 0 0 q) = acc (ix3 0 0 q) + ∑ r : Fin 512, x (ix3 0 r q) := by
  unfold k0_pay4
  refine (shapeCast_ab_1ab_apply _ shapeCasts_S1x2048_S1x1x2048 0 0 q).trans ?_
  refine (addf_apply _ _ (ix2 0 q)).trans ?_
  refine congrArg₂ (· + ·) ?_ ?_
  · exact shapeCast_1ab_ab_apply acc shapeCasts_S1x1x2048_S1x2048 0 q
  · refine (shapeCast_a_1a_apply _ shapeCasts_S2048_S1x2048 0 q).trans ?_
    refine (Ideal.multiReduction_add_single (k0_pay2 (F := Ideal) x) 0x00000000#32 reduces_S512x2048_S2048 (.inl rfl) rfl (ix1 q)).trans ?_
    show (∑ r : Fin 512, k0_pay2 (F := Ideal) x (reduces_S512x2048_S2048.lift (ix1 q) r)) = _
    refine Finset.sum_congr rfl fun r _ => ?_
    rw [reg0_lift_col]
    exact reg0_pay2_at x r q

/-- Words: the column number meets (local row + 512·tile) exactly at column 512·tile + row — nothing wraps below 2³². -/
theorem reg0_mask_iff (k r q : ℕ) (hk : k < 4) (hr : r < 512) (hq : q < 2048) :
    IntOp.cmpi .eq (BitVec.ofNat 32 q) (IntOp.addi (BitVec.ofNat 32 r) (Scalar.muli (BitVec.ofNat 32 k) 512#32)) = 1#1
      ↔ q = 512 * k + r := by
  rw [StableHlo.Predicate.cmpi_eq_iff]
  unfold IntOp.addi Scalar.muli IntOp.muli
  constructor
  · intro h
    have h' := congrArg BitVec.toNat h
    simp only [BitVec.toNat_add, BitVec.toNat_mul, BitVec.toNat_ofNat] at h'
    omega
  · rintro rfl
    apply BitVec.eq_of_toNat_eq
    simp only [BitVec.toNat_add, BitVec.toNat_mul, BitVec.toNat_ofNat]
    omega

/-- The diagonal mask of row tile `i 1`: the bit at local row `r`, column `q`. -/
abbrev reg0_dmask (i : grid0.Coords) : IVec S512x2048 1 :=
  cmpi .eq (iota .tc S512x2048 32 [1] iota_S512x2048_d1_w32)
    (broadcastTo S512x2048 (addi (iota .tc S512x1 32 [0] iota_S512x1_d0_w32)
      (broadcast S512x1 (Scalar.muli (BitVec.ofNat 32 (i 1).val) 512#32))) broadcasts_S512x1_S512x2048)

/-- It is set exactly where the column is the row's own: column 512·tile + r. -/
theorem reg0_dmask_iff (i : grid0.Coords) (k : ℕ) (hk4 : k < 4) (hk : (i 1).val = k) (r : Fin 512) (q : Fin 2048) :
    reg0_dmask i (ix2 r q) = 1#1 ↔ q.val = 512 * k + r.val := by
  show IntOp.cmpi .eq (iota .tc S512x2048 32 [1] iota_S512x2048_d1_w32 (ix2 r q))
    (broadcastTo S512x2048 (addi (iota .tc S512x1 32 [0] iota_S512x1_d0_w32)
      (broadcast S512x1 (Scalar.muli (BitVec.ofNat 32 (i 1).val) 512#32))) broadcasts_S512x1_S512x2048 (ix2 r q)) = 1#1 ↔ _
  rw [iota_single_apply, broadcastTo_apply _ broadcasts_S512x1_S512x2048 (ix2 r q) (ix2 r (0 : Fin 1)) (fun a => by
    match a with
    | ⟨0, _⟩ => rfl
    | ⟨1, _⟩ => rfl)]
  show IntOp.cmpi .eq (BitVec.ofNat 32 q.val) (IntOp.addi (iota .tc S512x1 32 [0] iota_S512x1_d0_w32 (ix2 r (0 : Fin 1)))
    (Scalar.muli (BitVec.ofNat 32 (i 1).val) 512#32)) = 1#1 ↔ _
  rw [iota_single_apply, hk]
  exact reg0_mask_iff k r.val q.val hk4 r.isLt q.isLt

/-- The diagonal payload at local row `r` of tile `k`: the row summed under the mask, of which one term survives —
    the block's entry at column 512·k + r. -/
theorem reg0_pay5_at (i : grid0.Coords) (k : ℕ) (hk4 : k < 4) (hk : (i 1).val = k) (x : Vec Ideal S1x512x2048 .f32) (r : Fin 512) :
    (k0_pay5 (F := Ideal) i x : S1x512x1.Idx → EReal) (ix3 0 r 0) = x (ix3 0 r ⟨512 * k + r.val, by omega⟩) := by
  unfold k0_pay5
  refine (shapeCast_ab_1ab_apply _ shapeCasts_S512x1_S1x512x1 0 r 0).trans ?_
  refine (reg0_col_at _ r).trans ?_
  refine (Ideal.multiReduction_add_single (select (reg0_dmask i) (k0_pay2 (F := Ideal) x) (broadcast S512x2048 (Scalar.ofBits .f32 0x00000000#32))) 0x00000000#32 reduces_S512x2048_S512 (.inl rfl) rfl (ix1 r)).trans ?_
  refine (Finset.sum_eq_single (⟨512 * k + r.val, by omega⟩ : Fin 2048) (fun q _ hq => ?_) (fun h => absurd (Finset.mem_univ _) h)).trans ?_
  · rw [reg0_lift_row]
    have hb : reg0_dmask i (ix2 r q) = 0#1 := eq_zero_of_ne_one (mt (reg0_dmask_iff i k hk4 hk r q).mp (fun e => hq (Fin.ext e)))
    show Scalar.select (reg0_dmask i (ix2 r q)) _ _ = _
    rw [hb, select_zero]
    exact Ideal.ofBits_zero_f32
  · rw [reg0_lift_row]
    have hb : reg0_dmask i (ix2 r ⟨512 * k + r.val, by omega⟩) = 1#1 := (reg0_dmask_iff i k hk4 hk r _).mpr rfl
    show Scalar.select (reg0_dmask i (ix2 r ⟨512 * k + r.val, _⟩)) _ _ = _
    rw [hb, select_one]
    exact reg0_pay2_at x r _

/-! ## From blocks to the arrays -/

variable (V : (c : Dev nD) → (b : Ref sig .tc) → Buf (Elt Ideal) ((c : Thread nD τ).loc b))

/-- The adjacency tensor as the region finds it, -/
abbrev reg0_A (c : Dev nD) : Cert.Spec.SA.Idx → EReal := V c main_arg1
/-- and its block at grid point `t`: batch `t / 4`, rows `512·(t % 4) …`, all columns. -/
abbrev reg0_Ablk (c : Dev nD) (t : Fin cfg0.N) : Vec Ideal S1x512x2048 .f32 := iblk0 V c 0 t

/-- The printed index maps and the tile coordinate, decided once over the grid's 32 points: point `t` is batch `t / 4`,
    row tile `t % 4`; the column-sum window does not move within a batch. -/
theorem reg0_idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 0 ∧ win0_3.index t (2 : Fin 3) = 0)
    ∧ (grid0.coords t (1 : Fin 2)).val = t.val % 4 :=
  (by decide +kernel : ∀ t : Fin grid0.N, _)

/-- The block read where its rectangle says: local (0, r, q) of point 4·b + k is the tensor's (b, 512·k + r, q). -/
theorem reg0_Ablk_at (c : Dev nD) (t : Fin cfg0.N) (b : Fin 8) (k : ℕ) (hk : k < 4) (ht : t.val = 4 * b.val + k)
    (r : Fin 512) (q : Fin 2048) :
    reg0_Ablk V c t (ix3 0 r q) = reg0_A V c (ix3 b ⟨512 * k + r.val, by omega⟩ q) := by
  obtain ⟨⟨e0, e1, e2⟩, -⟩ := reg0_idx_facts t
  show V c main_arg1 (((cfg0.win 0).blk t).view.emb (ix3 0 r q)) = V c main_arg1 (ix3 b ⟨512 * k + r.val, by omega⟩ q)
  refine congrArg (V c main_arg1) (funext fun a => Fin.ext ?_)
  match a with
  | ⟨0, _⟩ => show win0_0.index t (0 : Fin 3) * 1 + 1 * 0 = b.val; omega
  | ⟨1, _⟩ => show win0_0.index t (1 : Fin 3) * 512 + 1 * r.val = 512 * k + r.val; omega
  | ⟨2, _⟩ => show win0_0.index t (2 : Fin 3) * 2048 + 1 * q.val = q.val; omega

/-- After every point the row-sum buffer holds the row-sum payload of the point's block, -/
theorem reg0_outs1 (c : Dev nD) (t : Fin cfg0.N) : (outsAt0 V c t.val t.isLt).1 = k0_pay3 (reg0_Ablk V c t) := by
  by_cases h0 : t.val % 4 = 0
  · rw [outsAt0_A V c t h0]; dsimp only
    exact reg0_outA1 (F := Ideal) c (grid0.coords t) (ms0_0 t) (hs0_0 t) (ms0_1 t) (hs0_1 t) (ms0_2 t) (hs0_2 t) (ms0_3 t) (hs0_3 t) ((hcond0_0 t).mpr h0) (iblk0 V c 0 t)
  · rw [outsAt0_B V c t h0]; dsimp only
    exact reg0_outB1 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)).2.2

/-- and the diagonal buffer the masked-row-sum payload. -/
theorem reg0_outs2 (c : Dev nD) (t : Fin cfg0.N) : (outsAt0 V c t.val t.isLt).2.1 = k0_pay5 (grid0.coords t) (reg0_Ablk V c t) := by
  by_cases h0 : t.val % 4 = 0
  · rw [outsAt0_A V c t h0]; dsimp only
    exact reg0_outA2 (F := Ideal) c (grid0.coords t) (ms0_0 t) (hs0_0 t) (ms0_1 t) (hs0_1 t) (ms0_2 t) (hs0_2 t) (ms0_3 t) (hs0_3 t) ((hcond0_0 t).mpr h0) (iblk0 V c 0 t)
  · rw [outsAt0_B V c t h0]; dsimp only
    exact reg0_outB2 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)).2.2

/-- What the row-sum array ends holding: at (b, i, ·) row i of batch b summed. -/
abbrev reg0_G1 (c : Dev nD) : S8x2048x1.Idx → EReal := fun j => Cert.Spec.rowSum (reg0_A V c) (j 0) (j 1)
/-- What the diagonal array ends holding: at (b, i, ·) the entry (b, i, i). -/
abbrev reg0_G2 (c : Dev nD) : S8x2048x1.Idx → EReal := fun j => reg0_A V c (ix3 (j 0) (j 1) (j 1))

/-- Local row `r` of point 4·b + k is row i = 512·k + r of batch b: its row-sum payload is that row's sum. -/
theorem reg0_rowsum_blk (c : Dev nD) (t : Fin cfg0.N) (b : Fin 8) (k : ℕ) (hk : k < 4) (ht : t.val = 4 * b.val + k)
    (r : Fin 512) (i : Fin 2048) (hi : i.val = 512 * k + r.val) :
    (k0_pay3 (F := Ideal) (reg0_Ablk V c t) : S1x512x1.Idx → EReal) (ix3 0 r 0) = Cert.Spec.rowSum (reg0_A V c) b i := by
  obtain ⟨iv, hiv⟩ := i
  obtain rfl : iv = 512 * k + r.val := hi
  refine (reg0_pay3_at (reg0_Ablk V c t) r).trans ?_
  unfold Cert.Spec.rowSum
  exact Finset.sum_congr rfl fun q _ => reg0_Ablk_at V c t b k hk ht r q

/-- … and its diagonal payload is that row's own diagonal entry: the surviving column 512·k + r is i. -/
theorem reg0_diag_blk (c : Dev nD) (t : Fin cfg0.N) (b : Fin 8) (k : ℕ) (hk : k < 4) (ht : t.val = 4 * b.val + k)
    (hg : (grid0.coords t (1 : Fin 2)).val = k) (r : Fin 512) (i : Fin 2048) (hi : i.val = 512 * k + r.val) :
    (k0_pay5 (F := Ideal) (grid0.coords t) (reg0_Ablk V c t) : S1x512x1.Idx → EReal) (ix3 0 r 0) = reg0_A V c (ix3 b i i) := by
  obtain ⟨iv, hiv⟩ := i
  obtain rfl : iv = 512 * k + r.val := hi
  refine (reg0_pay5_at (grid0.coords t) k hk hg (reg0_Ablk V c t) r).trans ?_
  exact reg0_Ablk_at V c t b k hk ht r _

/-- What point `t` writes back to the row-sum array is its block of `reg0_G1`. -/
theorem reg0_flushed1 (c : Dev nD) (t : Fin cfg0.N) :
    (dat0 V c).flushed 1 t = ((cfg0.win 1).blk t).view.read (Elt Ideal) (reg0_G1 V c) := by
  show (cfg0.win 1).cut (grid0.coords t) ((dat0 V c).after 1 t) = _
  rw [after0_1, reg0_outs1]
  have hN : t.val < 32 := lt_of_lt_of_eq t.isLt (show cfg0.N = 32 from N_0)
  obtain ⟨-, ⟨e0, e1, e2⟩, -⟩ := reg0_idx_facts t
  funext y
  obtain ⟨u, r, z, rfl⟩ : ∃ (u : Fin 1) (r : Fin 512) (z : Fin 1), y = ix3 u r z :=
    ⟨y 0, y 1, y 2, eq_ix3 (n0 := 1) (n1 := 512) (n2 := 1) y⟩
  obtain rfl : u = 0 := Subsingleton.elim _ _
  obtain rfl : z = 0 := Subsingleton.elim _ _
  show (k0_pay3 (F := Ideal) (reg0_Ablk V c t) : S1x512x1.Idx → EReal) (ix3 0 r 0)
    = Cert.Spec.rowSum (reg0_A V c) ((((cfg0.win 1).blk t).view.emb (ix3 (0 : Fin 1) r (0 : Fin 1))) 0) ((((cfg0.win 1).blk t).view.emb (ix3 (0 : Fin 1) r (0 : Fin 1))) 1)
  exact reg0_rowsum_blk V c t _ (t.val % 4) (by omega)
    (by show t.val = 4 * (win0_1.index t (0 : Fin 3) * 1 + 1 * 0) + t.val % 4; omega) r _
    (by show win0_1.index t (1 : Fin 3) * 512 + 1 * r.val = 512 * (t.val % 4) + r.val; omega)

/-- What point `t` writes back to the diagonal array is its block of `reg0_G2`. -/
theorem reg0_flushed2 (c : Dev nD) (t : Fin cfg0.N) :
    (dat0 V c).flushed 2 t = ((cfg0.win 2).blk t).view.read (Elt Ideal) (reg0_G2 V c) := by
  show (cfg0.win 2).cut (grid0.coords t) ((dat0 V c).after 2 t) = _
  rw [after0_2, reg0_outs2]
  have hN : t.val < 32 := lt_of_lt_of_eq t.isLt (show cfg0.N = 32 from N_0)
  obtain ⟨-, -, ⟨e0, e1, e2⟩, -, eg⟩ := reg0_idx_facts t
  funext y
  obtain ⟨u, r, z, rfl⟩ : ∃ (u : Fin 1) (r : Fin 512) (z : Fin 1), y = ix3 u r z :=
    ⟨y 0, y 1, y 2, eq_ix3 (n0 := 1) (n1 := 512) (n2 := 1) y⟩
  obtain rfl : u = 0 := Subsingleton.elim _ _
  obtain rfl : z = 0 := Subsingleton.elim _ _
  show (k0_pay5 (F := Ideal) (grid0.coords t) (reg0_Ablk V c t) : S1x512x1.Idx → EReal) (ix3 0 r 0)
    = reg0_A V c (ix3 ((((cfg0.win 2).blk t).view.emb (ix3 (0 : Fin 1) r (0 : Fin 1))) 0) ((((cfg0.win 2).blk t).view.emb (ix3 (0 : Fin 1) r (0 : Fin 1))) 1) ((((cfg0.win 2).blk t).view.emb (ix3 (0 : Fin 1) r (0 : Fin 1))) 1))
  exact reg0_diag_blk V c t _ (t.val % 4) (by omega)
    (by show t.val = 4 * (win0_2.index t (0 : Fin 3) * 1 + 1 * 0) + t.val % 4; omega) eg r _
    (by show win0_2.index t (1 : Fin 3) * 512 + 1 * r.val = 512 * (t.val % 4) + r.val; omega)

/-- An index of the row-sum array is in point `t`'s block iff each coordinate is in the block's range on its axis. -/
theorem reg0_mem_blk1 (t : Fin cfg0.N) (i : S8x2048x1.Idx) :
    i ∈ ((cfg0.win 1).blk t).view.set ↔ ∀ a : Fin 3, win0_1.index t a * S1x512x1.size a ≤ (i a).val ∧ (i a).val < win0_1.index t a * S1x512x1.size a + S1x512x1.size a := by
  show i ∈ ((View.whole main_v0_0).slice (win0_1.rect t)).set ↔ _
  rw [View.set_slice_whole, Rect.mem_set_unit]
  exact Iff.rfl

/-- The same for the diagonal array. -/
theorem reg0_mem_blk2 (t : Fin cfg0.N) (i : S8x2048x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_1).slice (win0_2.rect t)).set ↔ _
  rw [View.set_slice_whole, Rect.mem_set_unit]
  exact Iff.rfl

/-- Row i of batch b lies in the block of point 4·b + i / 512, which writes back. -/
theorem reg0_cover1 (i : S8x2048x1.Idx) : ∃ t : Fin cfg0.N, (cfg0.win 1).flush t = true ∧ i ∈ ((cfg0.win 1).blk t).view.set := by
  have h0 : (i 0).val < 8 := (i 0).isLt
  have h1 : (i 1).val < 2048 := (i 1).isLt
  have h2 : (i 2).val < 1 := (i 2).isLt
  have hN : cfg0.N = 32 := N_0
  obtain ⟨t, ht⟩ : ∃ t : Fin cfg0.N, t.val = 4 * (i 0).val + (i 1).val / 512 := ⟨⟨4 * (i 0).val + (i 1).val / 512, by rw [hN]; omega⟩, rfl⟩
  obtain ⟨-, ⟨e0, e1, e2⟩, -⟩ := reg0_idx_facts t
  refine ⟨t, flush0_1 t, ?_⟩
  rw [reg0_mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1 ≤ (i 2).val ∧ (i 2).val < win0_1.index t (2 : Fin 3) * 1 + 1; omega

/-- The same for the diagonal array. -/
theorem reg0_cover2 (i : S8x2048x1.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 1 := (i 2).isLt
  have hN : cfg0.N = 32 := N_0
  obtain ⟨t, ht⟩ : ∃ t : Fin cfg0.N, t.val = 4 * (i 0).val + (i 1).val / 512 := ⟨⟨4 * (i 0).val + (i 1).val / 512, by rw [hN]; omega⟩, rfl⟩
  obtain ⟨-, -, ⟨e0, e1, e2⟩, -⟩ := reg0_idx_facts t
  refine ⟨t, flush0_2 t, ?_⟩
  rw [reg0_mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- The row-sum array after the region. -/
theorem reg0_final1 (c : Dev nD) : (dat0 V c).arrAt 1 cfg0.N = reg0_G1 V c :=
  (dat0 V c).arrAt_eq_of_cover 1 (reg0_G1 V c) (fun t _ => reg0_flushed1 V c t) reg0_cover1

/-- The diagonal array after the region. -/
theorem reg0_final2 (c : Dev nD) : (dat0 V c).arrAt 2 cfg0.N = reg0_G2 V c :=
  (dat0 V c).arrAt_eq_of_cover 2 (reg0_G2 V c) (fun t _ => reg0_flushed2 V c t) reg0_cover2

/-- Row sums: output window 1, shape [8, 2048, 1]. -/
theorem reg0_rowsum (c : Dev nD) (b : Fin 8) (i : Fin 2048) :
    ((dat0 V c).arrAt 1 cfg0.N : S8x2048x1.Idx → EReal) (ix3 b i 0)
      = Cert.Spec.rowSum (V c main_arg1 : Cert.Spec.SA.Idx → EReal) b i :=
  congrFun (reg0_final1 V c) (ix3 b i 0)

/-- Diagonal entries: output window 2, shape [8, 2048, 1]. -/
theorem reg0_diag (c : Dev nD) (b : Fin 8) (i : Fin 2048) :
    ((dat0 V c).arrAt 2 cfg0.N : S8x2048x1.Idx → EReal) (ix3 b i 0)
      = (V c main_arg1 : Cert.Spec.SA.Idx → EReal) (ix3 b i i) :=
  congrFun (reg0_final2 V c) (ix3 b i 0)

/-! ## The column sums: carried across a batch's four tiles -/

/-- Column `q` of batch `b` as a function of every natural row number (0 past the array), so that partial sums over
    the first rows need no bound. -/
def reg0_Acol (c : Dev nD) (b : Fin 8) (q : Fin 2048) (i : ℕ) : EReal := if h : i < 2048 then reg0_A V c (ix3 b ⟨i, h⟩ q) else 0

/-- The column sums of point 4·b + k's block are 512 consecutive entries of the column, from row 512·k. -/
theorem reg0_colblk (c : Dev nD) (t : Fin cfg0.N) (b : Fin 8) (k : ℕ) (hk : k < 4) (ht : t.val = 4 * b.val + k) (q : Fin 2048) :
    ∑ r : Fin 512, reg0_Ablk V c t (ix3 0 r q) = ∑ s ∈ Finset.range 512, reg0_Acol V c b q (512 * k + s) := by
  rw [Finset.sum_range]
  refine Finset.sum_congr rfl fun r _ => ?_
  rw [reg0_Ablk_at V c t b k hk ht r q]
  unfold reg0_Acol
  rw [dif_pos]

/-- THE INVARIANT of the carried column-sum buffer: after tile `k` of batch `b` it holds, at column `q`, the column summed
    over the rows below 512·(k + 1) — the first tile writes 0 plus its own 512 rows, each later tile adds its 512. -/
theorem reg0_outs3 (c : Dev nD) (b : Fin 8) (q : Fin 2048) : ∀ (k : ℕ) (hk : k < 4) (h : 4 * b.val + k < cfg0.N),
    ((outsAt0 V c (4 * b.val + k) h).2.2 : S1x1x2048.Idx → EReal) (ix3 0 0 q)
      = ∑ s ∈ Finset.range (512 * (k + 1)), reg0_Acol V c b q s
  | 0, hk, h => by
    have h0 : (⟨4 * b.val + 0, h⟩ : Fin cfg0.N).val % 4 = 0 := by dsimp only; omega
    rw [outsAt0_A V c ⟨4 * b.val + 0, h⟩ h0]; dsimp only
    refine (congrFun (reg0_outA3 (F := Ideal) c (grid0.coords ⟨4 * b.val + 0, h⟩) (ms0_0 ⟨4 * b.val + 0, h⟩) (hs0_0 ⟨4 * b.val + 0, h⟩) (ms0_1 ⟨4 * b.val + 0, h⟩) (hs0_1 ⟨4 * b.val + 0, h⟩) (ms0_2 ⟨4 * b.val + 0, h⟩) (hs0_2 ⟨4 * b.val + 0, h⟩) (ms0_3 ⟨4 * b.val + 0, h⟩) (hs0_3 ⟨4 * b.val + 0, h⟩) ((hcond0_0 ⟨4 * b.val + 0, h⟩).mpr h0) (iblk0 V c 0 ⟨4 * b.val + 0, h⟩)) (ix3 0 0 q)).trans ?_
    refine (reg0_pay4_at (reg0_Ablk V c ⟨4 * b.val + 0, h⟩) (k0_pay1 (F := Ideal)) q).trans ?_
    rw [reg0_pay1_at, zero_add, reg0_colblk V c ⟨4 * b.val + 0, h⟩ b 0 (by omega) rfl q]
    refine Finset.sum_congr rfl fun s _ => ?_
    rw [Nat.mul_zero, Nat.zero_add]
  | k + 1, hk, h => by
    have hB : ¬(⟨4 * b.val + (k + 1), h⟩ : Fin cfg0.N).val % 4 = 0 := by dsimp only; omega
    rw [outsAt0_B V c ⟨4 * b.val + (k + 1), h⟩ hB]; dsimp only
    refine (congrFun (reg0_outB3 (F := Ideal) c (grid0.coords ⟨4 * b.val + (k + 1), h⟩) (ms0_0 ⟨4 * b.val + (k + 1), h⟩) (hs0_0 ⟨4 * b.val + (k + 1), h⟩) (ms0_1 ⟨4 * b.val + (k + 1), h⟩) (hs0_1 ⟨4 * b.val + (k + 1), h⟩) (ms0_2 ⟨4 * b.val + (k + 1), h⟩) (hs0_2 ⟨4 * b.val + (k + 1), h⟩) (ms0_3 ⟨4 * b.val + (k + 1), h⟩) (hs0_3 ⟨4 * b.val + (k + 1), h⟩) (fun hc => hB ((hcond0_0 ⟨4 * b.val + (k + 1), h⟩).mp hc)) (iblk0 V c 0 ⟨4 * b.val + (k + 1), h⟩) (outsAt0 V c ((⟨4 * b.val + (k + 1), h⟩ : Fin cfg0.N).val - 1) (Nat.lt_of_le_of_lt (Nat.sub_le _ _) (⟨4 * b.val + (k + 1), h⟩ : Fin cfg0.N).isLt)).2.2) (ix3 0 0 q)).trans ?_
    refine (reg0_pay4_at (reg0_Ablk V c ⟨4 * b.val + (k + 1), h⟩) _ q).trans ?_
    show ((outsAt0 V c (4 * b.val + k) (Nat.lt_of_succ_lt h)).2.2 : S1x1x2048.Idx → EReal) (ix3 0 0 q) + _ = _
    rw [reg0_outs3 c b q k (Nat.lt_of_succ_lt hk) (Nat.lt_of_succ_lt h),
      reg0_colblk V c ⟨4 * b.val + (k + 1), h⟩ b (k + 1) hk rfl q,
      show 512 * (k + 1 + 1) = 512 * (k + 1) + 512 from by omega, Finset.sum_range_add]

/-- The invariant at a grid point named by itself. -/
theorem reg0_outs3_at (c : Dev nD) (t : Fin cfg0.N) (b : Fin 8) (k : ℕ) (hk : k < 4) (ht : t.val = 4 * b.val + k) (q : Fin 2048) :
    ((outsAt0 V c t.val t.isLt).2.2 : S1x1x2048.Idx → EReal) (ix3 0 0 q)
      = ∑ s ∈ Finset.range (512 * (k + 1)), reg0_Acol V c b q s := by
  obtain ⟨n, hn⟩ := t
  dsimp only at ht
  subst ht
  exact reg0_outs3 V c b q k hk hn

/-- What the column-sum array ends holding: at (b, ·, q) column q of batch b summed. -/
abbrev reg0_G3 (c : Dev nD) : S8x1x2048.Idx → EReal := fun j => Cert.Spec.colSum (reg0_A V c) (j 0) (j 2)

/-- After a batch's last tile the carried buffer holds the whole column's sum: the four tiles are the 2048 rows. -/
theorem reg0_colsum_blk (c : Dev nD) (t : Fin cfg0.N) (b : Fin 8) (ht : t.val = 4 * b.val + 3) (q' q : Fin 2048) (hq : q'.val = q.val) :
    ((outsAt0 V c t.val t.isLt).2.2 : S1x1x2048.Idx → EReal) (ix3 0 0 q) = Cert.Spec.colSum (reg0_A V c) b q' := by
  obtain rfl : q' = q := Fin.ext hq
  rw [reg0_outs3_at V c t b 3 (by omega) ht q']
  unfold Cert.Spec.colSum
  rw [show 512 * (3 + 1) = 2048 from rfl, Finset.sum_range]
  refine Finset.sum_congr rfl fun i _ => ?_
  unfold reg0_Acol
  rw [dif_pos i.isLt]

/-- What a batch's last point writes back to the column-sum array is its block of `reg0_G3`. -/
theorem reg0_flushed3 (c : Dev nD) (t : Fin cfg0.N) (hf : (cfg0.win 3).flush t = true) :
    (dat0 V c).flushed 3 t = ((cfg0.win 3).blk t).view.read (Elt Ideal) (reg0_G3 V c) := by
  have h3 : t.val % 4 = 3 := (flush0_3 t).mp hf
  show (cfg0.win 3).cut (grid0.coords t) ((dat0 V c).after 3 t) = _
  rw [after0_3]
  have hN : t.val < 32 := lt_of_lt_of_eq t.isLt (show cfg0.N = 32 from N_0)
  obtain ⟨-, -, -, ⟨e0, e1, e2⟩, -⟩ := reg0_idx_facts t
  funext y
  obtain ⟨u, z, q, rfl⟩ : ∃ (u : Fin 1) (z : Fin 1) (q : Fin 2048), y = ix3 u z q :=
    ⟨y 0, y 1, y 2, eq_ix3 (n0 := 1) (n1 := 1) (n2 := 2048) y⟩
  obtain rfl : u = 0 := Subsingleton.elim _ _
  obtain rfl : z = 0 := Subsingleton.elim _ _
  show ((outsAt0 V c t.val t.isLt).2.2 : S1x1x2048.Idx → EReal) (ix3 0 0 q)
    = Cert.Spec.colSum (reg0_A V c) ((((cfg0.win 3).blk t).view.emb (ix3 (0 : Fin 1) (0 : Fin 1) q)) 0) ((((cfg0.win 3).blk t).view.emb (ix3 (0 : Fin 1) (0 : Fin 1) q)) 2)
  exact reg0_colsum_blk V c t _
    (by show t.val = 4 * (win0_3.index t (0 : Fin 3) * 1 + 1 * 0) + 3; omega) _ q
    (by show win0_3.index t (2 : Fin 3) * 2048 + 1 * q.val = q.val; omega)

/-- The same for the column-sum array. -/
theorem reg0_mem_blk3 (t : Fin cfg0.N) (i : S8x1x2048.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v0_2).slice (win0_3.rect t)).set ↔ _
  rw [View.set_slice_whole, Rect.mem_set_unit]
  exact Iff.rfl

/-- Batch b's row of the column-sum array lies in the block of the batch's last point 4·b + 3, which writes back. -/
theorem reg0_cover3 (i : S8x1x2048.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 2048 := (i 2).isLt
  have hN : cfg0.N = 32 := N_0
  obtain ⟨t, ht⟩ : ∃ t : Fin cfg0.N, t.val = 4 * (i 0).val + 3 := ⟨⟨4 * (i 0).val + 3, by rw [hN]; omega⟩, rfl⟩
  obtain ⟨-, -, -, ⟨e0, e1, e2⟩, -⟩ := reg0_idx_facts t
  refine ⟨t, (flush0_3 t).mpr (by omega), ?_⟩
  rw [reg0_mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 2048 ≤ (i 2).val ∧ (i 2).val < win0_3.index t (2 : Fin 3) * 2048 + 2048; omega

/-- The column-sum array after the region. -/
theorem reg0_final3 (c : Dev nD) : (dat0 V c).arrAt 3 cfg0.N = reg0_G3 V c :=
  (dat0 V c).arrAt_eq_of_cover 3 (reg0_G3 V c) (reg0_flushed3 V c) reg0_cover3

/-- Column sums: output window 3, shape [8, 1, 2048]. -/
theorem reg0_colsum (c : Dev nD) (b : Fin 8) (j : Fin 2048) :
    ((dat0 V c).arrAt 3 cfg0.N : S8x1x2048.Idx → EReal) (ix3 b 0 j)
      = Cert.Spec.colSum (V c main_arg1 : Cert.Spec.SA.Idx → EReal) b j :=
  congrFun (reg0_final3 V c) (ix3 b 0 j)

end Cert.KernelIdeal.Val

end
-- ==== Proof.KReg1.lean ====
/-
  The second kernel (grid 8 batches): its output array holds the hidden features leakyReLU(x Wᵀ), read at an index.

  Each grid point is one batch b. It reads x's block [b, all 2048, all 128] and all of W, and stores into the output's
  block [b, all, all] the matrix leakyReLU(x_b Wᵀ): the stored value at (n, e) is leakyReLU of ∑ k, x (b, n, k) · W (e, k).
  The eight blocks tile the output array, so the array after the run is that function of its index.
-/
import proofs.«176590_j84911503442515_1_alg».proof.Proof.KernelIdealFrame
import proofs.«176590_j84911503442515_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat Cfg Window)

/-! ## The stored value at an index -/

/-- The product's dimension numbers: the left operand's axis 1 is summed against the right operand's axis 0. -/
abbrev reg1_dot : DotDims S2048x128 S128x128 S2048x128 := dot_S2048x128_S128x128_S2048x128_1_0_0_1_n_n

/-- At output entry (n, e) and summation coordinate c the left operand is read at (n, c) … -/
theorem reg1_dot_lhs (n : Fin 2048) (e : Fin 128) (c : Fin 128) :
    reg1_dot.lhsIdx (ix2 n e) ((contrEquiv1 reg1_dot 128 rfl rfl).symm c) = ix2 n c := by
  have c2 := contrEquiv1_symm_val reg1_dot 128 rfl rfl c
  funext ax; apply Fin.ext
  match ax with
  | ⟨0, _⟩ => simp [DotDims.lhsIdx, reg1_dot, dot_S2048x128_S128x128_S2048x128_1_0_0_1_n_n]; rfl
  | ⟨1, _⟩ => simp [DotDims.lhsIdx, reg1_dot, dot_S2048x128_S128x128_S2048x128_1_0_0_1_n_n]; exact c2

/-- … and the right operand at (c, e). -/
theorem reg1_dot_rhs (n : Fin 2048) (e : Fin 128) (c : Fin 128) :
    reg1_dot.rhsIdx (ix2 n e) ((contrEquiv1 reg1_dot 128 rfl rfl).symm c) = ix2 c e := by
  have c2 := contrEquiv1_symm_val reg1_dot 128 rfl rfl c
  funext ax; apply Fin.ext
  match ax with
  | ⟨0, _⟩ => simp [DotDims.rhsIdx, reg1_dot, dot_S2048x128_S128x128_S2048x128_1_0_0_1_n_n]; exact c2
  | ⟨1, _⟩ => simp [DotDims.rhsIdx, reg1_dot, dot_S2048x128_S128x128_S2048x128_1_0_0_1_n_n]; rfl

/-- The stored value at (z, n, e), z the block's unit axis: the leading unit axis is dropped and put back (same row-major
    position), the narrowings to bf16 are the identity on the extended reals, the product into a zero accumulator is the
    plain sum ∑ k, x (n, k) · Wᵀ (k, e), the transpose reads W at (e, k), and the select on (sum ≥ 0) between the sum and
    slope · sum is leakyReLU of the sum. -/
theorem reg1_pay_at (x0 : Vec Ideal S1x2048x128 .f32) (x1 : Vec Ideal S128x128 .f32) (z : Fin 1) (n : Fin 2048) (e : Fin 128) :
    (k1_pay1 (F := Ideal) x0 x1 : S1x2048x128.Idx → EReal) (ix3 z n e)
      = Cert.Spec.lrelu (∑ k : Fin 128, (x0 : S1x2048x128.Idx → EReal) (ix3 z n k) * (x1 : S128x128.Idx → EReal) (ix2 e k)) := by
  unfold k1_pay1
  -- the closing shape cast [2048, 128] → [1, 2048, 128]: (z, n, e) and (n, e) sit at the same row-major position
  refine (shapeCast_apply _ _ (ix3 z n e) (ix2 n e) ?_).trans ?_
  · rw [Shape.rowMajor_val_two, Shape.rowMajor_val_three]
    show n.val * 128 + e.val = (z.val * 2048 + n.val) * 128 + e.val
    have hz : z.val = 0 := by omega
    rw [hz]; omega
  -- the pointwise operations at (n, e) are leakyReLU of the product's entry
  show Cert.Spec.lrelu (FloatOps.matmul (F := Ideal) reg1_dot none _ _ (constant (F := Ideal) S2048x128 .f32 0x00000000#32) (ix2 n e)) = _
  refine congrArg Cert.Spec.lrelu ?_
  -- the product into a zero accumulator is the sum over the summation index, re-indexed by its one coordinate
  refine (Ideal.matmul_constant_zero_apply reg1_dot none _ _ (ix2 n e)).trans ?_
  rw [← Equiv.sum_comp (contrEquiv1 reg1_dot 128 rfl rfl).symm]
  refine Finset.sum_congr rfl fun k _ => ?_
  rw [reg1_dot_lhs, reg1_dot_rhs]
  -- the left factor: x's block with its unit axis dropped, at (n, k)
  have h1 : shapeCast S2048x128 x0 shapeCasts_S1x2048x128_S2048x128 (ix2 n k) = x0 (ix3 z n k) := by
    refine shapeCast_apply x0 _ (ix2 n k) (ix3 z n k) ?_
    rw [Shape.rowMajor_val_two, Shape.rowMajor_val_three]
    show (z.val * 2048 + n.val) * 128 + k.val = n.val * 128 + k.val
    have hz : z.val = 0 := by omega
    rw [hz]; omega
  -- the right factor: W transposed, at (k, e), is W at (e, k)
  have h2 : transpose S128x128 [1, 0] (truncf (F := Ideal) .bf16 x1 bitsLt_bf16_f32) transposes_S128x128_p1_0_S128x128 (ix2 k e)
      = x1 (ix2 e k) := by
    refine transpose_apply [1, 0] _ _ (ix2 k e) (ix2 e k) ?_
    intro b
    match b with
    | ⟨0, _⟩ => rfl
    | ⟨1, _⟩ => rfl
  exact congrArg₂ (· * ·) h1 h2

/-! ## From blocks to the array -/

variable (V : (c : Dev nD) → (b : Ref sig .tc) → Buf (Elt Ideal) ((c : Thread nD τ).loc b))

theorem reg1_hz3 : (![0, 0, 0] : Fin 3 → Nat) = fun _ => 0 := funext fun a => by fin_cases a <;> rfl
theorem reg1_hz2 : (![0, 0] : Fin 2 → Nat) = fun _ => 0 := funext fun a => by fin_cases a <;> rfl

/-- The index maps over the 8 grid points: x's block and the output's block are block t on axis 0 and block 0 on the
    other axes; W's block is block 0 on both axes. -/
theorem reg1_idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The feature tensor x and the weight matrix W as the kernel finds them, at their literal index types. -/
abbrev reg1_x (c : Dev nD) : S8x2048x128.Idx → EReal := V c main_arg0
abbrev reg1_w (c : Dev nD) : S128x128.Idx → EReal := V c main_arg2

/-- x's block at point t, read at (z, n, k), is x at (t, n, k): on each axis, block index × block size + the coordinate
    inside the block. -/
theorem reg1_xblk_at (c : Dev nD) (t : Fin cfg1.N) (ht : t.val < 8) (z : Fin 1) (n : Fin 2048) (k : Fin 128) :
    (iblk1 V c 0 t : S1x2048x128.Idx → EReal) (ix3 z n k) = reg1_x V c (ix3 ⟨t.val, ht⟩ n k) := by
  obtain ⟨e0, e1, e2, -⟩ := reg1_idx_facts t
  show V c main_arg0 (((cfg1.win 0).blk t).view.emb (ix3 z n k)) = V c main_arg0 (ix3 ⟨t.val, ht⟩ n k)
  refine congrArg (V c main_arg0) (funext fun a => Fin.ext ?_)
  match a with
  | ⟨0, _⟩ => show win1_0.index t (0 : Fin 3) * 1 + 1 * z.val = t.val; omega
  | ⟨1, _⟩ => show win1_0.index t (1 : Fin 3) * 2048 + 1 * n.val = n.val; omega
  | ⟨2, _⟩ => show win1_0.index t (2 : Fin 3) * 128 + 1 * k.val = k.val; omega

/-- W's block at any point is all of W. -/
theorem reg1_wblk_at (c : Dev nD) (t : Fin cfg1.N) (e : Fin 128) (k : Fin 128) :
    (iblk1 V c 1 t : S128x128.Idx → EReal) (ix2 e k) = reg1_w V c (ix2 e k) := by
  obtain ⟨-, -, -, e0, e1, -⟩ := reg1_idx_facts t
  show V c main_arg2 (((cfg1.win 1).blk t).view.emb (ix2 e k)) = V c main_arg2 (ix2 e k)
  refine congrArg (V c main_arg2) (funext fun a => Fin.ext ?_)
  match a with
  | ⟨0, _⟩ => show win1_1.index t (0 : Fin 2) * 128 + 1 * e.val = e.val; omega
  | ⟨1, _⟩ => show win1_1.index t (1 : Fin 2) * 128 + 1 * k.val = k.val; omega

/-- The hidden features leakyReLU(x Wᵀ) as one function of the output array's index. -/
abbrev reg1_Hid (c : Dev nD) : S8x2048x128.Idx → EReal :=
  fun j => Cert.Spec.hid (reg1_x V c) (reg1_w V c) (j 0) (j 1) (j 2)

/-- The output's block at point t places its entry (z, n, e) at the array's index (t, n, e). -/
theorem reg1_oblk_emb (t : Fin cfg1.N) (ht : t.val < 8) (z : Fin 1) (n : Fin 2048) (e : Fin 128) :
    ((cfg1.win 2).blk t).view.emb (ix3 z n e) = (ix3 ⟨t.val, ht⟩ n e : S8x2048x128.Idx) := by
  obtain ⟨-, -, -, -, -, e0, e1, e2⟩ := reg1_idx_facts t
  refine funext fun a => Fin.ext ?_
  match a with
  | ⟨0, _⟩ => show win1_2.index t (0 : Fin 3) * 1 + 1 * z.val = t.val; omega
  | ⟨1, _⟩ => show win1_2.index t (1 : Fin 3) * 2048 + 1 * n.val = n.val; omega
  | ⟨2, _⟩ => show win1_2.index t (2 : Fin 3) * 128 + 1 * e.val = e.val; omega

/-- What point t writes back is block t of the hidden features: the one store covers the whole staging buffer, its value
    at (z, n, e) is leakyReLU of ∑ k, (x's block) (z, n, k) · (W's block) (e, k), and the two blocks are read where the
    output's block sits: batch t of x, all of W. -/
theorem reg1_flushed (c : Dev nD) (t : Fin cfg1.N) :
    (dat1 V c).flushed 2 t = ((cfg1.win 2).blk t).view.read (Elt Ideal) (reg1_Hid V c) := by
  show (cfg1.win 2).cut (grid1.coords t) ((dat1 V c).after 2 t) = _
  rw [after1_2]
  unfold out1_2
  rw [View.canon_unit_zero reg1_hz3]
  simp only [View.ld_unit_zero (S := S1x2048x128) reg1_hz3, View.ld_unit_zero (S := S128x128) reg1_hz2]
  have ht : t.val < 8 := lt_of_lt_of_eq t.isLt N_1
  refine funext fun (y : S1x2048x128.Idx) => ?_
  obtain ⟨z, n, e, rfl⟩ : ∃ (z : Fin 1) (n : Fin 2048) (e : Fin 128), y = ix3 z n e := ⟨y 0, y 1, y 2, eq_ix3 y⟩
  show (k1_pay1 (F := Ideal) (iblk1 V c 0 t) (iblk1 V c 1 t) : S1x2048x128.Idx → EReal) (ix3 z n e)
    = reg1_Hid V c (((cfg1.win 2).blk t).view.emb (ix3 z n e))
  refine (reg1_pay_at (iblk1 V c 0 t) (iblk1 V c 1 t) z n e).trans ?_
  refine Eq.trans ?_ (congrArg (reg1_Hid V c) (reg1_oblk_emb t ht z n e)).symm
  show _ = Cert.Spec.lrelu (∑ k : Fin 128, reg1_x V c (ix3 ⟨t.val, ht⟩ n k) * reg1_w V c (ix2 e k))
  refine congrArg Cert.Spec.lrelu (Finset.sum_congr rfl fun k _ => ?_)
  exact congrArg₂ (· * ·) (reg1_xblk_at V c t ht z n k) (reg1_wblk_at V c t e k)

/-- An index of the output array is in point t's block iff each coordinate is in the block's range on its axis. -/
theorem reg1_mem_blk (t : Fin cfg1.N) (i : S8x2048x128.Idx) :
    i ∈ ((cfg1.win 2).blk t).view.set ↔ ∀ a : Fin 3, win1_2.index t a * S1x2048x128.size a ≤ (i a).val ∧ (i a).val < win1_2.index t a * S1x2048x128.size a + S1x2048x128.size a := by
  show i ∈ ((View.whole main_v16).slice (win1_2.rect t)).set ↔ _
  rw [View.set_slice_whole, Rect.mem_set_unit]
  exact Iff.rfl

/-- The eight blocks cover the output array: index (b, n, e) is in the block of point b, which is written back. -/
theorem reg1_cover (i : S8x2048x128.Idx) :
    ∃ t : Fin cfg1.N, (cfg1.win 2).flush t = true ∧ i ∈ ((cfg1.win 2).blk t).view.set := by
  have h0 : (i 0).val < 8 := (i 0).isLt
  have h1 : (i 1).val < 2048 := (i 1).isLt
  have h2 : (i 2).val < 128 := (i 2).isLt
  obtain ⟨t, htv⟩ : ∃ t : Fin cfg1.N, t.val = (i 0).val := ⟨⟨(i 0).val, lt_of_lt_of_eq h0 N_1.symm⟩, rfl⟩
  obtain ⟨-, -, -, -, -, e0, e1, e2⟩ := reg1_idx_facts t
  refine ⟨t, flush1_2 t, ?_⟩
  rw [reg1_mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 128 ≤ (i 2).val ∧ (i 2).val < win1_2.index t (2 : Fin 3) * 128 + 128; omega

/-- The output array after the run is the hidden features: every point writes back its block of them, and the blocks
    cover the array. -/
theorem reg1_final (c : Dev nD) : (dat1 V c).arrAt 2 cfg1.N = reg1_Hid V c :=
  (dat1 V c).arrAt_eq_of_cover 2 (reg1_Hid V c) (fun t _ => reg1_flushed V c t) reg1_cover

/-- Hidden features: output window 2, shape [8, 2048, 128] (stored as bf16: the identity on the extended reals). -/
theorem reg1_hid (c : Dev nD) (b : Fin 8) (n : Fin 2048) (e : Fin 128) :
    ((dat1 V c).arrAt 2 cfg1.N : S8x2048x128.Idx → EReal) (ix3 b n e)
      = Cert.Spec.hid (V c main_arg0 : Cert.Spec.SX.Idx → EReal) (V c main_arg2 : Cert.Spec.SW.Idx → EReal) b n e :=
  congrFun (reg1_final V c) (ix3 b n e)

end Cert.KernelIdeal.Val

end
-- ==== Proof.KReg2.lean ====
/-
  The third kernel (grid 8 batches × 4 row tiles of 512): its output array at an index is the row of A scaled by the row's
  reciprocal degree, its diagonal entry replaced by the normalised self-loop term, against the column of the hidden features.

  The road: the stored block at an entry (a matrix product into a zero accumulator is a plain sum; the diagonal mask is
  "column = 512 · tile + local row" on 32-bit words); each input block read where the output's rectangle says; the
  blocks of the 32 points tile the result.
-/
import proofs.«176590_j84911503442515_1_alg».proof.Proof.KernelIdealFrame
import proofs.«176590_j84911503442515_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.Val

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The four arrays the region reads and the one it writes, each at its literal type: A (window 0), the hidden features
    (window 1), the reciprocal degrees (window 2), the normalised self-loop terms (window 3); the result (window 4). -/
abbrev aArr (c : Dev nD) : S8x2048x2048.Idx → EReal := V c main_arg1
abbrev hArr (c : Dev nD) : S8x2048x128.Idx → EReal := V c main_v16
abbrev dinvArr (c : Dev nD) : S8x2048x1.Idx → EReal := V c main_v17
abbrev termArr (c : Dev nD) : S8x2048x1.Idx → EReal := V c main_v18
abbrev outArr (c : Dev nD) : S8x2048x128.Idx → EReal := (dat2 V c).arrAt 4 cfg2.N

/-! ## The stored block at an entry -/

/-- The product's operand indices, axis by axis: the left operand is read at (row, contraction), the right at
    (contraction, column). -/
theorem lhs_D2_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem lhs_D2_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_D2_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_D2_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- The product into a zero accumulator, at an entry: the row against the column. -/
theorem mm_apply (lhs : FVec Ideal S512x2048 .bf16) (rhs : FVec Ideal S2048x128 .bf16) (r : Fin 512) (e : Fin 128) :
    matmul dot_S512x2048_S2048x128_S512x128_1_0_0_1_n_n none lhs rhs (constant (F := Ideal) S512x128 .f32 0x00000000#32) (ix2 r e)
      = ∑ k : Fin 2048, lhs (ix2 r k) * rhs (ix2 k e) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r e) ((contrEquiv1 dot_S512x2048_S2048x128_S512x128_1_0_0_1_n_n 2048 rfl rfl).symm k) = ix2 r k :=
    funext fun a => Fin.ext (by
      match a with
      | ⟨0, _⟩ => exact lhs_D2_0 _ _
      | ⟨1, _⟩ => exact (lhs_D2_1 _ _).trans hk)
  have er : dot_S512x2048_S2048x128_S512x128_1_0_0_1_n_n.rhsIdx (ix2 r e) ((contrEquiv1 dot_S512x2048_S2048x128_S512x128_1_0_0_1_n_n 2048 rfl rfl).symm k) = ix2 k e :=
    funext fun a => Fin.ext (by
      match a with
      | ⟨0, _⟩ => exact (rhs_D2_0 _ _).trans hk
      | ⟨1, _⟩ => exact rhs_D2_1 _ _)
  rw [el, er]

/-- A column of per-row values spread along the rows: at (p, c) it reads row p's value. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The diagonal test on 32-bit words: column k against 512 · tile + local row r, all far below 2³¹. -/
theorem mask_iff (tile r k : ℕ) (ht : tile < 4) (hr : r < 512) (hk : k < 2048) :
    IntOp.cmpi .eq (BitVec.ofNat 32 k) (IntOp.addi (BitVec.ofNat 32 r) (Scalar.muli (BitVec.ofNat 32 tile) 512#32)) = 1#1
      ↔ k = 512 * tile + r := by
  rw [StableHlo.Predicate.cmpi_eq_iff]
  show BitVec.ofNat 32 k = BitVec.ofNat 32 r + BitVec.ofNat 32 tile * 512#32 ↔ _
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The stored block at an entry: local row r of the scaled, diagonal-replaced block of A against column e of the hidden
    features. -/
theorem pay_apply (i : grid2.Coords) (x0 : Vec Ideal S1x512x2048 .f32) (x2 x4 : Vec Ideal S1x512x1 .f32)
    (x19 : Vec Ideal S1x2048x128 .bf16) (r : Fin 512) (e : Fin 128) :
    k2_pay1 (F := Ideal) i x0 x2 x4 x19 (ix3 (0 : Fin 1) r e)
      = ∑ k : Fin 2048, (if k.val = 512 * (i 1).val + r.val then x4 (ix3 (0 : Fin 1) r (0 : Fin 1))
            else x2 (ix3 (0 : Fin 1) r (0 : Fin 1)) * x0 (ix3 (0 : Fin 1) r k)) * x19 (ix3 (0 : Fin 1) k e) := by
  unfold k2_pay1
  dsimp only
  refine (shapeCast_ab_1ab_apply _ _ (0 : Fin 1) r e).trans ?_
  refine (mm_apply _ _ r e).trans ?_
  refine Finset.sum_congr rfl fun k _ => ?_
  refine congrArg₂ (· * ·) ?_ (shapeCast_1ab_ab_apply x19 _ k e)
  show Scalar.select (cmpi CmpIPredicate.eq _ _ (ix2 r k)) (broadcastTo S512x2048 _ _ (ix2 r k)) (mulf _ _ (ix2 r k)) = _
  have hm : cmpi CmpIPredicate.eq (iota Kind.tc S512x2048 32 [1] iota_S512x2048_d1_w32)
            (broadcastTo S512x2048
              (addi (iota Kind.tc S512x1 32 [0] iota_S512x1_d0_w32)
                (broadcast S512x1 (Scalar.muli (BitVec.ofNat 32 (i 1).val) 512#32)))
              broadcasts_S512x1_S512x2048) (ix2 r k)
        = IntOp.cmpi .eq (BitVec.ofNat 32 k.val)
            (IntOp.addi (BitVec.ofNat 32 r.val) (Scalar.muli (BitVec.ofNat 32 (i 1).val) 512#32)) := by
    show IntOp.cmpi .eq (iota Kind.tc S512x2048 32 [1] iota_S512x2048_d1_w32 (ix2 r k))
      (broadcastTo S512x2048 _ broadcasts_S512x1_S512x2048 (ix2 r k)) = _
    rw [iota_single_apply, broadcastTo_a1_ab_apply]
    show IntOp.cmpi .eq _ (IntOp.addi (iota Kind.tc S512x1 32 [0] iota_S512x1_d0_w32 (ix2 r (0 : Fin 1))) _) = _
    rw [iota_single_apply]
    rfl
  rw [hm]
  have hi1 : (i 1).val < 4 := (i 1).isLt
  by_cases hk : k.val = 512 * (i 1).val + r.val
  · rw [if_pos hk, (mask_iff _ _ _ hi1 r.isLt k.isLt).mpr hk, select_one, broadcastTo_a1_ab_apply, shapeCast_self]
    exact shapeCast_1ab_ab_apply x4 _ r (0 : Fin 1)
  · rw [if_neg hk, eq_zero_of_ne_one (mt (mask_iff _ _ _ hi1 r.isLt k.isLt).mp hk), select_zero]
    refine (mulf_apply _ _ _).trans ?_
    rw [broadcastTo_a1_ab_apply, shapeCast_1ab_ab_apply, shapeCast_1ab_ab_apply]

/-! ## From blocks to the array -/

/-- The aggregation as one function of the four arrays, at a batch, a row and a feature. -/
def aggAt (A : S8x2048x2048.Idx → EReal) (H : S8x2048x128.Idx → EReal) (Dv Tm : S8x2048x1.Idx → EReal)
    (b : Fin 8) (n : Fin 2048) (e : Fin 128) : EReal :=
  ∑ k : Fin 2048, (if k = n then Tm (ix3 b n (0 : Fin 1)) else Dv (ix3 b n (0 : Fin 1)) * A (ix3 b n k)) * H (ix3 b k e)

/-- The same, as an array. -/
def agg (A : S8x2048x2048.Idx → EReal) (H : S8x2048x128.Idx → EReal) (Dv Tm : S8x2048x1.Idx → EReal) :
    S8x2048x128.Idx → EReal := fun j => aggAt A H Dv Tm (j 0) (j 1) (j 2)

theorem hz3 : (![0, 0, 0] : Fin 3 → Nat) = fun _ => 0 := funext fun a => by fin_cases a <;> rfl

/-- The printed index maps, decided once over the grid: point t is batch t / 4, row tile t % 4; the hidden features'
    block is the whole batch. -/
theorem idx_facts2 : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 3) = t.val / 4 ∧ win2_2.index t (1 : Fin 3) = t.val % 4 ∧ win2_2.index t (2 : Fin 3) = 0
    ∧ win2_3.index t (0 : Fin 3) = t.val / 4 ∧ win2_3.index t (1 : Fin 3) = t.val % 4 ∧ win2_3.index t (2 : Fin 3) = 0
    ∧ win2_4.index t (0 : Fin 3) = t.val / 4 ∧ win2_4.index t (1 : Fin 3) = t.val % 4 ∧ win2_4.index t (2 : Fin 3) = 0
    ∧ (grid2.coords t 1).val = t.val % 4 :=
  (by decide +kernel : ∀ t : Fin grid2.N, _)

/-- Every (batch, tile) is some point's. -/
theorem idx_onto2 : ∀ (q0 : Fin 8) (q1 : Fin 4), ∃ t : Fin cfg2.N, t.val = 4 * q0.val + q1.val :=
  (by decide +kernel : ∀ (q0 : Fin 8) (q1 : Fin 4), ∃ t : Fin grid2.N, t.val = 4 * q0.val + q1.val)

/-- A's block at point t: rows 512 · tile … of batch t / 4, all columns. -/
theorem aBlk_apply (c : Dev nD) (t : Fin cfg2.N) (r : Fin 512) (k : Fin 2048) (b : Fin 8) (n : Fin 2048)
    (hb : b.val = t.val / 4) (hn : n.val = 512 * (t.val % 4) + r.val) :
    (iblk2 V c 0 t : S1x512x2048.Idx → EReal) (ix3 (0 : Fin 1) r k) = aArr V c (ix3 b n k) := by
  obtain ⟨e0, e1, e2, -⟩ := idx_facts2 t
  unfold iblk2
  rw [View.read_apply]
  show V c main_arg1 _ = V c main_arg1 _
  congr 1
  funext a; apply Fin.ext
  match a with
  | ⟨0, _⟩ => show win2_0.index t (0 : Fin 3) * 1 + 1 * 0 = b.val; omega
  | ⟨1, _⟩ => show win2_0.index t (1 : Fin 3) * 512 + 1 * r.val = n.val; omega
  | ⟨2, _⟩ => show win2_0.index t (2 : Fin 3) * 2048 + 1 * k.val = k.val; omega

/-- The hidden features' block at point t: the whole of batch t / 4. -/
theorem hBlk_apply (c : Dev nD) (t : Fin cfg2.N) (k : Fin 2048) (e : Fin 128) (b : Fin 8)
    (hb : b.val = t.val / 4) :
    (iblk2 V c 1 t : S1x2048x128.Idx → EReal) (ix3 (0 : Fin 1) k e) = hArr V c (ix3 b k e) := by
  obtain ⟨-, -, -, e0, e1, e2, -⟩ := idx_facts2 t
  unfold iblk2
  rw [View.read_apply]
  show V c main_v16 _ = V c main_v16 _
  congr 1
  funext a; apply Fin.ext
  match a with
  | ⟨0, _⟩ => show win2_1.index t (0 : Fin 3) * 1 + 1 * 0 = b.val; omega
  | ⟨1, _⟩ => show win2_1.index t (1 : Fin 3) * 2048 + 1 * k.val = k.val; omega
  | ⟨2, _⟩ => show win2_1.index t (2 : Fin 3) * 128 + 1 * e.val = e.val; omega

/-- The reciprocal degrees' block at point t. -/
theorem dBlk_apply (c : Dev nD) (t : Fin cfg2.N) (r : Fin 512) (b : Fin 8) (n : Fin 2048)
    (hb : b.val = t.val / 4) (hn : n.val = 512 * (t.val % 4) + r.val) :
    (iblk2 V c 2 t : S1x512x1.Idx → EReal) (ix3 (0 : Fin 1) r (0 : Fin 1)) = dinvArr V c (ix3 b n (0 : Fin 1)) := by
  obtain ⟨-, -, -, -, -, -, e0, e1, e2, -⟩ := idx_facts2 t
  unfold iblk2
  rw [View.read_apply]
  show V c main_v17 _ = V c main_v17 _
  congr 1
  funext a; apply Fin.ext
  match a with
  | ⟨0, _⟩ => show win2_2.index t (0 : Fin 3) * 1 + 1 * 0 = b.val; omega
  | ⟨1, _⟩ => show win2_2.index t (1 : Fin 3) * 512 + 1 * r.val = n.val; omega
  | ⟨2, _⟩ => show win2_2.index t (2 : Fin 3) * 1 + 1 * 0 = 0; omega

/-- The diagonal terms' block at point t. -/
theorem tBlk_apply (c : Dev nD) (t : Fin cfg2.N) (r : Fin 512) (b : Fin 8) (n : Fin 2048)
    (hb : b.val = t.val / 4) (hn : n.val = 512 * (t.val % 4) + r.val) :
    (iblk2 V c 3 t : S1x512x1.Idx → EReal) (ix3 (0 : Fin 1) r (0 : Fin 1)) = termArr V c (ix3 b n (0 : Fin 1)) := by
  obtain ⟨-, -, -, -, -, -, -, -, -, e0, e1, e2, -⟩ := idx_facts2 t
  unfold iblk2
  rw [View.read_apply]
  show V c main_v18 _ = V c main_v18 _
  congr 1
  funext a; apply Fin.ext
  match a with
  | ⟨0, _⟩ => show win2_3.index t (0 : Fin 3) * 1 + 1 * 0 = b.val; omega
  | ⟨1, _⟩ => show win2_3.index t (1 : Fin 3) * 512 + 1 * r.val = n.val; omega
  | ⟨2, _⟩ => show win2_3.index t (2 : Fin 3) * 1 + 1 * 0 = 0; omega

/-- The block the body stores at point t is the aggregation read through the output's rectangle at t. -/
theorem block_eq (c : Dev nD) (t : Fin cfg2.N) (j : S1x512x128.Idx) :
    k2_pay1 (F := Ideal) (grid2.coords t) (iblk2 V c 0 t) (iblk2 V c 2 t) (iblk2 V c 3 t) (iblk2 V c 1 t) j
      = agg (aArr V c) (hArr V c) (dinvArr V c) (termArr V c) (((cfg2.win 4).blk t).view.emb j) := by
  obtain ⟨u, r, e, rfl⟩ : ∃ (u : Fin 1) (r : Fin 512) (e : Fin 128), j = ix3 u r e := ⟨j 0, j 1, j 2, eq_ix3 j⟩
  obtain rfl : u = 0 := Subsingleton.elim _ _
  have ht : t.val < 32 := Nat.lt_of_lt_of_eq t.isLt N_2
  have hr : r.val < 512 := r.isLt
  obtain ⟨-, -, -, -, -, -, -, -, -, -, -, -, o0, o1, o2, hg⟩ := idx_facts2 t
  have hemb : (((cfg2.win 4).blk t).view.emb (ix3 (0 : Fin 1) r e) : S8x2048x128.Idx)
      = ix3 (⟨t.val / 4, by omega⟩ : Fin 8) (⟨512 * (t.val % 4) + r.val, by omega⟩ : Fin 2048) e := by
    funext a; apply Fin.ext
    match a with
    | ⟨0, _⟩ => show win2_4.index t (0 : Fin 3) * 1 + 1 * 0 = t.val / 4; omega
    | ⟨1, _⟩ => show win2_4.index t (1 : Fin 3) * 512 + 1 * r.val = 512 * (t.val % 4) + r.val; omega
    | ⟨2, _⟩ => show win2_4.index t (2 : Fin 3) * 128 + 1 * e.val = e.val; omega
  refine (pay_apply (grid2.coords t) (iblk2 V c 0 t) (iblk2 V c 2 t) (iblk2 V c 3 t) (iblk2 V c 1 t) r e).trans ?_
  refine Eq.trans ?_ (congrArg (agg (aArr V c) (hArr V c) (dinvArr V c) (termArr V c)) hemb).symm
  show _ = aggAt (aArr V c) (hArr V c) (dinvArr V c) (termArr V c) (⟨t.val / 4, by omega⟩ : Fin 8)
    (⟨512 * (t.val % 4) + r.val, by omega⟩ : Fin 2048) e
  unfold aggAt
  refine Finset.sum_congr rfl fun k _ => ?_
  rw [aBlk_apply V c t r k ⟨t.val / 4, by omega⟩ ⟨512 * (t.val % 4) + r.val, by omega⟩ rfl rfl,
    hBlk_apply V c t k e ⟨t.val / 4, by omega⟩ rfl,
    dBlk_apply V c t r ⟨t.val / 4, by omega⟩ ⟨512 * (t.val % 4) + r.val, by omega⟩ rfl rfl,
    tBlk_apply V c t r ⟨t.val / 4, by omega⟩ ⟨512 * (t.val % 4) + r.val, by omega⟩ rfl rfl, hg]
  exact congrArg₂ (· * ·) (if_congr (by rw [Fin.ext_iff]) rfl rfl) rfl

/-- What point t writes back is its block of the aggregation. -/
theorem flushed2_eq (c : Dev nD) (t : Fin cfg2.N) :
    (dat2 V c).flushed 4 t
      = ((cfg2.win 4).blk t).view.read (Elt Ideal) (agg (aArr V c) (hArr V c) (dinvArr V c) (termArr V c)) := by
  show (cfg2.win 4).cut (grid2.coords t) ((dat2 V c).after 4 t) = _
  rw [after2_4]
  unfold out2_4
  rw [View.canon_unit_zero hz3]
  simp only [View.ld_unit_zero (S := S1x512x2048) hz3, View.ld_unit_zero (S := S1x512x1) hz3,
    View.ld_unit_zero (S := S1x2048x128) hz3]
  funext j
  exact block_eq V c t j

/-- An index of the result is in point t's block iff each coordinate is in the block's range on its axis. -/
theorem mem_blk2 (t : Fin cfg2.N) (i : S8x2048x128.Idx) :
    i ∈ ((cfg2.win 4).blk t).view.set ↔ ∀ a : Fin 3, win2_4.index t a * S1x512x128.size a ≤ (i a).val
      ∧ (i a).val < win2_4.index t a * S1x512x128.size a + S1x512x128.size a := by
  show i ∈ ((View.whole main_v19).slice (win2_4.rect t)).set ↔ _
  rw [View.set_slice_whole, Rect.mem_set_unit]
  exact Iff.rfl

/-- Every index of the result lies in the block of the point of its batch and row tile. -/
theorem cover2 (i : S8x2048x128.Idx) :
    ∃ t : Fin cfg2.N, (cfg2.win 4).flush t = true ∧ i ∈ ((cfg2.win 4).blk t).view.set := by
  have hi0 : (i 0).val < 8 := (i 0).isLt
  have hi1 : (i 1).val < 2048 := (i 1).isLt
  have hi2 : (i 2).val < 128 := (i 2).isLt
  obtain ⟨t, ht⟩ := idx_onto2 ⟨(i 0).val, hi0⟩ ⟨(i 1).val / 512, by omega⟩
  have ht' : t.val = 4 * (i 0).val + (i 1).val / 512 := ht
  obtain ⟨-, -, -, -, -, -, -, -, -, -, -, -, o0, o1, o2, -⟩ := idx_facts2 t
  refine ⟨t, flush2_4 t, ?_⟩
  rw [mem_blk2]
  intro a
  match a with
  | ⟨0, _⟩ =>
    show win2_4.index t (0 : Fin 3) * 1 ≤ (i 0).val ∧ (i 0).val < win2_4.index t (0 : Fin 3) * 1 + 1
    omega
  | ⟨1, _⟩ =>
    show win2_4.index t (1 : Fin 3) * 512 ≤ (i 1).val ∧ (i 1).val < win2_4.index t (1 : Fin 3) * 512 + 512
    omega
  | ⟨2, _⟩ =>
    show win2_4.index t (2 : Fin 3) * 128 ≤ (i 2).val ∧ (i 2).val < win2_4.index t (2 : Fin 3) * 128 + 128
    omega

/-- The result array after the region is the aggregation of the four arrays it read. -/
theorem final2 (c : Dev nD) :
    (dat2 V c).arrAt 4 cfg2.N = agg (aArr V c) (hArr V c) (dinvArr V c) (termArr V c) :=
  (dat2 V c).arrAt_eq_of_cover 4 (agg (aArr V c) (hArr V c) (dinvArr V c) (termArr V c))
    (fun t _ => flushed2_eq V c t) cover2

/-- The aggregation, at an index of the result. -/
theorem reg2_out (c : Dev nD) (b : Fin 8) (n : Fin 2048) (e : Fin 128) :
    outArr V c (ix3 b n e)
      = ∑ k : Fin 2048,
          (if k = n then termArr V c (ix3 b n 0) else dinvArr V c (ix3 b n 0) * aArr V c (ix3 b n k))
          * hArr V c (ix3 b k e) := by
  show (dat2 V c).arrAt 4 cfg2.N (ix3 b n e) = _
  rw [final2]
  rfl

end Cert.KernelIdeal.Val

end
-- ==== Proof.KHost.lean ====
/-
  The host operations between the kernels, read at an index: from the first kernel's row sums, diagonal entries and column
  sums they compute the reciprocal degrees and the normalised self-loop terms the third kernel reads; and the buffers the
  later kernels read are what the launch or an earlier kernel left there.

  Write r, a, s for the row sum, the diagonal entry and the column sum at (b, i). The operations reshape the three arrays
  to matrices and compute, entry by entry, the self-loop value ν = (1 if r + s ≠ 0, else a), the degree d = r − a + ν, the
  reciprocal degree (1 / d if d ≠ 0, else 0) and its product with ν; two last reshapes make column arrays of the two
  results. Each stretch of operations is read from arbitrary contents of the buffers, so that the run's contents at a
  boundary are the stretches composed; a reshape between [8, 2048, 1], [8, 1, 2048] and [8, 2048] keeps the row-major
  position, and every other operation acts entry by entry, with the float literals kept as their binary words.
-/
import proofs.«176590_j84911503442515_1_alg».proof.Proof.KernelIdealFrame
import proofs.«176590_j84911503442515_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- A stretch of host operations leaves every buffer that none of them writes as it was: the writes of each operation are
    read off the list, and the buffer is none of them. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The first kernel's three output arrays as its region leaves them (row sums, diagonal entries, column sums), and the
    two arrays the host operations make of them for the third kernel, each at its literal type. -/
abbrev rsArr (c : Dev nD) : S8x2048x1.Idx → EReal := V1 m ρ c main_v0_0
abbrev dgArr (c : Dev nD) : S8x2048x1.Idx → EReal := V1 m ρ c main_v0_1
abbrev csArr (c : Dev nD) : S8x1x2048.Idx → EReal := V1 m ρ c main_v0_2
abbrev v17Arr (c : Dev nD) : S8x2048x1.Idx → EReal := V8 m ρ c main_v17
abbrev v18Arr (c : Dev nD) : S8x2048x1.Idx → EReal := V8 m ρ c main_v18

/-- The self-loop value and the degree at (b, i), from the three sums. -/
abbrev nuAt (c : Dev nD) (b : Fin 8) (i : Fin 2048) : EReal :=
  Cert.Spec.newDiag (rsArr m ρ c (ix3 b i 0) + csArr m ρ c (ix3 b 0 i)) (dgArr m ρ c (ix3 b i 0))
abbrev degAt (c : Dev nD) (b : Fin 8) (i : Fin 2048) : EReal :=
  rsArr m ρ c (ix3 b i 0) - dgArr m ρ c (ix3 b i 0) + nuAt m ρ c b i

namespace HostOps

/-! ## The host operations' arithmetic, as functions of the three arrays -/

/-- A column array [8, 2048, 1] and a row array [8, 1, 2048] as matrices [8, 2048]. -/
abbrev colMat (x : FVec Ideal S8x2048x1 .f32) : FVec Ideal S8x2048 .f32 := shapeCast S8x2048 x Gen.shapeCasts_S8x2048x1_S8x2048
abbrev rowMat (x : FVec Ideal S8x1x2048 .f32) : FVec Ideal S8x2048 .f32 := shapeCast S8x2048 x Gen.shapeCasts_S8x1x2048_S8x2048
/-- A scalar literal spread over the matrix. -/
abbrev lit (w : BitVec 32) : FVec Ideal S8x2048 .f32 :=
  broadcastInDim S8x2048 ![] Gen.bcast_S_S8x2048 (constant (F := Ideal) S_ .f32 w)

section Arith
variable (rs dg : FVec Ideal S8x2048x1 .f32) (cs : FVec Ideal S8x1x2048 .f32)

/-- The self-loop values: 1 where row sum + column sum is not 0, the diagonal entry elsewhere. -/
def nuVec : FVec Ideal S8x2048 .f32 :=
  select (cmpf .une (addf (colMat rs) (rowMat cs)) (lit 0x00000000#32)) (lit 0x3F800000#32) (colMat dg)
/-- The degrees: row sum − diagonal entry + self-loop value. -/
def degVec : FVec Ideal S8x2048 .f32 := addf (subf (colMat rs) (colMat dg)) (nuVec rs dg cs)
/-- The reciprocal degrees, 0 at degree 0. -/
def dinvVec : FVec Ideal S8x2048 .f32 :=
  select (cmpf .une (degVec rs dg cs) (lit 0x00000000#32)) (Host.divf (F := Ideal) (lit 0x3F800000#32) (degVec rs dg cs)) (lit 0x00000000#32)
/-- The normalised self-loop terms. -/
def termVec : FVec Ideal S8x2048 .f32 := mulf (dinvVec rs dg cs) (nuVec rs dg cs)
end Arith

/-! ## Each stretch of host operations, from arbitrary contents `V`: what it leaves in the buffers read later -/

section Stretch
variable (V : Valuation τ sig (Elt Ideal))

/-! ### The first stretch: the row sums and the diagonal entries as matrices, the test of row sum + column sum, the literal 1 -/

theorem first_v1 : (StableHlo.after hostOps1 V (Proc.devRef .tc main_v1) : FVec Ideal S8x2048 .f32)
    = colMat (V (Proc.devRef .tc main_v0_0)) := by
  after_results <;> rfl
theorem first_v2 : (StableHlo.after hostOps1 V (Proc.devRef .tc main_v2) : FVec Ideal S8x2048 .f32)
    = colMat (V (Proc.devRef .tc main_v0_1)) := by
  after_results <;> rfl
theorem first_v6 : (StableHlo.after hostOps1 V (Proc.devRef .tc main_v6) : IVec S8x2048 1)
    = cmpf .une (addf (colMat (V (Proc.devRef .tc main_v0_0))) (rowMat (V (Proc.devRef .tc main_v0_2)))) (lit 0x00000000#32) := by
  after_results <;> rfl
theorem first_cst0 : (StableHlo.after hostOps1 V (Proc.devRef .tc main_cst_0) : FVec Ideal S_ .f32)
    = constant (F := Ideal) S_ .f32 0x3F800000#32 := by
  after_results <;> rfl

/-! ### The first call: the self-loop values, a select on the test between the literal and the diagonal entries -/

theorem call0_v7 : (StableHlo.after hostOps1_1 V (Proc.devRef .tc main_v7) : FVec Ideal S8x2048 .f32)
    = select (V (Proc.devRef .tc main_v6) : IVec S8x2048 1)
        (broadcastInDim S8x2048 ![] Gen.bcast_S_S8x2048 (V (Proc.devRef .tc main_cst_0) : FVec Ideal S_ .f32))
        (V (Proc.devRef .tc main_v2) : FVec Ideal S8x2048 .f32) := by
  after_results <;> rfl
theorem call0_v1 : StableHlo.after hostOps1_1 V (Proc.devRef .tc main_v1) = V (Proc.devRef .tc main_v1) := by
  after_results
theorem call0_v2 : StableHlo.after hostOps1_1 V (Proc.devRef .tc main_v2) = V (Proc.devRef .tc main_v2) := by
  after_results

/-! ### The second stretch: the degree (row sum − diagonal entry + self-loop value), its test, its reciprocal, the literal 0 -/

theorem second_v11 : (StableHlo.after hostOps1_2 V (Proc.devRef .tc main_v11) : IVec S8x2048 1)
    = cmpf .une (addf (subf (V (Proc.devRef .tc main_v1) : FVec Ideal S8x2048 .f32) (V (Proc.devRef .tc main_v2)))
        (V (Proc.devRef .tc main_v7))) (lit 0x00000000#32) := by
  after_results <;> rfl
theorem second_v13 : (StableHlo.after hostOps1_2 V (Proc.devRef .tc main_v13) : FVec Ideal S8x2048 .f32)
    = Host.divf (F := Ideal) (lit 0x3F800000#32)
        (addf (subf (V (Proc.devRef .tc main_v1) : FVec Ideal S8x2048 .f32) (V (Proc.devRef .tc main_v2))) (V (Proc.devRef .tc main_v7))) := by
  after_results <;> rfl
theorem second_cst3 : (StableHlo.after hostOps1_2 V (Proc.devRef .tc main_cst_3) : FVec Ideal S_ .f32)
    = constant (F := Ideal) S_ .f32 0x00000000#32 := by
  after_results <;> rfl
theorem second_v7 : StableHlo.after hostOps1_2 V (Proc.devRef .tc main_v7) = V (Proc.devRef .tc main_v7) := by
  after_results

/-! ### The second call: the reciprocal degrees, a select on the degree's test between the reciprocal and the literal 0 -/

theorem call1_v14 : (StableHlo.after hostOps1_3 V (Proc.devRef .tc main_v14) : FVec Ideal S8x2048 .f32)
    = select (V (Proc.devRef .tc main_v11) : IVec S8x2048 1) (V (Proc.devRef .tc main_v13) : FVec Ideal S8x2048 .f32)
        (broadcastInDim S8x2048 ![] Gen.bcast_S_S8x2048 (V (Proc.devRef .tc main_cst_3) : FVec Ideal S_ .f32)) := by
  after_results <;> rfl
theorem call1_v7 : StableHlo.after hostOps1_3 V (Proc.devRef .tc main_v7) = V (Proc.devRef .tc main_v7) := by
  after_results

/-! ### The last operation: the product of the reciprocal degrees and the self-loop values -/

theorem last_v15 : (StableHlo.after hostOps1_4 V (Proc.devRef .tc main_v15) : FVec Ideal S8x2048 .f32)
    = (mulf (V (Proc.devRef .tc main_v14) : FVec Ideal S8x2048 .f32) (V (Proc.devRef .tc main_v7)) : FVec Ideal S8x2048 .f32) := by
  after_results
theorem last_v14 : StableHlo.after hostOps1_4 V (Proc.devRef .tc main_v14) = V (Proc.devRef .tc main_v14) := by
  after_results

end Stretch

section Stretch2
variable (V : Valuation τ sig (Elt Ideal))

/-! ### The stretch before the third kernel: the two matrices as column arrays -/

theorem third_v17 : (StableHlo.after hostOps2 V (Proc.devRef .tc main_v17) : FVec Ideal S8x2048x1 .f32)
    = shapeCast S8x2048x1 (V (Proc.devRef .tc main_v14) : FVec Ideal S8x2048 .f32) Gen.shapeCasts_S8x2048_S8x2048x1 := by
  after_results <;> rfl
theorem third_v18 : (StableHlo.after hostOps2 V (Proc.devRef .tc main_v18) : FVec Ideal S8x2048x1 .f32)
    = shapeCast S8x2048x1 (V (Proc.devRef .tc main_v15) : FVec Ideal S8x2048 .f32) Gen.shapeCasts_S8x2048_S8x2048x1 := by
  after_results <;> rfl

end Stretch2

/-! ## The reshapes and the arithmetic read at an index -/

section AtIndex
variable (rs dg : FVec Ideal S8x2048x1 .f32) (cs : FVec Ideal S8x1x2048 .f32)

/-- A column array as a matrix reads, at (b, i), the array at (b, i, 0): the two row-major positions agree. -/
theorem colMat_at (x : FVec Ideal S8x2048x1 .f32) (b : Fin 8) (i : Fin 2048) : colMat x (ix2 b i) = x (ix3 b i 0) :=
  shapeCast_apply x _ _ _ (by
    rw [Shape.rowMajor_val_three, Shape.rowMajor_val_two]
    show (b.val * 2048 + i.val) * 1 + 0 = b.val * 2048 + i.val
    omega)
/-- A row array as a matrix reads, at (b, i), the array at (b, 0, i). -/
theorem rowMat_at (x : FVec Ideal S8x1x2048 .f32) (b : Fin 8) (i : Fin 2048) : rowMat x (ix2 b i) = x (ix3 b 0 i) :=
  shapeCast_apply x _ _ _ (by
    rw [Shape.rowMajor_val_three, Shape.rowMajor_val_two]
    show (b.val * 1 + 0) * 2048 + i.val = b.val * 2048 + i.val
    omega)
/-- A matrix as a column array reads, at (b, i, 0), the matrix at (b, i). -/
theorem matCol_at (x : FVec Ideal S8x2048 .f32) (b : Fin 8) (i : Fin 2048) :
    shapeCast S8x2048x1 x Gen.shapeCasts_S8x2048_S8x2048x1 (ix3 b i 0) = x (ix2 b i) :=
  shapeCast_apply x _ _ _ (by
    rw [Shape.rowMajor_val_three, Shape.rowMajor_val_two]
    show b.val * 2048 + i.val = (b.val * 2048 + i.val) * 1 + 0
    omega)

/-- The self-loop value at (b, i): the elementwise operations read at the index, the literals kept as their words. -/
theorem nuVec_at (b : Fin 8) (i : Fin 2048) :
    nuVec rs dg cs (ix2 b i) = Cert.Spec.newDiag (rs (ix3 b i 0) + cs (ix3 b 0 i)) (dg (ix3 b i 0)) := by
  rw [← colMat_at rs b i, ← rowMat_at cs b i, ← colMat_at dg b i]; rfl
/-- The degree at (b, i). -/
theorem degVec_at (b : Fin 8) (i : Fin 2048) :
    degVec rs dg cs (ix2 b i)
      = rs (ix3 b i 0) - dg (ix3 b i 0) + Cert.Spec.newDiag (rs (ix3 b i 0) + cs (ix3 b 0 i)) (dg (ix3 b i 0)) := by
  rw [← nuVec_at rs dg cs b i, ← colMat_at rs b i, ← colMat_at dg b i]; rfl
/-- The reciprocal degree at (b, i). -/
theorem dinvVec_at (b : Fin 8) (i : Fin 2048) :
    dinvVec rs dg cs (ix2 b i)
      = Cert.Spec.dinv (rs (ix3 b i 0) - dg (ix3 b i 0) + Cert.Spec.newDiag (rs (ix3 b i 0) + cs (ix3 b 0 i)) (dg (ix3 b i 0))) := by
  rw [← degVec_at rs dg cs b i]; rfl
/-- The normalised self-loop term at (b, i). -/
theorem termVec_at (b : Fin 8) (i : Fin 2048) :
    termVec rs dg cs (ix2 b i)
      = Cert.Spec.dinv (rs (ix3 b i 0) - dg (ix3 b i 0) + Cert.Spec.newDiag (rs (ix3 b i 0) + cs (ix3 b 0 i)) (dg (ix3 b i 0)))
          * Cert.Spec.newDiag (rs (ix3 b i 0) + cs (ix3 b 0 i)) (dg (ix3 b i 0)) := by
  rw [← dinvVec_at rs dg cs b i, ← nuVec_at rs dg cs b i]; rfl

end AtIndex

/-! ## The buffers at the boundaries of the run, from the first kernel's three arrays -/

/-- The matrices of row sums and of diagonal entries: the first call leaves them as the first stretch made them. -/
theorem W3_v1 (c : Dev nD) : (W3 m ρ c (Proc.devRef .tc main_v1) : FVec Ideal S8x2048 .f32) = colMat (rsArr m ρ c) :=
  (call0_v1 (W2 m ρ c)).trans (first_v1 (W1 m ρ c))
theorem W3_v2 (c : Dev nD) : (W3 m ρ c (Proc.devRef .tc main_v2) : FVec Ideal S8x2048 .f32) = colMat (dgArr m ρ c) :=
  (call0_v2 (W2 m ρ c)).trans (first_v2 (W1 m ρ c))
/-- The self-loop values, as the first call leaves them. -/
theorem W3_v7 (c : Dev nD) : (W3 m ρ c (Proc.devRef .tc main_v7) : FVec Ideal S8x2048 .f32)
    = nuVec (rsArr m ρ c) (dgArr m ρ c) (csArr m ρ c) := by
  refine (call0_v7 (W2 m ρ c)).trans ?_
  rw [show W2 m ρ c (Proc.devRef .tc main_v6) = _ from first_v6 (W1 m ρ c),
    show W2 m ρ c (Proc.devRef .tc main_cst_0) = _ from first_cst0 (W1 m ρ c),
    show W2 m ρ c (Proc.devRef .tc main_v2) = _ from first_v2 (W1 m ρ c)]
  rfl
/-- The reciprocal degrees, as the second call leaves them. -/
theorem W5_v14 (c : Dev nD) : (W5 m ρ c (Proc.devRef .tc main_v14) : FVec Ideal S8x2048 .f32)
    = dinvVec (rsArr m ρ c) (dgArr m ρ c) (csArr m ρ c) := by
  refine (call1_v14 (W4 m ρ c)).trans ?_
  rw [show W4 m ρ c (Proc.devRef .tc main_v11) = _ from second_v11 (W3 m ρ c),
    show W4 m ρ c (Proc.devRef .tc main_v13) = _ from second_v13 (W3 m ρ c),
    show W4 m ρ c (Proc.devRef .tc main_cst_3) = _ from second_cst3 (W3 m ρ c),
    W3_v1 m ρ c, W3_v2 m ρ c, W3_v7 m ρ c]
  rfl
/-- The self-loop values are still there after the second stretch and the second call. -/
theorem W5_v7 (c : Dev nD) : (W5 m ρ c (Proc.devRef .tc main_v7) : FVec Ideal S8x2048 .f32)
    = nuVec (rsArr m ρ c) (dgArr m ρ c) (csArr m ρ c) :=
  (call1_v7 (W4 m ρ c)).trans ((second_v7 (W3 m ρ c)).trans (W3_v7 m ρ c))
/-- What the second kernel's entry holds of the two matrices the third kernel's arrays are made of. -/
theorem W6_v14 (c : Dev nD) : (W6 m ρ c (Proc.devRef .tc main_v14) : FVec Ideal S8x2048 .f32)
    = dinvVec (rsArr m ρ c) (dgArr m ρ c) (csArr m ρ c) :=
  (last_v14 (W5 m ρ c)).trans (W5_v14 m ρ c)
theorem W6_v15 (c : Dev nD) : (W6 m ρ c (Proc.devRef .tc main_v15) : FVec Ideal S8x2048 .f32)
    = termVec (rsArr m ρ c) (dgArr m ρ c) (csArr m ρ c) := by
  refine (last_v15 (W5 m ρ c)).trans ?_
  rw [W5_v14 m ρ c, W5_v7 m ρ c]
  rfl

end HostOps

open HostOps

/-- The reciprocal degree at (b, i). -/
theorem v17_at (c : Dev nD) (b : Fin 8) (i : Fin 2048) :
    v17Arr m ρ c (ix3 b i 0) = Cert.Spec.dinv (degAt m ρ c b i) := by
  refine (congrFun (third_v17 (W7 m ρ c)) (ix3 b i 0)).trans ?_
  rw [matCol_at, W7_of_ne m ρ c main_v14 (by decide), W6_v14 m ρ c, dinvVec_at]

/-- The normalised self-loop term at (b, i): the reciprocal degree times the self-loop value. -/
theorem v18_at (c : Dev nD) (b : Fin 8) (i : Fin 2048) :
    v18Arr m ρ c (ix3 b i 0) = Cert.Spec.dinv (degAt m ρ c b i) * nuAt m ρ c b i := by
  refine (congrFun (third_v18 (W7 m ρ c)) (ix3 b i 0)).trans ?_
  rw [matCol_at, W7_of_ne m ρ c main_v15 (by decide), W6_v15 m ρ c, termVec_at]

/-- The third kernel finds A as launched. -/
theorem V8_arg1 (c : Dev nD) : V8 m ρ c main_arg1 = m ((c : Thread nD τ).loc main_arg1) :=
  calc W8 m ρ c (Proc.devRef .tc main_arg1)
    _ = W7 m ρ c (Proc.devRef .tc main_arg1) := by host_keeps hostOps2
    _ = W6 m ρ c (Proc.devRef .tc main_arg1) := W7_of_ne m ρ c main_arg1 (by decide)
    _ = W5 m ρ c (Proc.devRef .tc main_arg1) := by host_keeps hostOps1_4
    _ = W4 m ρ c (Proc.devRef .tc main_arg1) := by host_keeps hostOps1_3
    _ = W3 m ρ c (Proc.devRef .tc main_arg1) := by host_keeps hostOps1_2
    _ = W2 m ρ c (Proc.devRef .tc main_arg1) := by host_keeps hostOps1_1
    _ = W1 m ρ c (Proc.devRef .tc main_arg1) := by host_keeps hostOps1
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl

/-- The third kernel finds the hidden features as the second kernel left them. -/
theorem V8_v16 (c : Dev nD) : V8 m ρ c main_v16 = (dat1 (V6 m ρ) c).arrAt 2 cfg1.N :=
  calc W8 m ρ c (Proc.devRef .tc main_v16)
    _ = W7 m ρ c (Proc.devRef .tc main_v16) := by host_keeps hostOps2
    _ = (dat1 (V6 m ρ) c).arrAt 2 cfg1.N := W7_arr m ρ c 2

/-- The second kernel finds x and W as launched. -/
theorem V6_arg0 (c : Dev nD) : V6 m ρ c main_arg0 = m ((c : Thread nD τ).loc main_arg0) :=
  calc W6 m ρ c (Proc.devRef .tc main_arg0)
    _ = W5 m ρ c (Proc.devRef .tc main_arg0) := by host_keeps hostOps1_4
    _ = W4 m ρ c (Proc.devRef .tc main_arg0) := by host_keeps hostOps1_3
    _ = W3 m ρ c (Proc.devRef .tc main_arg0) := by host_keeps hostOps1_2
    _ = W2 m ρ c (Proc.devRef .tc main_arg0) := by host_keeps hostOps1_1
    _ = W1 m ρ c (Proc.devRef .tc main_arg0) := by host_keeps hostOps1
    _ = W0 m ρ c (Proc.devRef .tc main_arg0) := W1_of_ne m ρ c main_arg0 (by decide)
    _ = m ((c : Thread nD τ).loc main_arg0) := rfl
theorem V6_arg2 (c : Dev nD) : V6 m ρ c main_arg2 = m ((c : Thread nD τ).loc main_arg2) :=
  calc W6 m ρ c (Proc.devRef .tc main_arg2)
    _ = W5 m ρ c (Proc.devRef .tc main_arg2) := by host_keeps hostOps1_4
    _ = W4 m ρ c (Proc.devRef .tc main_arg2) := by host_keeps hostOps1_3
    _ = W3 m ρ c (Proc.devRef .tc main_arg2) := by host_keeps hostOps1_2
    _ = W2 m ρ c (Proc.devRef .tc main_arg2) := by host_keeps hostOps1_1
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

end Cert.KernelIdeal.Val

end
-- ==== Proof.KValue.lean ====
/-
  The program's result buffer, when its run ends, holds the specification's program side of the three arguments: the third
  kernel's array read at an index, each array it reads traced back — A to the launch, the hidden features to the second
  kernel (itself of x and W as launched), the reciprocal degrees and self-loop terms through the host operations to the first
  kernel's row sums, diagonal entries and column sums of A.
-/
import proofs.«176590_j84911503442515_1_alg».proof.Proof.KernelIdealRun
import proofs.«176590_j84911503442515_1_alg».proof.Proof.KReg0
import proofs.«176590_j84911503442515_1_alg».proof.Proof.KReg1
import proofs.«176590_j84911503442515_1_alg».proof.Proof.KReg2
import proofs.«176590_j84911503442515_1_alg».proof.Proof.KHost

set_option maxRecDepth 16384

noncomputable section

open scoped BigOperators

namespace Cert.KernelIdeal.Val

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The three arguments as launched, each at its literal type. -/
abbrev xArg (c : Dev nD) : Cert.Spec.SX.Idx → EReal := m ((c : Thread nD τ).loc main_arg0)
abbrev aArg (c : Dev nD) : Cert.Spec.SA.Idx → EReal := m ((c : Thread nD τ).loc main_arg1)
abbrev wArg (c : Dev nD) : Cert.Spec.SW.Idx → EReal := m ((c : Thread nD τ).loc main_arg2)

/-- The first kernel's outputs, as its region leaves them, are the row sums, diagonal entries and column sums of A as
    launched (the region is entered from the launch memory). -/
theorem rs_eq (c : Dev nD) (b : Fin 8) (i : Fin 2048) : rsArr m ρ c (ix3 b i 0) = Cert.Spec.rowSum (aArg m c) b i :=
  (congrFun (hF0 m ρ c 1).symm (ix3 b i 0)).trans (reg0_rowsum (V0 m ρ) c b i)
theorem dg_eq (c : Dev nD) (b : Fin 8) (i : Fin 2048) : dgArr m ρ c (ix3 b i 0) = aArg m c (ix3 b i i) :=
  (congrFun (hF0 m ρ c 2).symm (ix3 b i 0)).trans (reg0_diag (V0 m ρ) c b i)
theorem cs_eq (c : Dev nD) (b : Fin 8) (j : Fin 2048) : csArr m ρ c (ix3 b 0 j) = Cert.Spec.colSum (aArg m c) b j :=
  (congrFun (hF0 m ρ c 3).symm (ix3 b 0 j)).trans (reg0_colsum (V0 m ρ) c b j)

theorem nu_eq (c : Dev nD) (b : Fin 8) (i : Fin 2048) : nuAt m ρ c b i = Cert.Spec.kNew (aArg m c) b i := by
  unfold nuAt Cert.Spec.kNew
  rw [rs_eq, cs_eq, dg_eq]
theorem deg_eq (c : Dev nD) (b : Fin 8) (i : Fin 2048) : degAt m ρ c b i = Cert.Spec.kDeg (aArg m c) b i := by
  unfold degAt Cert.Spec.kDeg
  rw [rs_eq, dg_eq, nu_eq]

/-- The result buffer at the last boundary of @main. -/
theorem final (c : Dev nD) :
    (W9 m ρ c (Proc.devRef .tc main_v19) : Cert.Spec.SX.Idx → EReal) = Cert.Spec.kOut (xArg m c) (aArg m c) (wArg m c) := by
  funext j
  obtain ⟨b, n, e, rfl⟩ : ∃ (b : Fin 8) (n : Fin 2048) (e : Fin 128), j = ix3 b n e := ⟨j 0, j 1, j 2, eq_ix3 j⟩
  refine (congrFun (W9_arr m ρ c 4) (ix3 b n e)).trans ?_
  refine (reg2_out (V8 m ρ) c b n e).trans ?_
  show _ = Cert.Spec.kOutAt (xArg m c) (aArg m c) (wArg m c) b n e
  unfold Cert.Spec.kOutAt
  refine Finset.sum_congr rfl fun k _ => ?_
  have h17 : dinvArr (V8 m ρ) c (ix3 b n 0) = Cert.Spec.kDinv (aArg m c) b n := by
    refine (v17_at m ρ c b n).trans ?_
    rw [deg_eq]; rfl
  have h18 : termArr (V8 m ρ) c (ix3 b n 0) = Cert.Spec.kTerm (aArg m c) b n := by
    refine (v18_at m ρ c b n).trans ?_
    rw [deg_eq, nu_eq]; rfl
  have hA : aArr (V8 m ρ) c (ix3 b n k) = aArg m c (ix3 b n k) := congrFun (V8_arg1 m ρ c) (ix3 b n k)
  have hH : hArr (V8 m ρ) c (ix3 b k e) = Cert.Spec.hid (xArg m c) (wArg m c) b k e := by
    refine (congrFun (V8_v16 m ρ c) (ix3 b k e)).trans ?_
    refine (reg1_hid (V6 m ρ) c b k e).trans ?_
    rw [V6_arg0, V6_arg2]
  rw [h17, h18, hA, hH]

end Cert.KernelIdeal.Val

end
-- ==== Proof.RefStages.lean ====
/-
  The reference program's result as ONE pure term of its three arguments, stage by stage in the order its operations
  run: the test sum of A + Aᵀ and its mask; the diagonal index pairs (k, k) (an iota, wrapped as jax wraps a negative
  index, twice, side by side); the diagonal gathered; the self-loop values; the diagonal scattered back; the degree, its
  guarded reciprocal, the row scaling; the hidden features; the final batched product.
-/
import proofs.«176590_j84911503442515_1_alg».proof.Proof.Gen.ReferenceIdeal

noncomputable section

open scoped BigOperators

namespace Cert.ReferenceIdeal.Stages

open Cert.ReferenceIdeal Cert.ReferenceIdeal.Gen Idealize.ShloMosaic

variable {F : FTy → Type} [FloatOps F]

/-- The iota 0 … 2047 with a negative entry wrapped by 2048 (no entry is negative: it is the iota). -/
def wrapIota : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32)))
    (iotaInDim S2048 32 0)

/-- The index pairs (k, k), k = 0 … 2047. -/
def diagIdx : IVec S2048x2 32 :=
  concatenate S2048x2 1 [⟨S2048x1, broadcastInDim S2048x1 ![0] bcast_S2048_S2048x1_0 wrapIota⟩,
    ⟨S2048x1, broadcastInDim S2048x1 ![0] bcast_S2048_S2048x1_0 wrapIota⟩] concatenates_S2048x1_S2048x1_S2048x2_d1

/-- Where the row sum of A + Aᵀ is not 0. -/
def mask (A : FVec F S8x2048x2048 .f32) : IVec S8x2048 1 :=
  cmpf .une
    (Host.reduceAdd (addf A (transpose S8x2048x2048 [0, 2, 1] A transposes_S8x2048x2048_S8x2048x2048_0_2_1))
      (constant S_ .f32 0x00000000#32) reducesTo_S8x2048x2048_S8x2048_d2 h_S_)
    (broadcastInDim S8x2048 ![] bcast_S_S8x2048 (constant S_ .f32 0x00000000#32))

/-- A's diagonal. -/
def diag (A : FVec F S8x2048x2048 .f32) : FVec F S8x2048 .f32 :=
  Host.gather gather_S8x2048x2048_S2048x2_S8x2048_0_12_n_n_12_1_811 A diagIdx

/-- The self-loop values: 1 under the mask, the old diagonal elsewhere. -/
def newDiag (A : FVec F S8x2048x2048 .f32) : FVec F S8x2048 .f32 :=
  select (mask A) (broadcastInDim S8x2048 ![] bcast_S_S8x2048 (id (constant S_ .f32 0x3F800000#32))) (diag A)

/-- A with its diagonal replaced by the self-loop values. -/
def aSelf (A : FVec F S8x2048x2048 .f32) : FVec F S8x2048x2048 .f32 :=
  Host.scatter scatter_S8x2048x2048_S2048x2_S8x2048_0_12_12_1 (fun _ b => b) A diagIdx (newDiag A)

/-- Its row sums. -/
def deg (A : FVec F S8x2048x2048 .f32) : FVec F S8x2048 .f32 :=
  Host.reduceAdd (aSelf A) (constant S_ .f32 0x00000000#32) reducesTo_S8x2048x2048_S8x2048_d2 h_S_

/-- Their reciprocals, 0 at a zero row sum. -/
def dinv (A : FVec F S8x2048x2048 .f32) : FVec F S8x2048 .f32 :=
  select (cmpf .une (deg A) (broadcastInDim S8x2048 ![] bcast_S_S8x2048 (constant S_ .f32 0x00000000#32)))
    (Host.divf (broadcastInDim S8x2048 ![] bcast_S_S8x2048 (constant S_ .f32 0x3F800000#32)) (deg A))
    (broadcastInDim S8x2048 ![] bcast_S_S8x2048 (id (constant S_ .f32 0x00000000#32)))

/-- The row-normalised matrix. -/
def an (A : FVec F S8x2048x2048 .f32) : FVec F S8x2048x2048 .f32 :=
  mulf (broadcastInDim S8x2048x2048 ![0, 1, 2] bcast_S8x2048x1_S8x2048x2048_0_1_2
      (broadcastInDim S8x2048x1 ![0, 1] bcast_S8x2048_S8x2048x1_0_1 (dinv A)))
    (aSelf A)

/-- x Wᵀ. -/
def logits (x : FVec F S8x2048x128 .f32) (W : FVec F S128x128 .f32) : FVec F S8x2048x128 .f32 :=
  Host.dotGeneral dot_S8x2048x128_S128x128_S8x2048x128_2_1_01_0_n_n none x W

/-- leakyReLU of it. -/
def hid (x : FVec F S8x2048x128 .f32) (W : FVec F S128x128 .f32) : FVec F S8x2048x128 .f32 :=
  select (cmpf .oge (logits x W) (broadcastInDim S8x2048x128 ![] bcast_S_S8x2048x128 (constant S_ .f32 0x00000000#32)))
    (logits x W)
    (mulf (broadcastInDim S8x2048x128 ![] bcast_S_S8x2048x128 (id (constant S_ .f32 0x3C23D70A#32))) (logits x W))

/-- The reference's result. -/
def result (x : FVec F S8x2048x128 .f32) (A : FVec F S8x2048x2048 .f32) (W : FVec F S128x128 .f32) :
    FVec F S8x2048x128 .f32 :=
  Host.dotGeneral dot_S8x2048x2048_S8x2048x128_S8x2048x128_2_1_1_2_0_0 none (an A) (hid x W)

end Cert.ReferenceIdeal.Stages

end
-- ==== Proof.RefRun.lean ====
/-
  The reference program run: its @main is a straight line of host operations (the three outlined functions written out at
  their calls), so every weakly fair execution terminates with the result buffer at the stages' term of the arguments.
-/
import proofs.«176590_j84911503442515_1_alg».proof.Proof.RefStages
import Idealize.ShloMosaic.Lib.StableHlo.Run

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, the callees' written out at the calls. -/
abbrev ops : List (HloOp τ sig (Elt F)) :=
  [ unary main_arg1 main_v0 ((transpose S8x2048x2048 [0, 2, 1] · transposes_S8x2048x2048_S8x2048x2048_0_2_1) : (⟨S8x2048x2048, .f32⟩ : BufTy).Contents (Elt F) → (⟨S8x2048x2048, .f32⟩ : BufTy).Contents (Elt F)),
    binary main_arg1 main_v0 main_v1 (addf : (⟨S8x2048x2048, .f32⟩ : BufTy).Contents (Elt F) → (⟨S8x2048x2048, .f32⟩ : BufTy).Contents (Elt F) → (⟨S8x2048x2048, .f32⟩ : BufTy).Contents (Elt F)),
    nullary main_cst (constant S_ .f32 0x00000000#32),
    binary main_v1 main_cst main_v2 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_0 (constant S_ .f32 0x00000000#32),
    unary main_cst_0 main_v3 (broadcastInDim S8x2048 ![] bcast_S_S8x2048 : (⟨S_, .f32⟩ : BufTy).Contents (Elt F) → (⟨S8x2048, .f32⟩ : BufTy).Contents (Elt F)),
    binary main_v2 main_v3 main_v4 (cmpf .une : (⟨S8x2048, .f32⟩ : BufTy).Contents (Elt F) → (⟨S8x2048, .f32⟩ : BufTy).Contents (Elt F) → (⟨S8x2048, .i1⟩ : BufTy).Contents (Elt F)),
    nullary main_v5 (iotaInDim S2048 32 0),
    nullary main_c (constantI S_ 32 0#32),
    unary main_c main_v6 (broadcastInDim S2048 ![] bcast_S_S2048 : (⟨S_, .i32⟩ : BufTy).Contents (Elt F) → (⟨S2048, .i32⟩ : BufTy).Contents (Elt F)),
    binary main_v5 main_v6 main_v7 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v8 (broadcastInDim S2048 ![] bcast_S_S2048 : (⟨S_, .i32⟩ : BufTy).Contents (Elt F) → (⟨S2048, .i32⟩ : BufTy).Contents (Elt F)),
    binary main_v5 main_v8 main_v9 (addi : (⟨S2048, .i32⟩ : BufTy).Contents (Elt F) → (⟨S2048, .i32⟩ : BufTy).Contents (Elt F) → (⟨S2048, .i32⟩ : BufTy).Contents (Elt F)),
    ternary main_v7 main_v9 main_v5 main_v10 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_2 (constantI S_ 32 0#32),
    unary main_c_2 main_v11 (broadcastInDim S2048 ![] bcast_S_S2048 : (⟨S_, .i32⟩ : BufTy).Contents (Elt F) → (⟨S2048, .i32⟩ : BufTy).Contents (Elt F)),
    binary main_v5 main_v11 main_v12 (cmpi .slt : (⟨S2048, .i32⟩ : BufTy).Contents (Elt F) → (⟨S2048, .i32⟩ : BufTy).Contents (Elt F) → (⟨S2048, .i1⟩ : BufTy).Contents (Elt F)),
    nullary main_c_3 (constantI S_ 32 2048#32),
    unary main_c_3 main_v13 (broadcastInDim S2048 ![] bcast_S_S2048 : (⟨S_, .i32⟩ : BufTy).Contents (Elt F) → (⟨S2048, .i32⟩ : BufTy).Contents (Elt F)),
    binary main_v5 main_v13 main_v14 (addi : (⟨S2048, .i32⟩ : BufTy).Contents (Elt F) → (⟨S2048, .i32⟩ : BufTy).Contents (Elt F) → (⟨S2048, .i32⟩ : BufTy).Contents (Elt F)),
    ternary main_v12 main_v14 main_v5 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v10 main_v16 (broadcastInDim S2048x1 ![0] bcast_S2048_S2048x1_0 : (⟨S2048, .i32⟩ : BufTy).Contents (Elt F) → (⟨S2048x1, .i32⟩ : BufTy).Contents (Elt F)),
    unary main_v15 main_v17 (broadcastInDim S2048x1 ![0] bcast_S2048_S2048x1_0 : (⟨S2048, .i32⟩ : BufTy).Contents (Elt F) → (⟨S2048x1, .i32⟩ : BufTy).Contents (Elt F)),
    binary main_v16 main_v17 main_v18 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_arg1 main_v18 main_v19 ((fun x i => Host.gather gather_S8x2048x2048_S2048x2_S8x2048_0_12_n_n_12_1_811 x i) : (⟨S8x2048x2048, .f32⟩ : BufTy).Contents (Elt F) → (⟨S2048x2, .i32⟩ : BufTy).Contents (Elt F) → (⟨S8x2048, .f32⟩ : BufTy).Contents (Elt F)),
    nullary main_cst_4 (constant S_ .f32 0x3F800000#32),
    TRef.unary (.of main_cst_4 : TRef sig ⟨S_, .f32⟩) main_call0.v0 id,
    TRef.unary main_call0.v0 main_call0.v1 (broadcastInDim S8x2048 ![] bcast_S_S8x2048),
    TRef.ternary (.of main_v4 : TRef sig ⟨S8x2048, .i1⟩) main_call0.v1 (.of main_v19 : TRef sig ⟨S8x2048, .f32⟩) main_call0.v2 select,
    nullary main_c_5 (constantI S_ 32 0#32),
    unary main_c_5 main_v21 (broadcastInDim S2048 ![] bcast_S_S2048 : (⟨S_, .i32⟩ : BufTy).Contents (Elt F) → (⟨S2048, .i32⟩ : BufTy).Contents (Elt F)),
    binary main_v5 main_v21 main_v22 (cmpi .slt : (⟨S2048, .i32⟩ : BufTy).Contents (Elt F) → (⟨S2048, .i32⟩ : BufTy).Contents (Elt F) → (⟨S2048, .i1⟩ : BufTy).Contents (Elt F)),
    nullary main_c_6 (constantI S_ 32 2048#32),
    unary main_c_6 main_v23 (broadcastInDim S2048 ![] bcast_S_S2048 : (⟨S_, .i32⟩ : BufTy).Contents (Elt F) → (⟨S2048, .i32⟩ : BufTy).Contents (Elt F)),
    binary main_v5 main_v23 main_v24 (addi : (⟨S2048, .i32⟩ : BufTy).Contents (Elt F) → (⟨S2048, .i32⟩ : BufTy).Contents (Elt F) → (⟨S2048, .i32⟩ : BufTy).Contents (Elt F)),
    ternary main_v22 main_v24 main_v5 main_v25 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_7 (constantI S_ 32 0#32),
    unary main_c_7 main_v26 (broadcastInDim S2048 ![] bcast_S_S2048 : (⟨S_, .i32⟩ : BufTy).Contents (Elt F) → (⟨S2048, .i32⟩ : BufTy).Contents (Elt F)),
    binary main_v5 main_v26 main_v27 (cmpi .slt : (⟨S2048, .i32⟩ : BufTy).Contents (Elt F) → (⟨S2048, .i32⟩ : BufTy).Contents (Elt F) → (⟨S2048, .i1⟩ : BufTy).Contents (Elt F)),
    nullary main_c_8 (constantI S_ 32 2048#32),
    unary main_c_8 main_v28 (broadcastInDim S2048 ![] bcast_S_S2048 : (⟨S_, .i32⟩ : BufTy).Contents (Elt F) → (⟨S2048, .i32⟩ : BufTy).Contents (Elt F)),
    binary main_v5 main_v28 main_v29 (addi : (⟨S2048, .i32⟩ : BufTy).Contents (Elt F) → (⟨S2048, .i32⟩ : BufTy).Contents (Elt F) → (⟨S2048, .i32⟩ : BufTy).Contents (Elt F)),
    ternary main_v27 main_v29 main_v5 main_v30 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v25 main_v31 (broadcastInDim S2048x1 ![0] bcast_S2048_S2048x1_0 : (⟨S2048, .i32⟩ : BufTy).Contents (Elt F) → (⟨S2048x1, .i32⟩ : BufTy).Contents (Elt F)),
    unary main_v30 main_v32 (broadcastInDim S2048x1 ![0] bcast_S2048_S2048x1_0 : (⟨S2048, .i32⟩ : BufTy).Contents (Elt F) → (⟨S2048x1, .i32⟩ : BufTy).Contents (Elt F)),
    binary main_v31 main_v32 main_v33 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    ternary main_arg1 main_v33 main_v20 main_v34 ((fun x i u => Host.scatter scatter_S8x2048x2048_S2048x2_S8x2048_0_12_12_1 (fun _ b => b) x i u) : (⟨S8x2048x2048, .f32⟩ : BufTy).Contents (Elt F) → (⟨S2048x2, .i32⟩ : BufTy).Contents (Elt F) → (⟨S8x2048, .f32⟩ : BufTy).Contents (Elt F) → (⟨S8x2048x2048, .f32⟩ : BufTy).Contents (Elt F)),
    nullary main_cst_9 (constant S_ .f32 0x00000000#32),
    binary main_v34 main_cst_9 main_v35 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_10 (constant S_ .f32 0x00000000#32),
    unary main_cst_10 main_v36 (broadcastInDim S8x2048 ![] bcast_S_S8x2048 : (⟨S_, .f32⟩ : BufTy).Contents (Elt F) → (⟨S8x2048, .f32⟩ : BufTy).Contents (Elt F)),
    binary main_v35 main_v36 main_v37 (cmpf .une : (⟨S8x2048, .f32⟩ : BufTy).Contents (Elt F) → (⟨S8x2048, .f32⟩ : BufTy).Contents (Elt F) → (⟨S8x2048, .i1⟩ : BufTy).Contents (Elt F)),
    nullary main_cst_11 (constant S_ .f32 0x3F800000#32),
    unary main_cst_11 main_v38 (broadcastInDim S8x2048 ![] bcast_S_S8x2048 : (⟨S_, .f32⟩ : BufTy).Contents (Elt F) → (⟨S8x2048, .f32⟩ : BufTy).Contents (Elt F)),
    binary main_v38 main_v35 main_v39 (Host.divf : (⟨S8x2048, .f32⟩ : BufTy).Contents (Elt F) → (⟨S8x2048, .f32⟩ : BufTy).Contents (Elt F) → (⟨S8x2048, .f32⟩ : BufTy).Contents (Elt F)),
    nullary main_cst_12 (constant S_ .f32 0x00000000#32),
    TRef.unary (.of main_cst_12 : TRef sig ⟨S_, .f32⟩) main_call1.v0 id,
    TRef.unary main_call1.v0 main_call1.v1 (broadcastInDim S8x2048 ![] bcast_S_S8x2048),
    TRef.ternary (.of main_v37 : TRef sig ⟨S8x2048, .i1⟩) (.of main_v39 : TRef sig ⟨S8x2048, .f32⟩) main_call1.v1 main_call1.v2 select,
    unary main_v40 main_v41 (broadcastInDim S8x2048x1 ![0, 1] bcast_S8x2048_S8x2048x1_0_1 : (⟨S8x2048, .f32⟩ : BufTy).Contents (Elt F) → (⟨S8x2048x1, .f32⟩ : BufTy).Contents (Elt F)),
    unary main_v41 main_v42 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v42 main_v34 main_v43 (mulf : (⟨S8x2048x2048, .f32⟩ : BufTy).Contents (Elt F) → (⟨S8x2048x2048, .f32⟩ : BufTy).Contents (Elt F) → (⟨S8x2048x2048, .f32⟩ : BufTy).Contents (Elt F)),
    binary main_arg0 main_arg2 main_v44 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    nullary main_cst_13 (constant S_ .f32 0x3C23D70A#32),
    TRef.nullary main_call2.cst (constant S_ .f32 0x00000000#32),
    TRef.unary main_call2.cst main_call2.v0 (broadcastInDim S8x2048x128 ![] bcast_S_S8x2048x128),
    TRef.binary (.of main_v44 : TRef sig ⟨S8x2048x128, .f32⟩) main_call2.v0 main_call2.v1 (cmpf .oge),
    TRef.unary (.of main_cst_13 : TRef sig ⟨S_, .f32⟩) main_call2.v2 id,
    TRef.unary main_call2.v2 main_call2.v3 (broadcastInDim S8x2048x128 ![] bcast_S_S8x2048x128),
    TRef.binary main_call2.v3 (.of main_v44 : TRef sig ⟨S8x2048x128, .f32⟩) main_call2.v4 mulf,
    TRef.ternary main_call2.v1 (.of main_v44 : TRef sig ⟨S8x2048x128, .f32⟩) main_call2.v4 main_call2.call0.v0 select,
    binary main_v43 main_v45 main_v46 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

set_option maxRecDepth 4096 in
set_option maxHeartbeats 4000000 in
/-- @main is that straight line: the windows and the functions' bodies unfolded, sequencing reassociated. -/
theorem main_eq (c : Dev nD) : main (F := F) c = seq ops := by
  simp only [main, main_part0, main_part1, fn_where.body, fn_where_0.body, fn_leaky_relu.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

/-! ## The result, stretch by stretch

The line cut at its seams into six stretches; what each leaves at the buffers a later stretch reads, over any contents before it. -/

/-- Stretch 1 of the operations. -/
def c1 : List (HloOp τ sig (Elt F)) :=
  [ unary main_arg1 main_v0 ((transpose S8x2048x2048 [0, 2, 1] · transposes_S8x2048x2048_S8x2048x2048_0_2_1) : (⟨S8x2048x2048, .f32⟩ : BufTy).Contents (Elt F) → (⟨S8x2048x2048, .f32⟩ : BufTy).Contents (Elt F)),
    binary main_arg1 main_v0 main_v1 (addf : (⟨S8x2048x2048, .f32⟩ : BufTy).Contents (Elt F) → (⟨S8x2048x2048, .f32⟩ : BufTy).Contents (Elt F) → (⟨S8x2048x2048, .f32⟩ : BufTy).Contents (Elt F)),
    nullary main_cst (constant S_ .f32 0x00000000#32),
    binary main_v1 main_cst main_v2 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_0 (constant S_ .f32 0x00000000#32),
    unary main_cst_0 main_v3 (broadcastInDim S8x2048 ![] bcast_S_S8x2048 : (⟨S_, .f32⟩ : BufTy).Contents (Elt F) → (⟨S8x2048, .f32⟩ : BufTy).Contents (Elt F)),
    binary main_v2 main_v3 main_v4 (cmpf .une : (⟨S8x2048, .f32⟩ : BufTy).Contents (Elt F) → (⟨S8x2048, .f32⟩ : BufTy).Contents (Elt F) → (⟨S8x2048, .i1⟩ : BufTy).Contents (Elt F)) ]

/-- Stretch 2 of the operations. -/
def c2 : List (HloOp τ sig (Elt F)) :=
  [ nullary main_v5 (iotaInDim S2048 32 0),
    nullary main_c (constantI S_ 32 0#32),
    unary main_c main_v6 (broadcastInDim S2048 ![] bcast_S_S2048 : (⟨S_, .i32⟩ : BufTy).Contents (Elt F) → (⟨S2048, .i32⟩ : BufTy).Contents (Elt F)),
    binary main_v5 main_v6 main_v7 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v8 (broadcastInDim S2048 ![] bcast_S_S2048 : (⟨S_, .i32⟩ : BufTy).Contents (Elt F) → (⟨S2048, .i32⟩ : BufTy).Contents (Elt F)),
    binary main_v5 main_v8 main_v9 (addi : (⟨S2048, .i32⟩ : BufTy).Contents (Elt F) → (⟨S2048, .i32⟩ : BufTy).Contents (Elt F) → (⟨S2048, .i32⟩ : BufTy).Contents (Elt F)),
    ternary main_v7 main_v9 main_v5 main_v10 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_2 (constantI S_ 32 0#32),
    unary main_c_2 main_v11 (broadcastInDim S2048 ![] bcast_S_S2048 : (⟨S_, .i32⟩ : BufTy).Contents (Elt F) → (⟨S2048, .i32⟩ : BufTy).Contents (Elt F)),
    binary main_v5 main_v11 main_v12 (cmpi .slt : (⟨S2048, .i32⟩ : BufTy).Contents (Elt F) → (⟨S2048, .i32⟩ : BufTy).Contents (Elt F) → (⟨S2048, .i1⟩ : BufTy).Contents (Elt F)),
    nullary main_c_3 (constantI S_ 32 2048#32),
    unary main_c_3 main_v13 (broadcastInDim S2048 ![] bcast_S_S2048 : (⟨S_, .i32⟩ : BufTy).Contents (Elt F) → (⟨S2048, .i32⟩ : BufTy).Contents (Elt F)),
    binary main_v5 main_v13 main_v14 (addi : (⟨S2048, .i32⟩ : BufTy).Contents (Elt F) → (⟨S2048, .i32⟩ : BufTy).Contents (Elt F) → (⟨S2048, .i32⟩ : BufTy).Contents (Elt F)),
    ternary main_v12 main_v14 main_v5 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v10 main_v16 (broadcastInDim S2048x1 ![0] bcast_S2048_S2048x1_0 : (⟨S2048, .i32⟩ : BufTy).Contents (Elt F) → (⟨S2048x1, .i32⟩ : BufTy).Contents (Elt F)),
    unary main_v15 main_v17 (broadcastInDim S2048x1 ![0] bcast_S2048_S2048x1_0 : (⟨S2048, .i32⟩ : BufTy).Contents (Elt F) → (⟨S2048x1, .i32⟩ : BufTy).Contents (Elt F)),
    binary main_v16 main_v17 main_v18 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- Stretch 3 of the operations. -/
def c3 : List (HloOp τ sig (Elt F)) :=
  [ binary main_arg1 main_v18 main_v19 ((fun x i => Host.gather gather_S8x2048x2048_S2048x2_S8x2048_0_12_n_n_12_1_811 x i) : (⟨S8x2048x2048, .f32⟩ : BufTy).Contents (Elt F) → (⟨S2048x2, .i32⟩ : BufTy).Contents (Elt F) → (⟨S8x2048, .f32⟩ : BufTy).Contents (Elt F)),
    nullary main_cst_4 (constant S_ .f32 0x3F800000#32),
    TRef.unary (.of main_cst_4 : TRef sig ⟨S_, .f32⟩) main_call0.v0 id,
    TRef.unary main_call0.v0 main_call0.v1 (broadcastInDim S8x2048 ![] bcast_S_S8x2048),
    TRef.ternary (.of main_v4 : TRef sig ⟨S8x2048, .i1⟩) main_call0.v1 (.of main_v19 : TRef sig ⟨S8x2048, .f32⟩) main_call0.v2 select ]

/-- Stretch 4 of the operations. -/
def c4 : List (HloOp τ sig (Elt F)) :=
  [ nullary main_c_5 (constantI S_ 32 0#32),
    unary main_c_5 main_v21 (broadcastInDim S2048 ![] bcast_S_S2048 : (⟨S_, .i32⟩ : BufTy).Contents (Elt F) → (⟨S2048, .i32⟩ : BufTy).Contents (Elt F)),
    binary main_v5 main_v21 main_v22 (cmpi .slt : (⟨S2048, .i32⟩ : BufTy).Contents (Elt F) → (⟨S2048, .i32⟩ : BufTy).Contents (Elt F) → (⟨S2048, .i1⟩ : BufTy).Contents (Elt F)),
    nullary main_c_6 (constantI S_ 32 2048#32),
    unary main_c_6 main_v23 (broadcastInDim S2048 ![] bcast_S_S2048 : (⟨S_, .i32⟩ : BufTy).Contents (Elt F) → (⟨S2048, .i32⟩ : BufTy).Contents (Elt F)),
    binary main_v5 main_v23 main_v24 (addi : (⟨S2048, .i32⟩ : BufTy).Contents (Elt F) → (⟨S2048, .i32⟩ : BufTy).Contents (Elt F) → (⟨S2048, .i32⟩ : BufTy).Contents (Elt F)),
    ternary main_v22 main_v24 main_v5 main_v25 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_7 (constantI S_ 32 0#32),
    unary main_c_7 main_v26 (broadcastInDim S2048 ![] bcast_S_S2048 : (⟨S_, .i32⟩ : BufTy).Contents (Elt F) → (⟨S2048, .i32⟩ : BufTy).Contents (Elt F)),
    binary main_v5 main_v26 main_v27 (cmpi .slt : (⟨S2048, .i32⟩ : BufTy).Contents (Elt F) → (⟨S2048, .i32⟩ : BufTy).Contents (Elt F) → (⟨S2048, .i1⟩ : BufTy).Contents (Elt F)),
    nullary main_c_8 (constantI S_ 32 2048#32),
    unary main_c_8 main_v28 (broadcastInDim S2048 ![] bcast_S_S2048 : (⟨S_, .i32⟩ : BufTy).Contents (Elt F) → (⟨S2048, .i32⟩ : BufTy).Contents (Elt F)),
    binary main_v5 main_v28 main_v29 (addi : (⟨S2048, .i32⟩ : BufTy).Contents (Elt F) → (⟨S2048, .i32⟩ : BufTy).Contents (Elt F) → (⟨S2048, .i32⟩ : BufTy).Contents (Elt F)),
    ternary main_v27 main_v29 main_v5 main_v30 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v25 main_v31 (broadcastInDim S2048x1 ![0] bcast_S2048_S2048x1_0 : (⟨S2048, .i32⟩ : BufTy).Contents (Elt F) → (⟨S2048x1, .i32⟩ : BufTy).Contents (Elt F)),
    unary main_v30 main_v32 (broadcastInDim S2048x1 ![0] bcast_S2048_S2048x1_0 : (⟨S2048, .i32⟩ : BufTy).Contents (Elt F) → (⟨S2048x1, .i32⟩ : BufTy).Contents (Elt F)),
    binary main_v31 main_v32 main_v33 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- Stretch 5 of the operations. -/
def c5 : List (HloOp τ sig (Elt F)) :=
  [ ternary main_arg1 main_v33 main_v20 main_v34 ((fun x i u => Host.scatter scatter_S8x2048x2048_S2048x2_S8x2048_0_12_12_1 (fun _ b => b) x i u) : (⟨S8x2048x2048, .f32⟩ : BufTy).Contents (Elt F) → (⟨S2048x2, .i32⟩ : BufTy).Contents (Elt F) → (⟨S8x2048, .f32⟩ : BufTy).Contents (Elt F) → (⟨S8x2048x2048, .f32⟩ : BufTy).Contents (Elt F)),
    nullary main_cst_9 (constant S_ .f32 0x00000000#32),
    binary main_v34 main_cst_9 main_v35 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_10 (constant S_ .f32 0x00000000#32),
    unary main_cst_10 main_v36 (broadcastInDim S8x2048 ![] bcast_S_S8x2048 : (⟨S_, .f32⟩ : BufTy).Contents (Elt F) → (⟨S8x2048, .f32⟩ : BufTy).Contents (Elt F)),
    binary main_v35 main_v36 main_v37 (cmpf .une : (⟨S8x2048, .f32⟩ : BufTy).Contents (Elt F) → (⟨S8x2048, .f32⟩ : BufTy).Contents (Elt F) → (⟨S8x2048, .i1⟩ : BufTy).Contents (Elt F)),
    nullary main_cst_11 (constant S_ .f32 0x3F800000#32),
    unary main_cst_11 main_v38 (broadcastInDim S8x2048 ![] bcast_S_S8x2048 : (⟨S_, .f32⟩ : BufTy).Contents (Elt F) → (⟨S8x2048, .f32⟩ : BufTy).Contents (Elt F)),
    binary main_v38 main_v35 main_v39 (Host.divf : (⟨S8x2048, .f32⟩ : BufTy).Contents (Elt F) → (⟨S8x2048, .f32⟩ : BufTy).Contents (Elt F) → (⟨S8x2048, .f32⟩ : BufTy).Contents (Elt F)),
    nullary main_cst_12 (constant S_ .f32 0x00000000#32),
    TRef.unary (.of main_cst_12 : TRef sig ⟨S_, .f32⟩) main_call1.v0 id,
    TRef.unary main_call1.v0 main_call1.v1 (broadcastInDim S8x2048 ![] bcast_S_S8x2048),
    TRef.ternary (.of main_v37 : TRef sig ⟨S8x2048, .i1⟩) (.of main_v39 : TRef sig ⟨S8x2048, .f32⟩) main_call1.v1 main_call1.v2 select,
    unary main_v40 main_v41 (broadcastInDim S8x2048x1 ![0, 1] bcast_S8x2048_S8x2048x1_0_1 : (⟨S8x2048, .f32⟩ : BufTy).Contents (Elt F) → (⟨S8x2048x1, .f32⟩ : BufTy).Contents (Elt F)),
    unary main_v41 main_v42 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v42 main_v34 main_v43 (mulf : (⟨S8x2048x2048, .f32⟩ : BufTy).Contents (Elt F) → (⟨S8x2048x2048, .f32⟩ : BufTy).Contents (Elt F) → (⟨S8x2048x2048, .f32⟩ : BufTy).Contents (Elt F)),
    binary main_arg0 main_arg2 main_v44 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)) ]

/-- Stretch 6 of the operations. -/
def c6 : List (HloOp τ sig (Elt F)) :=
  [ nullary main_cst_13 (constant S_ .f32 0x3C23D70A#32),
    TRef.nullary main_call2.cst (constant S_ .f32 0x00000000#32),
    TRef.unary main_call2.cst main_call2.v0 (broadcastInDim S8x2048x128 ![] bcast_S_S8x2048x128),
    TRef.binary (.of main_v44 : TRef sig ⟨S8x2048x128, .f32⟩) main_call2.v0 main_call2.v1 (cmpf .oge),
    TRef.unary (.of main_cst_13 : TRef sig ⟨S_, .f32⟩) main_call2.v2 id,
    TRef.unary main_call2.v2 main_call2.v3 (broadcastInDim S8x2048x128 ![] bcast_S_S8x2048x128),
    TRef.binary main_call2.v3 (.of main_v44 : TRef sig ⟨S8x2048x128, .f32⟩) main_call2.v4 mulf,
    TRef.ternary main_call2.v1 (.of main_v44 : TRef sig ⟨S8x2048x128, .f32⟩) main_call2.v4 main_call2.call0.v0 select,
    binary main_v43 main_v45 main_v46 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

/-- A 2048-vector of indices with a negative entry wrapped by 2048. -/
def wrapOf (i : IVec S2048 32) : IVec S2048 32 :=
  select (cmpi .slt i (broadcastInDim S2048 ![] bcast_S_S2048 (constantI S_ 32 0#32)))
    (addi i (broadcastInDim S2048 ![] bcast_S_S2048 (constantI S_ 32 2048#32))) i

/-- The wrapped indices twice, side by side. -/
def diagOf (i : IVec S2048 32) : IVec S2048x2 32 :=
  concatenate S2048x2 1 [⟨S2048x1, broadcastInDim S2048x1 ![0] bcast_S2048_S2048x1_0 (wrapOf i)⟩,
    ⟨S2048x1, broadcastInDim S2048x1 ![0] bcast_S2048_S2048x1_0 (wrapOf i)⟩] concatenates_S2048x1_S2048x1_S2048x2_d1

/-- A matrix with each row scaled by the guarded reciprocal of its sum. -/
def anOf (S : FVec F S8x2048x2048 .f32) : FVec F S8x2048x2048 .f32 :=
  mulf (broadcastInDim S8x2048x2048 ![0, 1, 2] bcast_S8x2048x1_S8x2048x2048_0_1_2
      (broadcastInDim S8x2048x1 ![0, 1] bcast_S8x2048_S8x2048x1_0_1
        (select (cmpf .une (Host.reduceAdd S (constant S_ .f32 0x00000000#32) reducesTo_S8x2048x2048_S8x2048_d2 h_S_)
            (broadcastInDim S8x2048 ![] bcast_S_S8x2048 (constant S_ .f32 0x00000000#32)))
          (Host.divf (broadcastInDim S8x2048 ![] bcast_S_S8x2048 (constant S_ .f32 0x3F800000#32))
            (Host.reduceAdd S (constant S_ .f32 0x00000000#32) reducesTo_S8x2048x2048_S8x2048_d2 h_S_))
          (broadcastInDim S8x2048 ![] bcast_S_S8x2048 (id (constant S_ .f32 0x00000000#32))))))
    S

/-- leakyReLU of a tensor. -/
def hidOf (L : FVec F S8x2048x128 .f32) : FVec F S8x2048x128 .f32 :=
  select (cmpf .oge L (broadcastInDim S8x2048x128 ![] bcast_S_S8x2048x128 (constant S_ .f32 0x00000000#32)))
    L
    (mulf (broadcastInDim S8x2048x128 ![] bcast_S_S8x2048x128 (id (constant S_ .f32 0x3C23D70A#32))) L)

/-! ### Stretch 1: the mask -/

theorem c1_v4 (W : Valuation τ sig (Elt F)) :
    after c1 W (main_v4 : DevRef τ sig) = Stages.mask (W (main_arg1 : DevRef τ sig)) := by
  unfold c1; after_results <;> (try simp only [TRef.ofBuf, TRef.toBuf, cast_eq]) <;> rfl

theorem c1_arg0 (W : Valuation τ sig (Elt F)) : after c1 W (main_arg0 : DevRef τ sig) = W (main_arg0 : DevRef τ sig) := by
  unfold c1; after_results

theorem c1_arg1 (W : Valuation τ sig (Elt F)) : after c1 W (main_arg1 : DevRef τ sig) = W (main_arg1 : DevRef τ sig) := by
  unfold c1; after_results

theorem c1_arg2 (W : Valuation τ sig (Elt F)) : after c1 W (main_arg2 : DevRef τ sig) = W (main_arg2 : DevRef τ sig) := by
  unfold c1; after_results

/-! ### Stretch 2: the iota and the first index pairs -/

theorem c2_v5 (W : Valuation τ sig (Elt F)) :
    after c2 W (main_v5 : DevRef τ sig) = iotaInDim S2048 32 0 := by
  unfold c2; after_results <;> (try simp only [TRef.ofBuf, TRef.toBuf, cast_eq]) <;> rfl

theorem c2_v18 (W : Valuation τ sig (Elt F)) :
    after c2 W (main_v18 : DevRef τ sig) = Stages.diagIdx := by
  unfold c2; after_results <;> (try simp only [TRef.ofBuf, TRef.toBuf, cast_eq]) <;> rfl

theorem c2_v4 (W : Valuation τ sig (Elt F)) : after c2 W (main_v4 : DevRef τ sig) = W (main_v4 : DevRef τ sig) := by
  unfold c2; after_results

theorem c2_arg0 (W : Valuation τ sig (Elt F)) : after c2 W (main_arg0 : DevRef τ sig) = W (main_arg0 : DevRef τ sig) := by
  unfold c2; after_results

theorem c2_arg1 (W : Valuation τ sig (Elt F)) : after c2 W (main_arg1 : DevRef τ sig) = W (main_arg1 : DevRef τ sig) := by
  unfold c2; after_results

theorem c2_arg2 (W : Valuation τ sig (Elt F)) : after c2 W (main_arg2 : DevRef τ sig) = W (main_arg2 : DevRef τ sig) := by
  unfold c2; after_results

/-! ### Stretch 3: the diagonal gathered, the self-loop values -/

theorem c3_v20 (W : Valuation τ sig (Elt F)) :
    after c3 W (main_v20 : DevRef τ sig) = select (W (main_v4 : DevRef τ sig)) (broadcastInDim S8x2048 ![] bcast_S_S8x2048 (id (constant S_ .f32 0x3F800000#32)))
        (Host.gather gather_S8x2048x2048_S2048x2_S8x2048_0_12_n_n_12_1_811 (W (main_arg1 : DevRef τ sig)) (W (main_v18 : DevRef τ sig))) := by
  unfold c3; after_results <;> (try simp only [TRef.ofBuf, TRef.toBuf, cast_eq]) <;> rfl

theorem c3_v5 (W : Valuation τ sig (Elt F)) : after c3 W (main_v5 : DevRef τ sig) = W (main_v5 : DevRef τ sig) := by
  unfold c3; after_results

theorem c3_arg0 (W : Valuation τ sig (Elt F)) : after c3 W (main_arg0 : DevRef τ sig) = W (main_arg0 : DevRef τ sig) := by
  unfold c3; after_results

theorem c3_arg1 (W : Valuation τ sig (Elt F)) : after c3 W (main_arg1 : DevRef τ sig) = W (main_arg1 : DevRef τ sig) := by
  unfold c3; after_results

theorem c3_arg2 (W : Valuation τ sig (Elt F)) : after c3 W (main_arg2 : DevRef τ sig) = W (main_arg2 : DevRef τ sig) := by
  unfold c3; after_results

/-! ### Stretch 4: the second index pairs -/

theorem c4_v33 (W : Valuation τ sig (Elt F)) :
    after c4 W (main_v33 : DevRef τ sig) = diagOf (W (main_v5 : DevRef τ sig)) := by
  unfold c4; after_results <;> (try simp only [TRef.ofBuf, TRef.toBuf, cast_eq]) <;> rfl

theorem c4_v20 (W : Valuation τ sig (Elt F)) : after c4 W (main_v20 : DevRef τ sig) = W (main_v20 : DevRef τ sig) := by
  unfold c4; after_results

theorem c4_arg0 (W : Valuation τ sig (Elt F)) : after c4 W (main_arg0 : DevRef τ sig) = W (main_arg0 : DevRef τ sig) := by
  unfold c4; after_results

theorem c4_arg1 (W : Valuation τ sig (Elt F)) : after c4 W (main_arg1 : DevRef τ sig) = W (main_arg1 : DevRef τ sig) := by
  unfold c4; after_results

theorem c4_arg2 (W : Valuation τ sig (Elt F)) : after c4 W (main_arg2 : DevRef τ sig) = W (main_arg2 : DevRef τ sig) := by
  unfold c4; after_results

/-! ### Stretch 5: the scatter, the row scaling, the logits -/

theorem c5_v43 (W : Valuation τ sig (Elt F)) :
    after c5 W (main_v43 : DevRef τ sig) = anOf (Host.scatter scatter_S8x2048x2048_S2048x2_S8x2048_0_12_12_1 (fun _ b => b) (W (main_arg1 : DevRef τ sig)) (W (main_v33 : DevRef τ sig)) (W (main_v20 : DevRef τ sig))) := by
  unfold c5; after_results <;> (try simp only [TRef.ofBuf, TRef.toBuf, cast_eq]) <;> rfl

theorem c5_v44 (W : Valuation τ sig (Elt F)) :
    after c5 W (main_v44 : DevRef τ sig) = Stages.logits (W (main_arg0 : DevRef τ sig)) (W (main_arg2 : DevRef τ sig)) := by
  unfold c5; after_results <;> (try simp only [TRef.ofBuf, TRef.toBuf, cast_eq]) <;> rfl

theorem c5_arg0 (W : Valuation τ sig (Elt F)) : after c5 W (main_arg0 : DevRef τ sig) = W (main_arg0 : DevRef τ sig) := by
  unfold c5; after_results

theorem c5_arg1 (W : Valuation τ sig (Elt F)) : after c5 W (main_arg1 : DevRef τ sig) = W (main_arg1 : DevRef τ sig) := by
  unfold c5; after_results

theorem c5_arg2 (W : Valuation τ sig (Elt F)) : after c5 W (main_arg2 : DevRef τ sig) = W (main_arg2 : DevRef τ sig) := by
  unfold c5; after_results

/-! ### Stretch 6: leakyReLU and the final product -/

theorem c6_v46 (W : Valuation τ sig (Elt F)) :
    after c6 W (main_v46 : DevRef τ sig) = Host.dotGeneral dot_S8x2048x2048_S8x2048x128_S8x2048x128_2_1_1_2_0_0 none (W (main_v43 : DevRef τ sig)) (hidOf (W (main_v44 : DevRef τ sig))) := by
  unfold c6; after_results <;> (try simp only [TRef.ofBuf, TRef.toBuf, cast_eq]) <;> rfl

theorem c6_arg0 (W : Valuation τ sig (Elt F)) : after c6 W (main_arg0 : DevRef τ sig) = W (main_arg0 : DevRef τ sig) := by
  unfold c6; after_results

theorem c6_arg1 (W : Valuation τ sig (Elt F)) : after c6 W (main_arg1 : DevRef τ sig) = W (main_arg1 : DevRef τ sig) := by
  unfold c6; after_results

theorem c6_arg2 (W : Valuation τ sig (Elt F)) : after c6 W (main_arg2 : DevRef τ sig) = W (main_arg2 : DevRef τ sig) := by
  unfold c6; after_results

/-! ### The stretches joined -/

/-- The fold over two lists in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The operations are the six stretches in a row. -/
theorem ops_eq : (ops : List (HloOp τ sig (Elt F))) = c1 ++ (c2 ++ (c3 ++ (c4 ++ (c5 ++ c6)))) := rfl

/-- The result buffer after the whole line: each stretch's value substituted into the next; both sides are then the same
    composed term (the second index pairs are the first's, the iota substituted). -/
theorem out_eq (V : Valuation τ sig (Elt F)) :
    after ops V (main_v46 : DevRef τ sig)
      = Stages.result (V (main_arg0 : DevRef τ sig)) (V (main_arg1 : DevRef τ sig)) (V (main_arg2 : DevRef τ sig)) := by
  rw [ops_eq]
  simp only [after_append']
  rw [c6_v46, c5_v43, c5_v44, c4_v33, c4_v20, c4_arg0, c4_arg1, c4_arg2, c3_v5, c3_v20, c3_arg0, c3_arg1, c3_arg2,
    c2_v5, c2_v18, c2_v4, c2_arg0, c2_arg1, c2_arg2, c1_v4, c1_arg0, c1_arg1, c1_arg2]
  rfl

/-- No operation writes the first argument. -/
theorem arg0_eq (V : Valuation τ sig (Elt F)) : after ops V (main_arg0 : DevRef τ sig) = V (main_arg0 : DevRef τ sig) := by
  rw [ops_eq]
  simp only [after_append']
  rw [c6_arg0, c5_arg0, c4_arg0, c3_arg0, c2_arg0, c1_arg0]

/-- No operation writes the second argument. -/
theorem arg1_eq (V : Valuation τ sig (Elt F)) : after ops V (main_arg1 : DevRef τ sig) = V (main_arg1 : DevRef τ sig) := by
  rw [ops_eq]
  simp only [after_append']
  rw [c6_arg1, c5_arg1, c4_arg1, c3_arg1, c2_arg1, c1_arg1]

/-- No operation writes the third argument. -/
theorem arg2_eq (V : Valuation τ sig (Elt F)) : after ops V (main_arg2 : DevRef τ sig) = V (main_arg2 : DevRef τ sig) := by
  rw [ops_eq]
  simp only [after_append']
  rw [c6_arg2, c5_arg2, c4_arg2, c3_arg2, c2_arg2, c1_arg2]

/-- On every device, for any float values, from any memory with zero counters: every weakly fair execution of @main
    terminates with the result buffer at the stages' term of the three arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = Stages.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v46).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibScatterSet.lean ====
/-
  A general fact about a scatter whose body returns the update (`x.at[idx].set(v)`): when no two update positions land on
  one result index, the result holds the update at an index some update position lands on, and the operand elsewhere.
-/
import Idealize.ShloMosaic.PureOps.ShapeOps

noncomputable section

open scoped BigOperators

namespace Idealize.ShloMosaic.Host

/-- A left fold read at one index `i`, when no position of the list writes at `i`: each step at a position `p` with
    `g p ≠ some i` leaves the accumulator's value at `i` alone, so the fold keeps the starting value there. -/
theorem foldl_step_at_miss {P ι α : Type} (g : P → Option ι) (step : (ι → α) → P → (ι → α)) (i : ι)
    (hkeep : ∀ (r : ι → α) (p : P), g p ≠ some i → step r p i = r i) :
    ∀ (l : List P) (r : ι → α), (∀ p ∈ l, g p ≠ some i) → l.foldl step r i = r i := by
  intro l
  induction l with
  | nil => intro r _; rfl
  | cons a t ih =>
    intro r hl
    rw [List.foldl_cons, ih (step r a) (fun p hp => hl p (List.mem_cons_of_mem a hp))]
    exact hkeep r a (hl a (List.mem_cons_self ..))

/-- A left fold read at one index `i`, when every position of the list that writes at `i` is the one position `n` (which is
    in the list): a step at a position `p` with `g p = some i` writes `v p` at `i`, any other step leaves `i` alone, so the
    fold holds `v n` there. By induction on the list from its end: the last step either is `n`'s and writes `v n`, or leaves
    alone what the steps before it made. -/
theorem foldl_step_at_hit {P ι α : Type} (g : P → Option ι) (v : P → α) (step : (ι → α) → P → (ι → α)) (i : ι)
    (hset : ∀ (r : ι → α) (p : P), g p = some i → step r p i = v p)
    (hkeep : ∀ (r : ι → α) (p : P), g p ≠ some i → step r p i = r i) (r : ι → α) (n : P) (hn : g n = some i) :
    ∀ (l : List P), n ∈ l → (∀ p ∈ l, g p = some i → p = n) → l.foldl step r i = v n := by
  intro l
  induction l using List.reverseRecOn with
  | nil => intro hmem; exact absurd hmem (List.not_mem_nil)
  | append_singleton t a ih =>
    intro hmem huniq
    rw [List.foldl_append, List.foldl_cons, List.foldl_nil]
    by_cases ha : g a = some i
    · rw [hset _ a ha, huniq a (by simp) ha]
    · rw [hkeep _ a ha]
      have hnt : n ∈ t := by
        rcases List.mem_append.1 hmem with h | h
        · exact h
        · have : n = a := by simpa using h
          exact absurd (this ▸ hn) ha
      exact ih hnt (fun p hp => huniq p (List.mem_append_left _ hp))

/-- An index that update position `j` lands on holds `upd j`, when landing is injective. -/
theorem scatter_set_hit {s si u : Shape} {w : Nat} {α : Type} (d : ScatterDims s si u) (x : s.Idx → α) (idx : IVec si w)
    (upd : u.Idx → α)
    (hinj : ∀ (j j' : u.Idx) (i : s.Idx), d.resultIdx? j idx = some i → d.resultIdx? j' idx = some i → j = j')
    (j : u.Idx) (i : s.Idx) (h : d.resultIdx? j idx = some i) :
    Host.scatter d (fun _ b => b) x idx upd i = upd j := by
  -- the update position `j` is the row-major position `u.rowMajor j` of the fold's list
  have hj : u.rowMajor.symm (u.rowMajor j) = j := u.rowMajor.symm_apply_apply j
  unfold Host.scatter
  refine (foldl_step_at_hit (fun n : Fin u.numel => d.resultIdx? (u.rowMajor.symm n) idx)
    (fun n => upd (u.rowMajor.symm n)) _ i ?_ ?_ x (u.rowMajor j) (by rw [hj]; exact h)
    (List.finRange u.numel) (List.mem_finRange _) ?_).trans (congrArg upd hj)
  · intro r p hp
    simp only [hp, if_true]
  · intro r p hp
    cases hq : d.resultIdx? (u.rowMajor.symm p) idx with
    | none => rfl
    | some i0 =>
      have hne : i ≠ i0 := fun e => hp (by rw [hq, e])
      exact if_neg hne
  · intro p _ hp
    have := hinj _ _ i hp h
    exact (u.rowMajor.symm_apply_eq).1 this

/-- An index no update position lands on keeps the operand's element. -/
theorem scatter_set_miss {s si u : Shape} {w : Nat} {α : Type} (d : ScatterDims s si u) (x : s.Idx → α) (idx : IVec si w)
    (upd : u.Idx → α) (i : s.Idx) (h : ∀ j : u.Idx, d.resultIdx? j idx ≠ some i) :
    Host.scatter d (fun _ b => b) x idx upd i = x i := by
  unfold Host.scatter
  refine foldl_step_at_miss (fun n : Fin u.numel => d.resultIdx? (u.rowMajor.symm n) idx) _ i ?_
    (List.finRange u.numel) x (fun p _ => h _)
  intro r p hp
  cases hq : d.resultIdx? (u.rowMajor.symm p) idx with
  | none => rfl
  | some i0 =>
    have hne : i ≠ i0 := fun e => hp (by rw [hq, e])
    exact if_neg hne

end Idealize.ShloMosaic.Host

end
-- ==== Proof.RefIndex.lean ====
/-
  The reference's two indexed operations read at an index: the gather at the pairs (k, k) reads A's diagonal, and the
  scatter at the same pairs replaces exactly the diagonal.
-/
import proofs.«176590_j84911503442515_1_alg».proof.Proof.RefStages
import proofs.«176590_j84911503442515_1_alg».proof.Proof.LibScatterSet
import Idealize.ShloMosaic.Lib.ValueIdx
import Idealize.ShloMosaic.Lib.StableHlo.Predicate

noncomputable section

open scoped BigOperators

namespace Cert.ReferenceIdeal.RefIndex

open Cert.ReferenceIdeal Cert.ReferenceIdeal.Gen Idealize.ShloMosaic Idealize.ShloMosaic.ValueIdx

/-! ## The index pairs: entry (k, a) is k -/

/-- The wrapped iota at k is k: the word k is not negative (k < 2048 < 2³¹), so the select keeps the iota. -/
theorem wrapIota_at (k : Fin 2048) : Stages.wrapIota (ix1 k) = BitVec.ofNat 32 k.val := by
  have hk := k.isLt
  show Scalar.select (IntOp.cmpi .slt (BitVec.ofNat 32 k.val) 0#32) (IntOp.addi (BitVec.ofNat 32 k.val) 2048#32)
    (BitVec.ofNat 32 k.val) = _
  have hc : ¬ IntOp.cmpi .slt (BitVec.ofNat 32 k.val) 0#32 = 1#1 := fun h =>
    Nat.not_lt_zero _ ((StableHlo.Predicate.slt_ofNat_iff k.val 0 (by omega) (by omega)).1 h)
  exact if_neg hc

/-- The wrapped iota as a [2048 × 1] column reads, at an index whose row is k, the word k. -/
theorem col_at (k : Fin 2048) (j : S2048x1.Idx) (hj : (j (0 : Fin 2)).val = k.val) :
    broadcastInDim S2048x1 ![0] bcast_S2048_S2048x1_0 Stages.wrapIota j = BitVec.ofNat 32 k.val := by
  refine Eq.trans ?_ (wrapIota_at k)
  show Stages.wrapIota _ = Stages.wrapIota _
  congr 1
  funext a
  obtain rfl : a = 0 := Subsingleton.elim _ _
  rw [dif_neg (by decide)]
  exact Fin.ext hj

/-- A concatenation read at an index is one of its pieces read at an index with the same coordinates off the
    concatenated axis. -/
theorem concatenate_piece {α : Type} (t : Shape) (a : Fin t.rank) (xs : List ((s : Shape) × (s.Idx → α)))
    (h : Shape.Concatenates (xs.map (·.1)) t a) (j : t.Idx) :
    ∃ p ∈ xs, ∃ (hr : p.1.rank = t.rank) (i : p.1.Idx),
      (∀ b : Fin p.1.rank, b.cast hr ≠ a → (i b).val = (j (b.cast hr)).val) ∧ concatenate t a xs h j = p.2 i := by
  unfold concatenate
  extract_lets ns kr hk p hp hr
  exact ⟨p, List.getElem_mem hk, hr, _, fun b hb => by rw [dif_neg hb]; rfl, rfl⟩

/-- Both columns of the index pairs are the wrapped iota's column: entry (k, a) is the word k. -/
theorem diagIdx_at (k : Fin 2048) (a : Fin 2) : Stages.diagIdx (ix2 k a) = BitVec.ofNat 32 k.val := by
  obtain ⟨p, hp, hr, i, hi, he⟩ := concatenate_piece S2048x2 1
    [⟨S2048x1, broadcastInDim S2048x1 ![0] bcast_S2048_S2048x1_0 Stages.wrapIota⟩,
      ⟨S2048x1, broadcastInDim S2048x1 ![0] bcast_S2048_S2048x1_0 Stages.wrapIota⟩]
    concatenates_S2048x1_S2048x1_S2048x2_d1 (ix2 k a)
  refine he.trans ?_
  have hp' : p = ⟨S2048x1, broadcastInDim S2048x1 ![0] bcast_S2048_S2048x1_0 Stages.wrapIota⟩ := by
    simpa using hp
  subst hp'
  exact col_at k i (hi 0 (by intro h; exact absurd (congrArg Fin.val h) (show (0 : Nat) ≠ 1 from Nat.zero_ne_one)))

/-! ## The gather: result (b, k) reads the operand at (b, k, k) -/

/-- The word k read signed and clamped into [0, 2047] is k. -/
theorem toNat_toInt_ofNat (k : Fin 2048) : min (BitVec.ofNat 32 k.val).toInt.toNat (2048 - 1) = k.val := by
  have hk := k.isLt
  rw [StableHlo.Predicate.toInt_ofNat_small k.val (by omega)]
  simp only [Int.toNat_natCast]
  omega

/-- A clamped start read off the index pairs at row `k` is `k`. -/
theorem start_read (i : S2048x2.Idx) (k : Fin 2048) (m : Nat) (hm : m = 2048 - 1) (hi : (i (0 : Fin 2)).val = k.val) :
    min (Stages.diagIdx i).toInt.toNat m = k.val := by
  subst hm
  obtain ⟨p, q, rfl⟩ : ∃ (p : Fin 2048) (q : Fin 2), i = ix2 p q := ⟨i 0, i 1, eq_ix2 i⟩
  rw [diagIdx_at p q]
  exact (toNat_toInt_ofNat p).trans hi

/-- Operand axis 0 is the one offset axis: no start, the result's coordinate b. -/
theorem gather_coord0 (b : Fin 8) (k : Fin 2048) :
    (GatherDims.operandIdx gather_S8x2048x2048_S2048x2_S8x2048_0_12_n_n_12_1_811 (ix2 b k) Stages.diagIdx (0 : Fin 3)).val
      = b.val := by
  show GatherDims.start _ (ix2 b k) Stages.diagIdx 0 + GatherDims.batchCoord _ (ix2 b k) 0
    + GatherDims.offCoord _ (ix2 b k) 0 = _
  rw [GatherDims.batchCoord_eq_zero _ _ _ List.not_mem_nil, Nat.add_zero]
  unfold GatherDims.start GatherDims.offCoord
  rw [dif_neg (by decide), dif_pos (by decide), Nat.zero_add]
  rfl

/-- Operand axis 1 is collapsed and start-indexed by component 0 of the pair at row k: the clamped start, k. -/
theorem gather_coord1 (b : Fin 8) (k : Fin 2048) :
    (GatherDims.operandIdx gather_S8x2048x2048_S2048x2_S8x2048_0_12_n_n_12_1_811 (ix2 b k) Stages.diagIdx (1 : Fin 3)).val
      = k.val := by
  show GatherDims.start _ (ix2 b k) Stages.diagIdx 1 + GatherDims.batchCoord _ (ix2 b k) 1
    + GatherDims.offCoord _ (ix2 b k) 1 = _
  rw [GatherDims.batchCoord_eq_zero _ _ _ List.not_mem_nil, Nat.add_zero]
  unfold GatherDims.start
  rw [dif_pos (by decide), GatherDims.offCoord_eq_zero _ _ _ (by decide), Nat.add_zero]
  exact start_read _ k _ rfl rfl

/-- Operand axis 2 likewise, by component 1 of the pair: k. -/
theorem gather_coord2 (b : Fin 8) (k : Fin 2048) :
    (GatherDims.operandIdx gather_S8x2048x2048_S2048x2_S8x2048_0_12_n_n_12_1_811 (ix2 b k) Stages.diagIdx (2 : Fin 3)).val
      = k.val := by
  show GatherDims.start _ (ix2 b k) Stages.diagIdx 2 + GatherDims.batchCoord _ (ix2 b k) 2
    + GatherDims.offCoord _ (ix2 b k) 2 = _
  rw [GatherDims.batchCoord_eq_zero _ _ _ List.not_mem_nil, Nat.add_zero]
  unfold GatherDims.start
  rw [dif_pos (by decide), GatherDims.offCoord_eq_zero _ _ _ (by decide), Nat.add_zero]
  exact start_read _ k _ rfl rfl

theorem diag_at (A : FVec Ideal S8x2048x2048 .f32) (b : Fin 8) (k : Fin 2048) :
    Stages.diag (F := Ideal) A (ix2 b k) = A (ix3 b k k) := by
  unfold Stages.diag Host.gather
  congr 1
  funext a
  refine Fin.ext ?_
  match a with
  | ⟨0, _⟩ => exact gather_coord0 b k
  | ⟨1, _⟩ => exact gather_coord1 b k
  | ⟨2, _⟩ => exact gather_coord2 b k

/-! ## The scatter: update position (b, k) lands on (b, k, k), and on nothing else -/

/-- A start read signed (not clamped) off the index pairs at row `k` is `k`. -/
theorem start_read_signed (i : S2048x2.Idx) (k : Fin 2048) (hi : (i (0 : Fin 2)).val = k.val) :
    (Stages.diagIdx i).toInt = (k.val : Int) := by
  obtain ⟨p, q, rfl⟩ : ∃ (p : Fin 2048) (q : Fin 2), i = ix2 p q := ⟨i 0, i 1, eq_ix2 i⟩
  rw [diagIdx_at p q, StableHlo.Predicate.toInt_ofNat_small p.val (by have := p.isLt; omega)]
  exact congrArg Nat.cast hi

/-- Operand axis 0 is the one window axis: no start, the update's coordinate b. -/
theorem scatter_coord0 (b : Fin 8) (k : Fin 2048) :
    ScatterDims.start scatter_S8x2048x2048_S2048x2_S8x2048_0_12_12_1 (ix2 b k) Stages.diagIdx (0 : Fin 3)
      + (ScatterDims.window scatter_S8x2048x2048_S2048x2_S8x2048_0_12_12_1 (ix2 b k) (0 : Fin 3) : Int) = (b.val : Int) := by
  unfold ScatterDims.start ScatterDims.window
  rw [dif_neg (by decide), dif_pos (by decide), Int.zero_add]
  rfl

/-- Operand axis 1 is inserted and start-indexed by component 0 of the pair at row k: the signed start, k. -/
theorem scatter_coord1 (b : Fin 8) (k : Fin 2048) :
    ScatterDims.start scatter_S8x2048x2048_S2048x2_S8x2048_0_12_12_1 (ix2 b k) Stages.diagIdx (1 : Fin 3)
      + (ScatterDims.window scatter_S8x2048x2048_S2048x2_S8x2048_0_12_12_1 (ix2 b k) (1 : Fin 3) : Int) = (k.val : Int) := by
  unfold ScatterDims.start ScatterDims.window
  rw [dif_pos (by decide), dif_neg (by decide)]
  refine (Int.add_zero _).trans ?_
  exact start_read_signed _ k rfl

/-- Operand axis 2 likewise, by component 1 of the pair: k. -/
theorem scatter_coord2 (b : Fin 8) (k : Fin 2048) :
    ScatterDims.start scatter_S8x2048x2048_S2048x2_S8x2048_0_12_12_1 (ix2 b k) Stages.diagIdx (2 : Fin 3)
      + (ScatterDims.window scatter_S8x2048x2048_S2048x2_S8x2048_0_12_12_1 (ix2 b k) (2 : Fin 3) : Int) = (k.val : Int) := by
  unfold ScatterDims.start ScatterDims.window
  rw [dif_pos (by decide), dif_neg (by decide)]
  refine (Int.add_zero _).trans ?_
  exact start_read_signed _ k rfl

/-- The signed start plus the window coordinate of update position (b, k), on each operand axis: (b, k, k). -/
theorem scatter_coord (b : Fin 8) (k : Fin 2048) (a : Fin 3) :
    ScatterDims.start scatter_S8x2048x2048_S2048x2_S8x2048_0_12_12_1 (ix2 b k) Stages.diagIdx a
      + (ScatterDims.window scatter_S8x2048x2048_S2048x2_S8x2048_0_12_12_1 (ix2 b k) a : Int)
      = ((ix3 b k k a).val : Int) := by
  match a with
  | ⟨0, _⟩ => exact scatter_coord0 b k
  | ⟨1, _⟩ => exact scatter_coord1 b k
  | ⟨2, _⟩ => exact scatter_coord2 b k

/-- Update position (b, k) lands on (b, k, k): every coordinate is inside the operand. -/
theorem resultIdx_diag (b : Fin 8) (k : Fin 2048) :
    ScatterDims.resultIdx? scatter_S8x2048x2048_S2048x2_S8x2048_0_12_12_1 (ix2 b k) Stages.diagIdx
      = some (ix3 b k k) := by
  have h : ∀ a : Fin 3, 0 ≤ ScatterDims.start scatter_S8x2048x2048_S2048x2_S8x2048_0_12_12_1 (ix2 b k) Stages.diagIdx a
        + (ScatterDims.window scatter_S8x2048x2048_S2048x2_S8x2048_0_12_12_1 (ix2 b k) a : Int)
      ∧ ScatterDims.start scatter_S8x2048x2048_S2048x2_S8x2048_0_12_12_1 (ix2 b k) Stages.diagIdx a
        + (ScatterDims.window scatter_S8x2048x2048_S2048x2_S8x2048_0_12_12_1 (ix2 b k) a : Int) < (S8x2048x2048.size a : Int) := by
    intro a
    rw [scatter_coord b k a]
    exact ⟨Int.natCast_nonneg _, Int.ofNat_lt.2 (ix3 b k k a).isLt⟩
  unfold ScatterDims.resultIdx?
  rw [dif_pos h]
  congr 1
  funext a
  refine Fin.ext ?_
  show (ScatterDims.start _ (ix2 b k) Stages.diagIdx a + (ScatterDims.window _ (ix2 b k) a : Int)).toNat = _
  rw [scatter_coord b k a]
  exact Int.toNat_natCast _

/-- No two update positions land on one result index: (b, k, k) determines (b, k). -/
theorem resultIdx_inj (u u' : S8x2048.Idx) (i : S8x2048x2048.Idx)
    (h : ScatterDims.resultIdx? scatter_S8x2048x2048_S2048x2_S8x2048_0_12_12_1 u Stages.diagIdx = some i)
    (h' : ScatterDims.resultIdx? scatter_S8x2048x2048_S2048x2_S8x2048_0_12_12_1 u' Stages.diagIdx = some i) : u = u' := by
  obtain ⟨b, k, rfl⟩ : ∃ (b : Fin 8) (k : Fin 2048), u = ix2 b k := ⟨u 0, u 1, eq_ix2 u⟩
  obtain ⟨b', k', rfl⟩ : ∃ (b' : Fin 8) (k' : Fin 2048), u' = ix2 b' k' := ⟨u' 0, u' 1, eq_ix2 u'⟩
  rw [resultIdx_diag] at h h'
  have e : ix3 b k k = ix3 b' k' k' := Option.some.inj (h.trans h'.symm)
  have e0 : b = b' := congrFun e (0 : Fin 3)
  have e1 : k = k' := congrFun e (1 : Fin 3)
  rw [e0, e1]

theorem aSelf_at (A : FVec Ideal S8x2048x2048 .f32) (b : Fin 8) (i j : Fin 2048) :
    Stages.aSelf (F := Ideal) A (ix3 b i j) = if j = i then Stages.newDiag (F := Ideal) A (ix2 b i) else A (ix3 b i j) := by
  unfold Stages.aSelf
  by_cases hji : j = i
  · -- on the diagonal: update position (b, i) lands here, and only it
    subst hji
    rw [if_pos rfl]
    exact Host.scatter_set_hit _ A Stages.diagIdx (Stages.newDiag (F := Ideal) A) resultIdx_inj (ix2 b j) (ix3 b j j)
      (resultIdx_diag b j)
  · -- off the diagonal: a landing index has its last two coordinates equal
    rw [if_neg hji]
    refine Host.scatter_set_miss _ A Stages.diagIdx (Stages.newDiag (F := Ideal) A) (ix3 b i j) ?_
    intro u hu
    obtain ⟨b', k', rfl⟩ : ∃ (b' : Fin 8) (k' : Fin 2048), u = ix2 b' k' := ⟨u 0, u 1, eq_ix2 u⟩
    rw [resultIdx_diag] at hu
    have e : ix3 b' k' k' = ix3 b i j := Option.some.inj hu
    have e1 : k' = i := congrFun e (1 : Fin 3)
    have e2 : k' = j := congrFun e (2 : Fin 3)
    exact hji (e2.symm.trans e1)

end Cert.ReferenceIdeal.RefIndex

end
-- ==== Proof.RefRead.lean ====
/-
  The reference's term read at an index is the specification's reference side.
-/
import proofs.«176590_j84911503442515_1_alg».proof.Proof.RefIndex
import proofs.«176590_j84911503442515_1_alg».proof.Proof.Spec
import Idealize.ShloMosaic.PureOps.Ideal.Laws
import Idealize.ShloMosaic.Lib.IdealHost
import Idealize.ShloMosaic.Lib.StackMember
import Idealize.ShloMosaic.Lib.ValueLayout
import Idealize.ShloMosaic.Lib.Pipeline.Value

noncomputable section

open scoped BigOperators

namespace Cert.ReferenceIdeal.RefRead

open Cert.ReferenceIdeal Cert.ReferenceIdeal.Gen Idealize.ShloMosaic Idealize.ShloMosaic.ValueIdx

/-- A scalar literal splat over any shape reads the literal's value. -/
theorem splat_at {T : Shape} (h : S_.BroadcastsInDim T (![] : Fin 0 → Fin T.rank)) (w : BitVec 32) (j : T.Idx) :
    broadcastInDim T ![] h (constant (F := Ideal) S_ .f32 w) j = Ideal.ofBits .f32 w :=
  broadcastInDim_scalar_apply h _ j

theorem reduces_d2 : S8x2048x2048.Reduces [2] S8x2048 := by decide

/-- The inserted index of a row sum is (b, i, k). -/
theorem lift_d2 (b : Fin 8) (i : Fin 2048) (k : Fin 2048) :
    reduces_d2.lift (ix2 b i) k = ix3 b i k := by
  funext a; apply Fin.ext
  match a with
  | ⟨0, _⟩ => rfl
  | ⟨1, _⟩ => rfl
  | ⟨2, _⟩ => rfl

/-- A row sum on the host, from the literal 0: the sum over the row. -/
theorem rowSum_at (X : FVec Ideal S8x2048x2048 .f32) (b : Fin 8) (i : Fin 2048) :
    Host.reduceAdd (F := Ideal) X (constant (F := Ideal) S_ .f32 0x00000000#32) reducesTo_S8x2048x2048_S8x2048_d2 h_S_ (ix2 b i)
      = ∑ k : Fin 2048, X (ix3 b i k) := by
  rw [hostReduceAdd_apply, Ideal.hostReduceAdd_single _ reduces_d2]
  rw [constant_apply, Ideal.ofBits_zero_f32, zero_add]
  exact Finset.sum_congr rfl fun k _ => congrArg X (lift_d2 b i k)

/-- The mask at (b, i): the row sum of A + Aᵀ compared with 0. -/
theorem mask_at (A : FVec Ideal S8x2048x2048 .f32) (b : Fin 8) (i : Fin 2048) :
    Stages.mask (F := Ideal) A (ix2 b i)
      = Ideal.cmp .une (∑ j : Fin 2048, (A (ix3 b i j) + A (ix3 b j i))) Cert.Spec.zero := by
  unfold Stages.mask
  rw [cmpf_apply, Ideal.cmpf_def, rowSum_at, splat_at]
  refine congrArg (fun σ => Ideal.cmp .une σ Cert.Spec.zero) (Finset.sum_congr rfl fun j _ => ?_)
  rw [addf_apply]
  exact congrArg (A (ix3 b i j) + ·) (transpose_ix3_021_apply A _ b i j)

/-- The self-loop value at (b, i). -/
theorem newDiag_at (A : FVec Ideal S8x2048x2048 .f32) (b : Fin 8) (i : Fin 2048) :
    Stages.newDiag (F := Ideal) A (ix2 b i) = Cert.Spec.rNew A b i := by
  unfold Stages.newDiag
  rw [select_apply, mask_at, RefIndex.diag_at]
  exact congrArg (fun o => Scalar.select _ o _) (splat_at _ _ _)

/-- The matrix with its diagonal replaced, at (b, i, j). -/
theorem aSelf_spec_at (A : FVec Ideal S8x2048x2048 .f32) (b : Fin 8) (i j : Fin 2048) :
    Stages.aSelf (F := Ideal) A (ix3 b i j) = Cert.Spec.aSelf A b i j := by
  rw [RefIndex.aSelf_at, newDiag_at]
  rfl

/-- The degree at (b, i). -/
theorem deg_at (A : FVec Ideal S8x2048x2048 .f32) (b : Fin 8) (i : Fin 2048) :
    Stages.deg (F := Ideal) A (ix2 b i) = Cert.Spec.rDeg A b i := by
  unfold Stages.deg
  rw [rowSum_at]
  exact Finset.sum_congr rfl fun j _ => aSelf_spec_at A b i j

/-- The guarded reciprocal at (b, i). -/
theorem dinv_at (A : FVec Ideal S8x2048x2048 .f32) (b : Fin 8) (i : Fin 2048) :
    Stages.dinv (F := Ideal) A (ix2 b i) = Cert.Spec.dinv (Cert.Spec.rDeg A b i) := by
  unfold Stages.dinv
  rw [select_apply, cmpf_apply, Ideal.cmpf_def, hostDivf_apply, deg_at, splat_at, splat_at]
  rfl

/-- A column over the rows, (b, n, 0), spread along the last axis reads the column's entry. -/
theorem spread_at (v : FVec Ideal S8x2048 .f32) (b : Fin 8) (n : Fin 2048) (k : Fin 2048) :
    broadcastInDim S8x2048x2048 ![0, 1, 2] bcast_S8x2048x1_S8x2048x2048_0_1_2
      (broadcastInDim S8x2048x1 ![0, 1] bcast_S8x2048_S8x2048x1_0_1 v) (ix3 b n k) = v (ix2 b n) := by
  refine (broadcastInDim_apply ![0, 1, 2] bcast_S8x2048x1_S8x2048x2048_0_1_2 _ (ix3 b n k) (ix3 b n (0 : Fin 1)) ?_).trans ?_
  · intro a
    match a with
    | ⟨0, _⟩ => rfl
    | ⟨1, _⟩ => rfl
    | ⟨2, _⟩ => rfl
  · refine broadcastInDim_apply ![0, 1] bcast_S8x2048_S8x2048x1_0_1 v (ix3 b n (0 : Fin 1)) (ix2 b n) ?_
    intro a
    match a with
    | ⟨0, _⟩ => rfl
    | ⟨1, _⟩ => rfl

/-- The row-normalised matrix at (b, n, k). -/
theorem an_at (A : FVec Ideal S8x2048x2048 .f32) (b : Fin 8) (n k : Fin 2048) :
    Stages.an (F := Ideal) A (ix3 b n k) = Cert.Spec.dinv (Cert.Spec.rDeg A b n) * Cert.Spec.aSelf A b n k := by
  unfold Stages.an
  rw [mulf_apply, spread_at, dinv_at, aSelf_spec_at]

/-! The operand indices of x Wᵀ, axis by axis: output (b, k, e) and contraction position q read x at (b, k, q) and W at (e, q). -/

theorem logits_lhs_0 (j : S8x2048x128.Idx) (q : dot_S8x2048x128_S128x128_S8x2048x128_2_1_01_0_n_n.contr.Idx) :
    (dot_S8x2048x128_S128x128_S8x2048x128_2_1_01_0_n_n.lhsIdx j q 0).val = (j 0).val := by
  unfold DotDims.lhsIdx
  rw [dif_neg (show ¬(0 : Fin S8x2048x128.rank) ∈ dot_S8x2048x128_S128x128_S8x2048x128_2_1_01_0_n_n.lhsBatch by decide),
    dif_pos (show (0 : Fin S8x2048x128.rank) ∈ dot_S8x2048x128_S128x128_S8x2048x128_2_1_01_0_n_n.lhsNonContracting by decide)]
  rfl

theorem logits_lhs_1 (j : S8x2048x128.Idx) (q : dot_S8x2048x128_S128x128_S8x2048x128_2_1_01_0_n_n.contr.Idx) :
    (dot_S8x2048x128_S128x128_S8x2048x128_2_1_01_0_n_n.lhsIdx j q 1).val = (j 1).val := by
  unfold DotDims.lhsIdx
  rw [dif_neg (show ¬(1 : Fin S8x2048x128.rank) ∈ dot_S8x2048x128_S128x128_S8x2048x128_2_1_01_0_n_n.lhsBatch by decide),
    dif_pos (show (1 : Fin S8x2048x128.rank) ∈ dot_S8x2048x128_S128x128_S8x2048x128_2_1_01_0_n_n.lhsNonContracting by decide)]
  rfl

theorem logits_lhs_2 (j : S8x2048x128.Idx) (q : dot_S8x2048x128_S128x128_S8x2048x128_2_1_01_0_n_n.contr.Idx) :
    (dot_S8x2048x128_S128x128_S8x2048x128_2_1_01_0_n_n.lhsIdx j q 2).val = (q ⟨0, by decide⟩).val :=
  DotDims.lhsIdx_val_of_single _ rfl j q

theorem logits_rhs_0 (j : S8x2048x128.Idx) (q : dot_S8x2048x128_S128x128_S8x2048x128_2_1_01_0_n_n.contr.Idx) :
    (dot_S8x2048x128_S128x128_S8x2048x128_2_1_01_0_n_n.rhsIdx j q 0).val = (j 2).val := by
  unfold DotDims.rhsIdx
  rw [dif_neg (show ¬(0 : Fin S128x128.rank) ∈ dot_S8x2048x128_S128x128_S8x2048x128_2_1_01_0_n_n.rhsBatch by decide),
    dif_pos (show (0 : Fin S128x128.rank) ∈ dot_S8x2048x128_S128x128_S8x2048x128_2_1_01_0_n_n.rhsNonContracting by decide)]
  rfl

theorem logits_rhs_1 (j : S8x2048x128.Idx) (q : dot_S8x2048x128_S128x128_S8x2048x128_2_1_01_0_n_n.contr.Idx) :
    (dot_S8x2048x128_S128x128_S8x2048x128_2_1_01_0_n_n.rhsIdx j q 1).val = (q ⟨0, by decide⟩).val :=
  DotDims.rhsIdx_val_of_single _ rfl j q

/-- x Wᵀ at (b, k, e): the sum over the feature axis. -/
theorem logits_at (x : FVec Ideal S8x2048x128 .f32) (W : FVec Ideal S128x128 .f32) (b : Fin 8) (k : Fin 2048) (e : Fin 128) :
    Stages.logits (F := Ideal) x W (ix3 b k e) = ∑ d : Fin 128, x (ix3 b k d) * W (ix2 e d) := by
  unfold Stages.logits
  show FloatOps.dotGeneral _ none _ x W (ix3 b k e) = _
  rw [Ideal.dotGeneral_apply,
    ← Equiv.sum_comp (contrEquiv1 dot_S8x2048x128_S128x128_S8x2048x128_2_1_01_0_n_n 128 rfl rfl).symm]
  refine Finset.sum_congr rfl fun d _ => ?_
  have hd := contrEquiv1_symm_val dot_S8x2048x128_S128x128_S8x2048x128_2_1_01_0_n_n 128 rfl rfl d
  have hl : dot_S8x2048x128_S128x128_S8x2048x128_2_1_01_0_n_n.lhsIdx (ix3 b k e)
      ((contrEquiv1 dot_S8x2048x128_S128x128_S8x2048x128_2_1_01_0_n_n 128 rfl rfl).symm d) = ix3 b k d := by
    funext ax; apply Fin.ext
    match ax with
    | ⟨0, _⟩ => exact logits_lhs_0 _ _
    | ⟨1, _⟩ => exact logits_lhs_1 _ _
    | ⟨2, _⟩ => exact (logits_lhs_2 _ _).trans hd
  have hr : dot_S8x2048x128_S128x128_S8x2048x128_2_1_01_0_n_n.rhsIdx (ix3 b k e)
      ((contrEquiv1 dot_S8x2048x128_S128x128_S8x2048x128_2_1_01_0_n_n 128 rfl rfl).symm d) = ix2 e d := by
    funext ax; apply Fin.ext
    match ax with
    | ⟨0, _⟩ => exact logits_rhs_0 _ _
    | ⟨1, _⟩ => exact (logits_rhs_1 _ _).trans hd
  rw [hl, hr]

/-- The hidden features at (b, k, e). -/
theorem hid_at (x : FVec Ideal S8x2048x128 .f32) (W : FVec Ideal S128x128 .f32) (b : Fin 8) (k : Fin 2048) (e : Fin 128) :
    Stages.hid (F := Ideal) x W (ix3 b k e) = Cert.Spec.hid x W b k e := by
  unfold Stages.hid
  rw [select_apply, cmpf_apply, Ideal.cmpf_def, mulf_apply, logits_at, splat_at]
  rfl

/-- The reference's result at (b, n, e): row n of the normalised matrix against column e of the hidden features. -/
theorem result_at (x : FVec Ideal S8x2048x128 .f32) (A : FVec Ideal S8x2048x2048 .f32) (W : FVec Ideal S128x128 .f32)
    (b : Fin 8) (n : Fin 2048) (e : Fin 128) :
    Stages.result (F := Ideal) x A W (ix3 b n e) = Cert.Spec.rOutAt x A W b n e := by
  unfold Stages.result
  refine (StackMember.dotGeneral_stack_apply dot_S8x2048x2048_S8x2048x128_S8x2048x128_2_1_1_2_0_0_wf none
    (Stages.an (F := Ideal) A) (Stages.hid (F := Ideal) x W) b n e).trans ?_
  exact Finset.sum_congr rfl fun m _ => by rw [an_at, hid_at]

end Cert.ReferenceIdeal.RefRead

end
-- ==== Proof.Bridge.lean ====
/-
  The two sides of the specification are one function when A's entries are finite: the tests agree (a sum of sums), the
  degrees agree (the old diagonal entry cancels — the one use of finiteness), and scaling the replaced row entry by entry is
  scaling A's row and swapping in the scaled self-loop value.
-/
import proofs.«176590_j84911503442515_1_alg».proof.Proof.Spec
import Mathlib.Data.EReal.Operations
import Mathlib.Algebra.BigOperators.Group.Finset.Basic

noncomputable section

open scoped BigOperators

namespace Cert.Spec

open Idealize.ShloMosaic Idealize.ShloMosaic.ValueIdx

/-- The two tests are one sum: a row sum plus a column sum is the sum of the paired entries. -/
theorem rowSum_add_colSum (A : SA.Idx → EReal) (b : Fin 8) (i : Fin 2048) :
    rowSum A b i + colSum A b i = ∑ j : Fin 2048, (A (ix3 b i j) + A (ix3 b j i)) := by
  unfold rowSum colSum
  exact Finset.sum_add_distrib.symm

/-- So the two self-loop values are equal. -/
theorem kNew_eq_rNew (A : SA.Idx → EReal) (b : Fin 8) (i : Fin 2048) : kNew A b i = rNew A b i := by
  unfold kNew rNew
  rw [rowSum_add_colSum]

/-- The row sum, with its diagonal term split off. -/
theorem rowSum_split (A : SA.Idx → EReal) (b : Fin 8) (i : Fin 2048) :
    rowSum A b i = A (ix3 b i i) + ∑ j ∈ Finset.univ.erase i, A (ix3 b i j) := by
  unfold rowSum
  exact (Finset.add_sum_erase Finset.univ (fun j => A (ix3 b i j)) (Finset.mem_univ i)).symm

/-- The replaced matrix's row sum, with its diagonal term split off: off the diagonal the replaced matrix is A. -/
theorem rDeg_split (A : SA.Idx → EReal) (b : Fin 8) (i : Fin 2048) :
    rDeg A b i = rNew A b i + ∑ j ∈ Finset.univ.erase i, A (ix3 b i j) := by
  unfold rDeg
  rw [← Finset.add_sum_erase Finset.univ (fun j => aSelf A b i j) (Finset.mem_univ i)]
  have hd : aSelf A b i i = rNew A b i := by
    unfold aSelf
    exact if_pos rfl
  have ho : ∑ j ∈ Finset.univ.erase i, aSelf A b i j = ∑ j ∈ Finset.univ.erase i, A (ix3 b i j) := by
    refine Finset.sum_congr rfl ?_
    intro j hj
    unfold aSelf
    exact if_neg (Finset.ne_of_mem_erase hj)
  rw [hd, ho]

/-- The degrees agree: the finite diagonal entry cancels from the row sum. -/
theorem kDeg_eq_rDeg (A : SA.Idx → EReal) (hA : ∀ i, A i ≠ ⊤ ∧ A i ≠ ⊥) (b : Fin 8) (i : Fin 2048) :
    kDeg A b i = rDeg A b i := by
  unfold kDeg
  rw [kNew_eq_rNew, rowSum_split, rDeg_split]
  obtain ⟨htop, hbot⟩ := hA (ix3 b i i)
  generalize rNew A b i = ν
  generalize ∑ j ∈ Finset.univ.erase i, A (ix3 b i j) = R
  rw [← EReal.coe_toReal htop hbot, EReal.add_sub_cancel_left, add_comm]

theorem kOutAt_eq_rOutAt (x : SX.Idx → EReal) (A : SA.Idx → EReal) (W : SW.Idx → EReal)
    (hA : ∀ i, A i ≠ ⊤ ∧ A i ≠ ⊥) (b : Fin 8) (n : Fin 2048) (e : Fin 128) :
    kOutAt x A W b n e = rOutAt x A W b n e := by
  unfold kOutAt rOutAt
  refine Finset.sum_congr rfl ?_
  intro m _
  congr 1
  unfold kTerm kDinv
  rw [kDeg_eq_rDeg A hA, kNew_eq_rNew]
  unfold aSelf
  by_cases h : m = n
  · rw [if_pos h, if_pos h]
  · rw [if_neg h, if_neg h]

end Cert.Spec

end
-- ==== Proof.Finite.lean ====
/-
  The precondition read: "every |entry| is below +∞" says no entry of A is an infinity.
-/
import proofs.«176590_j84911503442515_1_alg».proof.Defs
import proofs.«176590_j84911503442515_1_alg».proof.Proof.Gen.Pre_finite_inputs
import proofs.«176590_j84911503442515_1_alg».proof.Proof.Spec
import Idealize.ShloMosaic.Lib.ReduceAll

noncomputable section

open scoped BigOperators

namespace Cert.Finite

open Idealize.ShloMosaic Idealize.ShloMosaic.ValueIdx Idealize.SL.Sem

/-- The scalar shape has one index. -/
local instance : Subsingleton Cert.Pre_finite_inputs.S_.Idx := ⟨fun a b => funext fun d => d.elim0⟩

/-- The pattern 0x7F800000 denotes +∞. -/
theorem inf_bits : (FloatOps.ofBits .f32 0x7F800000#32 : Ideal .f32) = (⊤ : EReal) := by
  show Ideal.ofBits .f32 0x7F800000#32 = ⊤
  simp [Ideal.ofBits, Ideal.ieee]

/-- An extended real whose absolute value max a (−a) is strictly below +∞ is neither infinity. -/
theorem ne_of_abs_lt_top (a : EReal) (h : Ideal.cmp .olt (max a (-a)) (⊤ : EReal) = 1#1) : a ≠ ⊤ ∧ a ≠ ⊥ := by
  induction a using EReal.rec with
  | bot => simp [Ideal.cmp] at h
  | top => simp [Ideal.cmp] at h
  | coe r => exact ⟨EReal.coe_ne_top r, EReal.coe_ne_bot r⟩

/-- If the precondition's function is all ones at (x, A, W), no entry of A is ⊤ or ⊥. -/
theorem finite_A [hF : Cert.Pre_finite_inputs.Facts] (x : FVec Ideal Cert.Pre_finite_inputs.S8x2048x128 .f32)
    (A : FVec Ideal Cert.Pre_finite_inputs.S8x2048x2048 .f32) (W : FVec Ideal Cert.Pre_finite_inputs.S128x128 .f32)
    (h : Cert.Pre_finite_inputs.fn (F := Ideal) x A W = fun _ => 1#1) :
    ∀ i, A i ≠ ⊤ ∧ A i ≠ ⊥ := by
  intro i
  have h0 := congrFun h ValueIdx.ix0
  dsimp only [Cert.Pre_finite_inputs.fn, andi] at h0
  obtain ⟨h1, _⟩ := IntOp.andi_eq_one.1 h0
  obtain ⟨_, h2⟩ := IntOp.andi_eq_one.1 h1
  have h3 := Host.reduce_andi_all _ _ _ _ _ h2 i
  have h4 : Ideal.cmp .olt (max (A i) (-(A i))) (⊤ : EReal) = 1#1 := by
    rw [← inf_bits]; exact h3
  exact ne_of_abs_lt_top _ h4

end Cert.Finite

end
-- ==== Proof.lean ====
/-
  A graph convolution: out = D⁻¹ Â · leakyReLU(x Wᵀ), where Â is the adjacency matrix A with its diagonal replaced by a
  self-loop value (1 at a node with any edge in or out, the old diagonal entry elsewhere) and D its row sums (a zero row
  sum read as reciprocal 0).

  The program computes this with three kernels — one pass over A for its row sums, column sums and diagonal; the hidden
  features; the aggregation with the normalisation built row by row on the fly — and a little host arithmetic between them
  (the degree as "row sum − old diagonal entry + new one"). The reference scatters the new diagonal into A and sums rows.

  On the extended reals the two are one function when A's entries are finite (Proof/Spec.lean says why, Proof/Bridge.lean
  proves it): the self-loop tests agree as a sum of sums, and the degrees agree because the old diagonal entry, being
  finite, cancels. The program's result is read off its run region by region (Proof/KReg0 … KReg2, KHost, KValue), the
  reference's off its straight-line run (Proof/RefStages, RefRun, RefIndex, RefRead); nothing is rewritten by the
  idealisation, so the word-level program's idealisation claim is empty.
-/
import proofs.«176590_j84911503442515_1_alg».proof.Defs
import proofs.«176590_j84911503442515_1_alg».proof.Proof.Gen.Kernel
import proofs.«176590_j84911503442515_1_alg».proof.Proof.Gen.KernelIdeal
import proofs.«176590_j84911503442515_1_alg».proof.Proof.Gen.ReferenceIdeal
import proofs.«176590_j84911503442515_1_alg».proof.Proof.Gen.Pre_finite_inputs
import proofs.«176590_j84911503442515_1_alg».proof.Proof.KernelFrame
import proofs.«176590_j84911503442515_1_alg».proof.Proof.KernelIdealFrame
import proofs.«176590_j84911503442515_1_alg».proof.Proof.KernelIdealRun
import proofs.«176590_j84911503442515_1_alg».proof.Proof.KValue
import proofs.«176590_j84911503442515_1_alg».proof.Proof.RefRun
import proofs.«176590_j84911503442515_1_alg».proof.Proof.RefRead
import proofs.«176590_j84911503442515_1_alg».proof.Proof.Bridge
import proofs.«176590_j84911503442515_1_alg».proof.Proof.Finite

noncomputable section

namespace Cert.Proof

open Idealize.ShloMosaic Idealize.ShloMosaic.TcCoe Idealize.ShloMosaic.ValueIdx Idealize.SL.Sem

/-- The word-level program runs and keeps its arguments. -/
theorem frame_k : Cert.frame_Kernel := fun m ρ _ => Cert.Kernel.GenP.frame m ρ
/-- So does its idealisation. -/
theorem frame_ki : Cert.frame_KernelIdeal := fun m ρ _ => Cert.KernelIdeal.GenP.frame m ρ
/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealised programs end with the specification's value of the arguments: the program with its own side of it,
    the reference with the other, and the two sides are equal where A is finite. -/
theorem algebraic : Cert.algebraic_KernelIdeal_ReferenceIdeal := by
  intro m ρ m' ρ' hpre hagree
  refine ⟨fun c => Cert.Spec.kOut (Cert.KernelIdeal.Val.xArg m c) (Cert.KernelIdeal.Val.aArg m c) (Cert.KernelIdeal.Val.wArg m c), ?_, ?_⟩
  · exact (θ_run Cert.KernelIdeal.defs _ _).mono
      (fun _ h c => ⟨(h c).1.trans (Cert.KernelIdeal.Val.final m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]
    funext j
    obtain ⟨b, n, e, rfl⟩ : ∃ (b : Fin 8) (n : Fin 2048) (e : Fin 128), j = ix3 b n e := ⟨j 0, j 1, j 2, eq_ix3 j⟩
    refine (Cert.ReferenceIdeal.RefRead.result_at _ _ _ b n e).trans ?_
    exact (Cert.Spec.kOutAt_eq_rOutAt _ _ _ (Cert.Finite.finite_A _ _ _ (hpre c)) b n e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
